-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S32768x512 : Shape := ⟨2, ![32768, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  main_v3
-- ==== Kernel.lean ====
abbrev S1024x512 : Shape := ⟨2, ![1024, 512]⟩
abbrev S1x512 : Shape := ⟨2, ![1, 512]⟩
abbrev S32x1x512 : Shape := ⟨3, ![32, 1, 512]⟩
abbrev S32 : Shape := ⟨1, ![32]⟩
abbrev S_ : Shape := ⟨0, ![]⟩
abbrev S512 : Shape := ⟨1, ![512]⟩
abbrev S1x1x512 : Shape := ⟨3, ![1, 1, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S32x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1009 : BitVec 32 := 0#32
  let c0_i32_1007 : BitVec 32 := 0#32
  let c1_i32_1008 : BitVec 32 := 1#32
  let v918 : BitVec 32 := Scalar.muli c0_i32_1007 c1_i32_1008
  let v919 : BitVec 32 := Scalar.addi c0_i32_1009 v918
  v919.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1009 : BitVec 32 := 0#32
  let c1_i32_1007 : BitVec 32 := 1#32
  let c1_i32_1008 : BitVec 32 := 1#32
  let v918 : BitVec 32 := Scalar.muli c1_i32_1007 c1_i32_1008
  let v919 : BitVec 32 := Scalar.addi c0_i32_1009 v918
  v919.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1009 : BitVec 32 := 0#32
  let c2_i32_1007 : BitVec 32 := 2#32
  let c1_i32_1008 : BitVec 32 := 1#32
  let v918 : BitVec 32 := Scalar.muli c2_i32_1007 c1_i32_1008
  let v919 : BitVec 32 := Scalar.addi c0_i32_1009 v918
  v919.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1009 : BitVec 32 := 0#32
  let c3_i32_1007 : BitVec 32 := 3#32
  let c1_i32_1008 : BitVec 32 := 1#32
  let v918 : BitVec 32 := Scalar.muli c3_i32_1007 c1_i32_1008
  let v919 : BitVec 32 := Scalar.addi c0_i32_1009 v918
  v919.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1009 : BitVec 32 := 0#32
  let c4_i32_1007 : BitVec 32 := 4#32
  let c1_i32_1008 : BitVec 32 := 1#32
  let v918 : BitVec 32 := Scalar.muli c4_i32_1007 c1_i32_1008
  let v919 : BitVec 32 := Scalar.addi c0_i32_1009 v918
  v919.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1009 : BitVec 32 := 0#32
  let c5_i32_1007 : BitVec 32 := 5#32
  let c1_i32_1008 : BitVec 32 := 1#32
  let v918 : BitVec 32 := Scalar.muli c5_i32_1007 c1_i32_1008
  let v919 : BitVec 32 := Scalar.addi c0_i32_1009 v918
  v919.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1009 : BitVec 32 := 0#32
  let c6_i32_1007 : BitVec 32 := 6#32
  let c1_i32_1008 : BitVec 32 := 1#32
  let v918 : BitVec 32 := Scalar.muli c6_i32_1007 c1_i32_1008
  let v919 : BitVec 32 := Scalar.addi c0_i32_1009 v918
  v919.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1009 : BitVec 32 := 0#32
  let c7_i32_1007 : BitVec 32 := 7#32
  let c1_i32_1008 : BitVec 32 := 1#32
  let v918 : BitVec 32 := Scalar.muli c7_i32_1007 c1_i32_1008
  let v919 : BitVec 32 := Scalar.addi c0_i32_1009 v918
  v919.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_1009 : BitVec 32 := 0#32
  let c8_i32_1007 : BitVec 32 := 8#32
  let c1_i32_1008 : BitVec 32 := 1#32
  let v918 : BitVec 32 := Scalar.muli c8_i32_1007 c1_i32_1008
  let v919 : BitVec 32 := Scalar.addi c0_i32_1009 v918
  v919.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_1009 : BitVec 32 := 0#32
  let c9_i32_1007 : BitVec 32 := 9#32
  let c1_i32_1008 : BitVec 32 := 1#32
  let v918 : BitVec 32 := Scalar.muli c9_i32_1007 c1_i32_1008
  let v919 : BitVec 32 := Scalar.addi c0_i32_1009 v918
  v919.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_1009 : BitVec 32 := 0#32
  let c10_i32_1007 : BitVec 32 := 10#32
  let c1_i32_1008 : BitVec 32 := 1#32
  let v918 : BitVec 32 := Scalar.muli c10_i32_1007 c1_i32_1008
  let v919 : BitVec 32 := Scalar.addi c0_i32_1009 v918
  v919.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_1009 : BitVec 32 := 0#32
  let c11_i32_1007 : BitVec 32 := 11#32
  let c1_i32_1008 : BitVec 32 := 1#32
  let v918 : BitVec 32 := Scalar.muli c11_i32_1007 c1_i32_1008
  let v919 : BitVec 32 := Scalar.addi c0_i32_1009 v918
  v919.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_1009 : BitVec 32 := 0#32
  let c12_i32_1007 : BitVec 32 := 12#32
  let c1_i32_1008 : BitVec 32 := 1#32
  let v918 : BitVec 32 := Scalar.muli c12_i32_1007 c1_i32_1008
  let v919 : BitVec 32 := Scalar.addi c0_i32_1009 v918
  v919.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_1009 : BitVec 32 := 0#32
  let c13_i32_1007 : BitVec 32 := 13#32
  let c1_i32_1008 : BitVec 32 := 1#32
  let v918 : BitVec 32 := Scalar.muli c13_i32_1007 c1_i32_1008
  let v919 : BitVec 32 := Scalar.addi c0_i32_1009 v918
  v919.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_1009 : BitVec 32 := 0#32
  let c14_i32_1007 : BitVec 32 := 14#32
  let c1_i32_1008 : BitVec 32 := 1#32
  let v918 : BitVec 32 := Scalar.muli c14_i32_1007 c1_i32_1008
  let v919 : BitVec 32 := Scalar.addi c0_i32_1009 v918
  v919.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_1009 : BitVec 32 := 0#32
  let c15_i32_1007 : BitVec 32 := 15#32
  let c1_i32_1008 : BitVec 32 := 1#32
  let v918 : BitVec 32 := Scalar.muli c15_i32_1007 c1_i32_1008
  let v919 : BitVec 32 := Scalar.addi c0_i32_1009 v918
  v919.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_1009 : BitVec 32 := 0#32
  let c16_i32_1007 : BitVec 32 := 16#32
  let c1_i32_1008 : BitVec 32 := 1#32
  let v918 : BitVec 32 := Scalar.muli c16_i32_1007 c1_i32_1008
  let v919 : BitVec 32 := Scalar.addi c0_i32_1009 v918
  v919.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_1009 : BitVec 32 := 0#32
  let c17_i32_1007 : BitVec 32 := 17#32
  let c1_i32_1008 : BitVec 32 := 1#32
  let v918 : BitVec 32 := Scalar.muli c17_i32_1007 c1_i32_1008
  let v919 : BitVec 32 := Scalar.addi c0_i32_1009 v918
  v919.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_1009 : BitVec 32 := 0#32
  let c18_i32_1007 : BitVec 32 := 18#32
  let c1_i32_1008 : BitVec 32 := 1#32
  let v918 : BitVec 32 := Scalar.muli c18_i32_1007 c1_i32_1008
  let v919 : BitVec 32 := Scalar.addi c0_i32_1009 v918
  v919.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_1009 : BitVec 32 := 0#32
  let c19_i32_1007 : BitVec 32 := 19#32
  let c1_i32_1008 : BitVec 32 := 1#32
  let v918 : BitVec 32 := Scalar.muli c19_i32_1007 c1_i32_1008
  let v919 : BitVec 32 := Scalar.addi c0_i32_1009 v918
  v919.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_1009 : BitVec 32 := 0#32
  let c20_i32_1007 : BitVec 32 := 20#32
  let c1_i32_1008 : BitVec 32 := 1#32
  let v918 : BitVec 32 := Scalar.muli c20_i32_1007 c1_i32_1008
  let v919 : BitVec 32 := Scalar.addi c0_i32_1009 v918
  v919.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_1009 : BitVec 32 := 0#32
  let c21_i32_1007 : BitVec 32 := 21#32
  let c1_i32_1008 : BitVec 32 := 1#32
  let v918 : BitVec 32 := Scalar.muli c21_i32_1007 c1_i32_1008
  let v919 : BitVec 32 := Scalar.addi c0_i32_1009 v918
  v919.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_1009 : BitVec 32 := 0#32
  let c22_i32_1007 : BitVec 32 := 22#32
  let c1_i32_1008 : BitVec 32 := 1#32
  let v918 : BitVec 32 := Scalar.muli c22_i32_1007 c1_i32_1008
  let v919 : BitVec 32 := Scalar.addi c0_i32_1009 v918
  v919.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_1009 : BitVec 32 := 0#32
  let c23_i32_1007 : BitVec 32 := 23#32
  let c1_i32_1008 : BitVec 32 := 1#32
  let v918 : BitVec 32 := Scalar.muli c23_i32_1007 c1_i32_1008
  let v919 : BitVec 32 := Scalar.addi c0_i32_1009 v918
  v919.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_1009 : BitVec 32 := 0#32
  let c24_i32_1007 : BitVec 32 := 24#32
  let c1_i32_1008 : BitVec 32 := 1#32
  let v918 : BitVec 32 := Scalar.muli c24_i32_1007 c1_i32_1008
  let v919 : BitVec 32 := Scalar.addi c0_i32_1009 v918
  v919.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_1009 : BitVec 32 := 0#32
  let c25_i32_1007 : BitVec 32 := 25#32
  let c1_i32_1008 : BitVec 32 := 1#32
  let v918 : BitVec 32 := Scalar.muli c25_i32_1007 c1_i32_1008
  let v919 : BitVec 32 := Scalar.addi c0_i32_1009 v918
  v919.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_1009 : BitVec 32 := 0#32
  let c26_i32_1007 : BitVec 32 := 26#32
  let c1_i32_1008 : BitVec 32 := 1#32
  let v918 : BitVec 32 := Scalar.muli c26_i32_1007 c1_i32_1008
  let v919 : BitVec 32 := Scalar.addi c0_i32_1009 v918
  v919.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_1009 : BitVec 32 := 0#32
  let c27_i32_1007 : BitVec 32 := 27#32
  let c1_i32_1008 : BitVec 32 := 1#32
  let v918 : BitVec 32 := Scalar.muli c27_i32_1007 c1_i32_1008
  let v919 : BitVec 32 := Scalar.addi c0_i32_1009 v918
  v919.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_1009 : BitVec 32 := 0#32
  let c28_i32_1007 : BitVec 32 := 28#32
  let c1_i32_1008 : BitVec 32 := 1#32
  let v918 : BitVec 32 := Scalar.muli c28_i32_1007 c1_i32_1008
  let v919 : BitVec 32 := Scalar.addi c0_i32_1009 v918
  v919.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_1009 : BitVec 32 := 0#32
  let c29_i32_1007 : BitVec 32 := 29#32
  let c1_i32_1008 : BitVec 32 := 1#32
  let v918 : BitVec 32 := Scalar.muli c29_i32_1007 c1_i32_1008
  let v919 : BitVec 32 := Scalar.addi c0_i32_1009 v918
  v919.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_1009 : BitVec 32 := 0#32
  let c30_i32_1007 : BitVec 32 := 30#32
  let c1_i32_1008 : BitVec 32 := 1#32
  let v918 : BitVec 32 := Scalar.muli c30_i32_1007 c1_i32_1008
  let v919 : BitVec 32 := Scalar.addi c0_i32_1009 v918
  v919.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_1009 : BitVec 32 := 0#32
  let c31_i32_1007 : BitVec 32 := 31#32
  let c1_i32_1008 : BitVec 32 := 1#32
  let v918 : BitVec 32 := Scalar.muli c31_i32_1007 c1_i32_1008
  let v919 : BitVec 32 := Scalar.addi c0_i32_1009 v918
  v919.toNat
def k0_dev33 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v107 : BitVec 32 := Scalar.addi v2 c1_i32_38
  let c32_i32_39 : BitVec 32 := 32#32
  let v108 : BitVec 32 := Scalar.remsi v107 c32_i32_39
  let c1_i32_44 : BitVec 32 := 1#32
  let v109 : BitVec 32 := Scalar.muli v108 c1_i32_44
  let v110 : BitVec 32 := Scalar.addi c0_i32_45 v109
  v110.toNat
def k0_dev34 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_50 : BitVec 32 := 2#32
  let v119 : BitVec 32 := Scalar.addi v2 c2_i32_50
  let c32_i32_51 : BitVec 32 := 32#32
  let v120 : BitVec 32 := Scalar.remsi v119 c32_i32_51
  let c1_i32_56 : BitVec 32 := 1#32
  let v121 : BitVec 32 := Scalar.muli v120 c1_i32_56
  let v122 : BitVec 32 := Scalar.addi c0_i32_57 v121
  v122.toNat
def k0_dev35 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_62 : BitVec 32 := 3#32
  let v131 : BitVec 32 := Scalar.addi v2 c3_i32_62
  let c32_i32_63 : BitVec 32 := 32#32
  let v132 : BitVec 32 := Scalar.remsi v131 c32_i32_63
  let c1_i32_68 : BitVec 32 := 1#32
  let v133 : BitVec 32 := Scalar.muli v132 c1_i32_68
  let v134 : BitVec 32 := Scalar.addi c0_i32_69 v133
  v134.toNat
def k0_dev36 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_74 : BitVec 32 := 4#32
  let v143 : BitVec 32 := Scalar.addi v2 c4_i32_74
  let c32_i32_75 : BitVec 32 := 32#32
  let v144 : BitVec 32 := Scalar.remsi v143 c32_i32_75
  let c1_i32_80 : BitVec 32 := 1#32
  let v145 : BitVec 32 := Scalar.muli v144 c1_i32_80
  let v146 : BitVec 32 := Scalar.addi c0_i32_81 v145
  v146.toNat
def k0_dev37 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_86 : BitVec 32 := 5#32
  let v155 : BitVec 32 := Scalar.addi v2 c5_i32_86
  let c32_i32_87 : BitVec 32 := 32#32
  let v156 : BitVec 32 := Scalar.remsi v155 c32_i32_87
  let c1_i32_92 : BitVec 32 := 1#32
  let v157 : BitVec 32 := Scalar.muli v156 c1_i32_92
  let v158 : BitVec 32 := Scalar.addi c0_i32_93 v157
  v158.toNat
def k0_dev38 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_98 : BitVec 32 := 6#32
  let v167 : BitVec 32 := Scalar.addi v2 c6_i32_98
  let c32_i32_99 : BitVec 32 := 32#32
  let v168 : BitVec 32 := Scalar.remsi v167 c32_i32_99
  let c1_i32_104 : BitVec 32 := 1#32
  let v169 : BitVec 32 := Scalar.muli v168 c1_i32_104
  let v170 : BitVec 32 := Scalar.addi c0_i32_105 v169
  v170.toNat
def k0_dev39 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_110 : BitVec 32 := 7#32
  let v179 : BitVec 32 := Scalar.addi v2 c7_i32_110
  let c32_i32_111 : BitVec 32 := 32#32
  let v180 : BitVec 32 := Scalar.remsi v179 c32_i32_111
  let c1_i32_116 : BitVec 32 := 1#32
  let v181 : BitVec 32 := Scalar.muli v180 c1_i32_116
  let v182 : BitVec 32 := Scalar.addi c0_i32_117 v181
  v182.toNat
def k0_dev40 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_122 : BitVec 32 := 8#32
  let v191 : BitVec 32 := Scalar.addi v2 c8_i32_122
  let c32_i32_123 : BitVec 32 := 32#32
  let v192 : BitVec 32 := Scalar.remsi v191 c32_i32_123
  let c1_i32_128 : BitVec 32 := 1#32
  let v193 : BitVec 32 := Scalar.muli v192 c1_i32_128
  let v194 : BitVec 32 := Scalar.addi c0_i32_129 v193
  v194.toNat
def k0_dev41 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_134 : BitVec 32 := 9#32
  let v203 : BitVec 32 := Scalar.addi v2 c9_i32_134
  let c32_i32_135 : BitVec 32 := 32#32
  let v204 : BitVec 32 := Scalar.remsi v203 c32_i32_135
  let c1_i32_140 : BitVec 32 := 1#32
  let v205 : BitVec 32 := Scalar.muli v204 c1_i32_140
  let v206 : BitVec 32 := Scalar.addi c0_i32_141 v205
  v206.toNat
def k0_dev42 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_146 : BitVec 32 := 10#32
  let v215 : BitVec 32 := Scalar.addi v2 c10_i32_146
  let c32_i32_147 : BitVec 32 := 32#32
  let v216 : BitVec 32 := Scalar.remsi v215 c32_i32_147
  let c1_i32_152 : BitVec 32 := 1#32
  let v217 : BitVec 32 := Scalar.muli v216 c1_i32_152
  let v218 : BitVec 32 := Scalar.addi c0_i32_153 v217
  v218.toNat
def k0_dev43 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_158 : BitVec 32 := 11#32
  let v227 : BitVec 32 := Scalar.addi v2 c11_i32_158
  let c32_i32_159 : BitVec 32 := 32#32
  let v228 : BitVec 32 := Scalar.remsi v227 c32_i32_159
  let c1_i32_164 : BitVec 32 := 1#32
  let v229 : BitVec 32 := Scalar.muli v228 c1_i32_164
  let v230 : BitVec 32 := Scalar.addi c0_i32_165 v229
  v230.toNat
def k0_dev44 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_170 : BitVec 32 := 12#32
  let v239 : BitVec 32 := Scalar.addi v2 c12_i32_170
  let c32_i32_171 : BitVec 32 := 32#32
  let v240 : BitVec 32 := Scalar.remsi v239 c32_i32_171
  let c1_i32_176 : BitVec 32 := 1#32
  let v241 : BitVec 32 := Scalar.muli v240 c1_i32_176
  let v242 : BitVec 32 := Scalar.addi c0_i32_177 v241
  v242.toNat
def k0_dev45 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_182 : BitVec 32 := 13#32
  let v251 : BitVec 32 := Scalar.addi v2 c13_i32_182
  let c32_i32_183 : BitVec 32 := 32#32
  let v252 : BitVec 32 := Scalar.remsi v251 c32_i32_183
  let c1_i32_188 : BitVec 32 := 1#32
  let v253 : BitVec 32 := Scalar.muli v252 c1_i32_188
  let v254 : BitVec 32 := Scalar.addi c0_i32_189 v253
  v254.toNat
def k0_dev46 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_194 : BitVec 32 := 14#32
  let v263 : BitVec 32 := Scalar.addi v2 c14_i32_194
  let c32_i32_195 : BitVec 32 := 32#32
  let v264 : BitVec 32 := Scalar.remsi v263 c32_i32_195
  let c1_i32_200 : BitVec 32 := 1#32
  let v265 : BitVec 32 := Scalar.muli v264 c1_i32_200
  let v266 : BitVec 32 := Scalar.addi c0_i32_201 v265
  v266.toNat
def k0_dev47 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_206 : BitVec 32 := 15#32
  let v275 : BitVec 32 := Scalar.addi v2 c15_i32_206
  let c32_i32_207 : BitVec 32 := 32#32
  let v276 : BitVec 32 := Scalar.remsi v275 c32_i32_207
  let c1_i32_212 : BitVec 32 := 1#32
  let v277 : BitVec 32 := Scalar.muli v276 c1_i32_212
  let v278 : BitVec 32 := Scalar.addi c0_i32_213 v277
  v278.toNat
def k0_dev48 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_218 : BitVec 32 := 16#32
  let v287 : BitVec 32 := Scalar.addi v2 c16_i32_218
  let c32_i32_219 : BitVec 32 := 32#32
  let v288 : BitVec 32 := Scalar.remsi v287 c32_i32_219
  let c1_i32_224 : BitVec 32 := 1#32
  let v289 : BitVec 32 := Scalar.muli v288 c1_i32_224
  let v290 : BitVec 32 := Scalar.addi c0_i32_225 v289
  v290.toNat
def k0_dev49 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_230 : BitVec 32 := 17#32
  let v299 : BitVec 32 := Scalar.addi v2 c17_i32_230
  let c32_i32_231 : BitVec 32 := 32#32
  let v300 : BitVec 32 := Scalar.remsi v299 c32_i32_231
  let c1_i32_236 : BitVec 32 := 1#32
  let v301 : BitVec 32 := Scalar.muli v300 c1_i32_236
  let v302 : BitVec 32 := Scalar.addi c0_i32_237 v301
  v302.toNat
def k0_dev50 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_242 : BitVec 32 := 18#32
  let v311 : BitVec 32 := Scalar.addi v2 c18_i32_242
  let c32_i32_243 : BitVec 32 := 32#32
  let v312 : BitVec 32 := Scalar.remsi v311 c32_i32_243
  let c1_i32_248 : BitVec 32 := 1#32
  let v313 : BitVec 32 := Scalar.muli v312 c1_i32_248
  let v314 : BitVec 32 := Scalar.addi c0_i32_249 v313
  v314.toNat
def k0_dev51 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_254 : BitVec 32 := 19#32
  let v323 : BitVec 32 := Scalar.addi v2 c19_i32_254
  let c32_i32_255 : BitVec 32 := 32#32
  let v324 : BitVec 32 := Scalar.remsi v323 c32_i32_255
  let c1_i32_260 : BitVec 32 := 1#32
  let v325 : BitVec 32 := Scalar.muli v324 c1_i32_260
  let v326 : BitVec 32 := Scalar.addi c0_i32_261 v325
  v326.toNat
def k0_dev52 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_266 : BitVec 32 := 20#32
  let v335 : BitVec 32 := Scalar.addi v2 c20_i32_266
  let c32_i32_267 : BitVec 32 := 32#32
  let v336 : BitVec 32 := Scalar.remsi v335 c32_i32_267
  let c1_i32_272 : BitVec 32 := 1#32
  let v337 : BitVec 32 := Scalar.muli v336 c1_i32_272
  let v338 : BitVec 32 := Scalar.addi c0_i32_273 v337
  v338.toNat
def k0_dev53 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_278 : BitVec 32 := 21#32
  let v347 : BitVec 32 := Scalar.addi v2 c21_i32_278
  let c32_i32_279 : BitVec 32 := 32#32
  let v348 : BitVec 32 := Scalar.remsi v347 c32_i32_279
  let c1_i32_284 : BitVec 32 := 1#32
  let v349 : BitVec 32 := Scalar.muli v348 c1_i32_284
  let v350 : BitVec 32 := Scalar.addi c0_i32_285 v349
  v350.toNat
def k0_dev54 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_290 : BitVec 32 := 22#32
  let v359 : BitVec 32 := Scalar.addi v2 c22_i32_290
  let c32_i32_291 : BitVec 32 := 32#32
  let v360 : BitVec 32 := Scalar.remsi v359 c32_i32_291
  let c1_i32_296 : BitVec 32 := 1#32
  let v361 : BitVec 32 := Scalar.muli v360 c1_i32_296
  let v362 : BitVec 32 := Scalar.addi c0_i32_297 v361
  v362.toNat
def k0_dev55 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_302 : BitVec 32 := 23#32
  let v371 : BitVec 32 := Scalar.addi v2 c23_i32_302
  let c32_i32_303 : BitVec 32 := 32#32
  let v372 : BitVec 32 := Scalar.remsi v371 c32_i32_303
  let c1_i32_308 : BitVec 32 := 1#32
  let v373 : BitVec 32 := Scalar.muli v372 c1_i32_308
  let v374 : BitVec 32 := Scalar.addi c0_i32_309 v373
  v374.toNat
def k0_dev56 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_314 : BitVec 32 := 24#32
  let v383 : BitVec 32 := Scalar.addi v2 c24_i32_314
  let c32_i32_315 : BitVec 32 := 32#32
  let v384 : BitVec 32 := Scalar.remsi v383 c32_i32_315
  let c1_i32_320 : BitVec 32 := 1#32
  let v385 : BitVec 32 := Scalar.muli v384 c1_i32_320
  let v386 : BitVec 32 := Scalar.addi c0_i32_321 v385
  v386.toNat
def k0_dev57 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_326 : BitVec 32 := 25#32
  let v395 : BitVec 32 := Scalar.addi v2 c25_i32_326
  let c32_i32_327 : BitVec 32 := 32#32
  let v396 : BitVec 32 := Scalar.remsi v395 c32_i32_327
  let c1_i32_332 : BitVec 32 := 1#32
  let v397 : BitVec 32 := Scalar.muli v396 c1_i32_332
  let v398 : BitVec 32 := Scalar.addi c0_i32_333 v397
  v398.toNat
def k0_dev58 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_338 : BitVec 32 := 26#32
  let v407 : BitVec 32 := Scalar.addi v2 c26_i32_338
  let c32_i32_339 : BitVec 32 := 32#32
  let v408 : BitVec 32 := Scalar.remsi v407 c32_i32_339
  let c1_i32_344 : BitVec 32 := 1#32
  let v409 : BitVec 32 := Scalar.muli v408 c1_i32_344
  let v410 : BitVec 32 := Scalar.addi c0_i32_345 v409
  v410.toNat
def k0_dev59 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_350 : BitVec 32 := 27#32
  let v419 : BitVec 32 := Scalar.addi v2 c27_i32_350
  let c32_i32_351 : BitVec 32 := 32#32
  let v420 : BitVec 32 := Scalar.remsi v419 c32_i32_351
  let c1_i32_356 : BitVec 32 := 1#32
  let v421 : BitVec 32 := Scalar.muli v420 c1_i32_356
  let v422 : BitVec 32 := Scalar.addi c0_i32_357 v421
  v422.toNat
def k0_dev60 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_362 : BitVec 32 := 28#32
  let v431 : BitVec 32 := Scalar.addi v2 c28_i32_362
  let c32_i32_363 : BitVec 32 := 32#32
  let v432 : BitVec 32 := Scalar.remsi v431 c32_i32_363
  let c1_i32_368 : BitVec 32 := 1#32
  let v433 : BitVec 32 := Scalar.muli v432 c1_i32_368
  let v434 : BitVec 32 := Scalar.addi c0_i32_369 v433
  v434.toNat
def k0_dev61 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_374 : BitVec 32 := 29#32
  let v443 : BitVec 32 := Scalar.addi v2 c29_i32_374
  let c32_i32_375 : BitVec 32 := 32#32
  let v444 : BitVec 32 := Scalar.remsi v443 c32_i32_375
  let c1_i32_380 : BitVec 32 := 1#32
  let v445 : BitVec 32 := Scalar.muli v444 c1_i32_380
  let v446 : BitVec 32 := Scalar.addi c0_i32_381 v445
  v446.toNat
def k0_dev62 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_386 : BitVec 32 := 30#32
  let v455 : BitVec 32 := Scalar.addi v2 c30_i32_386
  let c32_i32_387 : BitVec 32 := 32#32
  let v456 : BitVec 32 := Scalar.remsi v455 c32_i32_387
  let c1_i32_392 : BitVec 32 := 1#32
  let v457 : BitVec 32 := Scalar.muli v456 c1_i32_392
  let v458 : BitVec 32 := Scalar.addi c0_i32_393 v457
  v458.toNat
def k0_dev63 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_398 : BitVec 32 := 31#32
  let v467 : BitVec 32 := Scalar.addi v2 c31_i32_398
  let c32_i32_399 : BitVec 32 := 32#32
  let v468 : BitVec 32 := Scalar.remsi v467 c32_i32_399
  let c1_i32_404 : BitVec 32 := 1#32
  let v469 : BitVec 32 := Scalar.muli v468 c1_i32_404
  let v470 : BitVec 32 := Scalar.addi c0_i32_405 v469
  v470.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S32x1x512_S1x1x512_0_0_0 : ∀ a, (![0, 0, 0] : Fin 3 → Nat) a + S1x1x512.size a ≤ S32x1x512.size a
  h_S1x1x512 : 0 < S1x1x512.numel
  shapeCasts_S1x1x512_S1x512 : S1x1x512.ShapeCasts S1x512
  shapeCasts_S1x512_S1x1x512 : S1x512.ShapeCasts S1x1x512
  hamt_31 : (31#32 : BitVec 32).msb = false
  inb_S32_S1_1 : ∀ a, (![1] : Fin 1 → Nat) a + S1.size a ≤ S32.size a
  squeezes_S1_S_ : S1.Squeezes S_
  inb_S32x1x512_S1x1x512_1_0_0 : ∀ a, (![1, 0, 0] : Fin 3 → Nat) a + S1x1x512.size a ≤ S32x1x512.size a
  squeezes_S1x1x512_S1x512 : S1x1x512.Squeezes S1x512
  inb_S32_S1_2 : ∀ a, (![2] : Fin 1 → Nat) a + S1.size a ≤ S32.size a
  inb_S32x1x512_S1x1x512_2_0_0 : ∀ a, (![2, 0, 0] : Fin 3 → Nat) a + S1x1x512.size a ≤ S32x1x512.size a
  inb_S32_S1_3 : ∀ a, (![3] : Fin 1 → Nat) a + S1.size a ≤ S32.size a
  inb_S32x1x512_S1x1x512_3_0_0 : ∀ a, (![3, 0, 0] : Fin 3 → Nat) a + S1x1x512.size a ≤ S32x1x512.size a
  inb_S32_S1_4 : ∀ a, (![4] : Fin 1 → Nat) a + S1.size a ≤ S32.size a
  inb_S32x1x512_S1x1x512_4_0_0 : ∀ a, (![4, 0, 0] : Fin 3 → Nat) a + S1x1x512.size a ≤ S32x1x512.size a
  inb_S32_S1_5 : ∀ a, (![5] : Fin 1 → Nat) a + S1.size a ≤ S32.size a
  inb_S32x1x512_S1x1x512_5_0_0 : ∀ a, (![5, 0, 0] : Fin 3 → Nat) a + S1x1x512.size a ≤ S32x1x512.size a
  inb_S32_S1_6 : ∀ a, (![6] : Fin 1 → Nat) a + S1.size a ≤ S32.size a
  inb_S32x1x512_S1x1x512_6_0_0 : ∀ a, (![6, 0, 0] : Fin 3 → Nat) a + S1x1x512.size a ≤ S32x1x512.size a
  inb_S32_S1_7 : ∀ a, (![7] : Fin 1 → Nat) a + S1.size a ≤ S32.size a
  inb_S32x1x512_S1x1x512_7_0_0 : ∀ a, (![7, 0, 0] : Fin 3 → Nat) a + S1x1x512.size a ≤ S32x1x512.size a
  inb_S32_S1_8 : ∀ a, (![8] : Fin 1 → Nat) a + S1.size a ≤ S32.size a
  inb_S32x1x512_S1x1x512_8_0_0 : ∀ a, (![8, 0, 0] : Fin 3 → Nat) a + S1x1x512.size a ≤ S32x1x512.size a
  inb_S32_S1_9 : ∀ a, (![9] : Fin 1 → Nat) a + S1.size a ≤ S32.size a
  inb_S32x1x512_S1x1x512_9_0_0 : ∀ a, (![9, 0, 0] : Fin 3 → Nat) a + S1x1x512.size a ≤ S32x1x512.size a
  inb_S32_S1_10 : ∀ a, (![10] : Fin 1 → Nat) a + S1.size a ≤ S32.size a
  inb_S32x1x512_S1x1x512_10_0_0 : ∀ a, (![10, 0, 0] : Fin 3 → Nat) a + S1x1x512.size a ≤ S32x1x512.size a
  inb_S32_S1_11 : ∀ a, (![11] : Fin 1 → Nat) a + S1.size a ≤ S32.size a
  inb_S32x1x512_S1x1x512_11_0_0 : ∀ a, (![11, 0, 0] : Fin 3 → Nat) a + S1x1x512.size a ≤ S32x1x512.size a
  inb_S32_S1_12 : ∀ a, (![12] : Fin 1 → Nat) a + S1.size a ≤ S32.size a
  inb_S32x1x512_S1x1x512_12_0_0 : ∀ a, (![12, 0, 0] : Fin 3 → Nat) a + S1x1x512.size a ≤ S32x1x512.size a
  inb_S32_S1_13 : ∀ a, (![13] : Fin 1 → Nat) a + S1.size a ≤ S32.size a
  inb_S32x1x512_S1x1x512_13_0_0 : ∀ a, (![13, 0, 0] : Fin 3 → Nat) a + S1x1x512.size a ≤ S32x1x512.size a
  inb_S32_S1_14 : ∀ a, (![14] : Fin 1 → Nat) a + S1.size a ≤ S32.size a
  inb_S32x1x512_S1x1x512_14_0_0 : ∀ a, (![14, 0, 0] : Fin 3 → Nat) a + S1x1x512.size a ≤ S32x1x512.size a
  inb_S32_S1_15 : ∀ a, (![15] : Fin 1 → Nat) a + S1.size a ≤ S32.size a
  inb_S32x1x512_S1x1x512_15_0_0 : ∀ a, (![15, 0, 0] : Fin 3 → Nat) a + S1x1x512.size a ≤ S32x1x512.size a
  inb_S32_S1_16 : ∀ a, (![16] : Fin 1 → Nat) a + S1.size a ≤ S32.size a
  inb_S32x1x512_S1x1x512_16_0_0 : ∀ a, (![16, 0, 0] : Fin 3 → Nat) a + S1x1x512.size a ≤ S32x1x512.size a
  inb_S32_S1_17 : ∀ a, (![17] : Fin 1 → Nat) a + S1.size a ≤ S32.size a
  inb_S32x1x512_S1x1x512_17_0_0 : ∀ a, (![17, 0, 0] : Fin 3 → Nat) a + S1x1x512.size a ≤ S32x1x512.size a
  inb_S32_S1_18 : ∀ a, (![18] : Fin 1 → Nat) a + S1.size a ≤ S32.size a
  inb_S32x1x512_S1x1x512_18_0_0 : ∀ a, (![18, 0, 0] : Fin 3 → Nat) a + S1x1x512.size a ≤ S32x1x512.size a
  inb_S32_S1_19 : ∀ a, (![19] : Fin 1 → Nat) a + S1.size a ≤ S32.size a
  inb_S32x1x512_S1x1x512_19_0_0 : ∀ a, (![19, 0, 0] : Fin 3 → Nat) a + S1x1x512.size a ≤ S32x1x512.size a
  inb_S32_S1_20 : ∀ a, (![20] : Fin 1 → Nat) a + S1.size a ≤ S32.size a
  inb_S32x1x512_S1x1x512_20_0_0 : ∀ a, (![20, 0, 0] : Fin 3 → Nat) a + S1x1x512.size a ≤ S32x1x512.size a
  inb_S32_S1_21 : ∀ a, (![21] : Fin 1 → Nat) a + S1.size a ≤ S32.size a
  inb_S32x1x512_S1x1x512_21_0_0 : ∀ a, (![21, 0, 0] : Fin 3 → Nat) a + S1x1x512.size a ≤ S32x1x512.size a
  inb_S32_S1_22 : ∀ a, (![22] : Fin 1 → Nat) a + S1.size a ≤ S32.size a
  inb_S32x1x512_S1x1x512_22_0_0 : ∀ a, (![22, 0, 0] : Fin 3 → Nat) a + S1x1x512.size a ≤ S32x1x512.size a
  inb_S32_S1_23 : ∀ a, (![23] : Fin 1 → Nat) a + S1.size a ≤ S32.size a
  inb_S32x1x512_S1x1x512_23_0_0 : ∀ a, (![23, 0, 0] : Fin 3 → Nat) a + S1x1x512.size a ≤ S32x1x512.size a
  inb_S32_S1_24 : ∀ a, (![24] : Fin 1 → Nat) a + S1.size a ≤ S32.size a
  inb_S32x1x512_S1x1x512_24_0_0 : ∀ a, (![24, 0, 0] : Fin 3 → Nat) a + S1x1x512.size a ≤ S32x1x512.size a
  inb_S32_S1_25 : ∀ a, (![25] : Fin 1 → Nat) a + S1.size a ≤ S32.size a
  inb_S32x1x512_S1x1x512_25_0_0 : ∀ a, (![25, 0, 0] : Fin 3 → Nat) a + S1x1x512.size a ≤ S32x1x512.size a
  inb_S32_S1_26 : ∀ a, (![26] : Fin 1 → Nat) a + S1.size a ≤ S32.size a
  inb_S32x1x512_S1x1x512_26_0_0 : ∀ a, (![26, 0, 0] : Fin 3 → Nat) a + S1x1x512.size a ≤ S32x1x512.size a
  inb_S32_S1_27 : ∀ a, (![27] : Fin 1 → Nat) a + S1.size a ≤ S32.size a
  inb_S32x1x512_S1x1x512_27_0_0 : ∀ a, (![27, 0, 0] : Fin 3 → Nat) a + S1x1x512.size a ≤ S32x1x512.size a
  inb_S32_S1_28 : ∀ a, (![28] : Fin 1 → Nat) a + S1.size a ≤ S32.size a
  inb_S32x1x512_S1x1x512_28_0_0 : ∀ a, (![28, 0, 0] : Fin 3 → Nat) a + S1x1x512.size a ≤ S32x1x512.size a
  inb_S32_S1_29 : ∀ a, (![29] : Fin 1 → Nat) a + S1.size a ≤ S32.size a
  inb_S32x1x512_S1x1x512_29_0_0 : ∀ a, (![29, 0, 0] : Fin 3 → Nat) a + S1x1x512.size a ≤ S32x1x512.size a
  inb_S32_S1_30 : ∀ a, (![30] : Fin 1 → Nat) a + S1.size a ≤ S32.size a
  inb_S32x1x512_S1x1x512_30_0_0 : ∀ a, (![30, 0, 0] : Fin 3 → Nat) a + S1x1x512.size a ≤ S32x1x512.size a
  inb_S32_S1_31 : ∀ a, (![31] : Fin 1 → Nat) a + S1.size a ≤ S32.size a
  inb_S32x1x512_S1x1x512_31_0_0 : ∀ a, (![31, 0, 0] : Fin 3 → Nat) a + S1x1x512.size a ≤ S32x1x512.size a
  inb_S32x1x512_S32x1x512_0_0_0 : ∀ a, (![0, 0, 0] : Fin 3 → Nat) a + S32x1x512.size a ≤ S32x1x512.size a
  h_S32x1x512 : 0 < S32x1x512.numel
  reduces_S32x1x512_S1x512 : S32x1x512.Reduces [0] S1x512
  inb_S1x512_S1x512_0_0 : ∀ a, (![0, 0] : Fin 2 → Nat) a + S1x512.size a ≤ S1x512.size a
  h_S1x512 : 0 < S1x512.numel
  hcc0_scratch1 : 2 + S32.numel ≤ 66
  hcc0_scratch2 : 34 + S32.numel ≤ 66
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_dev9_lt : ∀ d0 : Dev nD, ∀ (k0_h9 : k0_cond9 d0 = 1#1), k0_dev9 < nD
  k0_dev10_lt : ∀ d0 : Dev nD, ∀ (k0_h10 : k0_cond10 d0 = 1#1), k0_dev10 < nD
  k0_dev11_lt : ∀ d0 : Dev nD, ∀ (k0_h11 : k0_cond11 d0 = 1#1), k0_dev11 < nD
  k0_dev12_lt : ∀ d0 : Dev nD, ∀ (k0_h12 : k0_cond12 d0 = 1#1), k0_dev12 < nD
  k0_dev13_lt : ∀ d0 : Dev nD, ∀ (k0_h13 : k0_cond13 d0 = 1#1), k0_dev13 < nD
  k0_dev14_lt : ∀ d0 : Dev nD, ∀ (k0_h14 : k0_cond14 d0 = 1#1), k0_dev14 < nD
  k0_dev15_lt : ∀ d0 : Dev nD, ∀ (k0_h15 : k0_cond15 d0 = 1#1), k0_dev15 < nD
  k0_dev16_lt : ∀ d0 : Dev nD, ∀ (k0_h16 : k0_cond16 d0 = 1#1), k0_dev16 < nD
  k0_dev17_lt : ∀ d0 : Dev nD, ∀ (k0_h17 : k0_cond17 d0 = 1#1), k0_dev17 < nD
  k0_dev18_lt : ∀ d0 : Dev nD, ∀ (k0_h18 : k0_cond18 d0 = 1#1), k0_dev18 < nD
  k0_dev19_lt : ∀ d0 : Dev nD, ∀ (k0_h19 : k0_cond19 d0 = 1#1), k0_dev19 < nD
  k0_dev20_lt : ∀ d0 : Dev nD, ∀ (k0_h20 : k0_cond20 d0 = 1#1), k0_dev20 < nD
  k0_dev21_lt : ∀ d0 : Dev nD, ∀ (k0_h21 : k0_cond21 d0 = 1#1), k0_dev21 < nD
  k0_dev22_lt : ∀ d0 : Dev nD, ∀ (k0_h22 : k0_cond22 d0 = 1#1), k0_dev22 < nD
  k0_dev23_lt : ∀ d0 : Dev nD, ∀ (k0_h23 : k0_cond23 d0 = 1#1), k0_dev23 < nD
  k0_dev24_lt : ∀ d0 : Dev nD, ∀ (k0_h24 : k0_cond24 d0 = 1#1), k0_dev24 < nD
  k0_dev25_lt : ∀ d0 : Dev nD, ∀ (k0_h25 : k0_cond25 d0 = 1#1), k0_dev25 < nD
  k0_dev26_lt : ∀ d0 : Dev nD, ∀ (k0_h26 : k0_cond26 d0 = 1#1), k0_dev26 < nD
  k0_dev27_lt : ∀ d0 : Dev nD, ∀ (k0_h27 : k0_cond27 d0 = 1#1), k0_dev27 < nD
  k0_dev28_lt : ∀ d0 : Dev nD, ∀ (k0_h28 : k0_cond28 d0 = 1#1), k0_dev28 < nD
  k0_dev29_lt : ∀ d0 : Dev nD, ∀ (k0_h29 : k0_cond29 d0 = 1#1), k0_dev29 < nD
  k0_dev30_lt : ∀ d0 : Dev nD, ∀ (k0_h30 : k0_cond30 d0 = 1#1), k0_dev30 < nD
  k0_dev31_lt : ∀ d0 : Dev nD, ∀ (k0_h31 : k0_cond31 d0 = 1#1), k0_dev31 < nD
  k0_dev32_lt : ∀ d0 : Dev nD, ∀ (k0_h32 : k0_cond32 d0 = 1#1), k0_dev32 < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S32768x512_S512_d0 : S32768x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.Cells.lean ====
/-
  The all-to-all mean on 32 devices: the cells of its protocol and what each landing hands its owner.

  Every device first tells every OTHER device, on that device's barrier semaphore, that it is inside the kernel, and with
  that word lends it the one slot of its own 32-slot landing buffer that the other device will write (slot k of device d is
  written by the device k places before d on the ring); it then stores the column sums of its own block in slot 0, waits for
  the 31 words of the others (and with them holds the 31 slots it writes), copies slot 0 into slot r of the device r places
  after it for r = 1 … 31 — each copy reading slot 0 at its own share of it, crediting its own send semaphore r here and
  the receive semaphore r there —, waits for its 31 departures (the shares of slot 0 come back) and its 31 arrivals (slot r
  comes back holding the column sums of the device r places before it), sums the 32 slots and scales by 1/32768.

  Here: the two resource algebras side by side, the ring arithmetic, the semaphores' cells, the slot memrefs, the shares of
  slot 0, and the schedule — one round per cell: a barrier cell has a unit duty per other device, a send or receive cell of
  index r ≥ 1 one duty of the slot's credit.
-/
import proofs.«900936_g7700000000000937_dist_mean_ax0_shard0_i_m1024_n512_v7x_i32_bf16_1_alg».proof.Proof.Gen.KernelIdeal
import proofs.«900936_g7700000000000937_dist_mean_ax0_shard0_i_m1024_n512_v7x_i32_bf16_1_alg».proof.Proof.Gen.KernelIdeal.Skeleton
import proofs.«900936_g7700000000000937_dist_mean_ax0_shard0_i_m1024_n512_v7x_i32_bf16_1_alg».proof.Proof.Gen.KernelIdeal.Launch
import proofs.«900936_g7700000000000937_dist_mean_ax0_shard0_i_m1024_n512_v7x_i32_bf16_1_alg».proof.Proof.Gen.KernelIdeal.Points
import proofs.«900936_g7700000000000937_dist_mean_ax0_shard0_i_m1024_n512_v7x_i32_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties named by a device) -/

abbrev UB : Type := URounds (GSem nD τ sig) (Fin 32)
abbrev UU : Type := UR sig nD τ × UB

/-- Tallies are indexed by (round, duty): a unit owed to a barrier cell is owed at its payer's index. -/
abbrev IxT : Type := ℕ × Dev nD
/-- The index of a cell's one duty `0` of round 0 (a send or receive cell's; also the pipeline's own). -/
abbrev ι₀ : IxT := (0, 0)

local notation "𝕄" => MT nD τ sig IxT (Elt F) ℕ UU ℕ

abbrev EP : Emb (UR sig nD τ) (MT nD τ sig IxT (Elt F) ℕ UU ℕ) := embL
abbrev ER : Emb UB (MT nD τ sig IxT (Elt F) ℕ UU ℕ) := embR

/-! ## The ring -/

/-- The device `r` places after `c`: where `c`'s copy number `r` lands. -/
def fwd (c : Dev nD) (r : ℕ) : Dev nD := ⟨(c.val + r) % 32, Nat.mod_lt _ (by decide)⟩
/-- The device `r` places before `c`: whose copy lands in `c`'s slot `r`. -/
def bwd (c : Dev nD) (r : ℕ) : Dev nD := ⟨(c.val + (32 - r % 32)) % 32, Nat.mod_lt _ (by decide)⟩
/-- How many places `d` is after `c`: the slot of `d` that `c` writes. -/
def gap (c d : Dev nD) : ℕ := (d.val + (32 - c.val)) % 32

theorem gap_lt (c d : Dev nD) : gap c d < 32 := Nat.mod_lt _ (by decide)
theorem bwd_fwd (c : Dev nD) (r : ℕ) : bwd (fwd c r) r = c := by
  apply Fin.ext; show ((c.val + r) % 32 + (32 - r % 32)) % 32 = c.val
  have := c.isLt; have : nD = 32 := rfl; omega
theorem fwd_gap (c d : Dev nD) : fwd c (gap c d) = d := by
  apply Fin.ext; show (c.val + (d.val + (32 - c.val)) % 32) % 32 = d.val
  have := c.isLt; have := d.isLt; have : nD = 32 := rfl; omega
theorem gap_fwd (c : Dev nD) (r : ℕ) (hr : r < 32) : gap c (fwd c r) = r := by
  show ((c.val + r) % 32 + (32 - c.val)) % 32 = r
  have := c.isLt; have : nD = 32 := rfl; omega
theorem gap_self (c : Dev nD) : gap c c = 0 := by
  show (c.val + (32 - c.val)) % 32 = 0
  have := c.isLt; have : nD = 32 := rfl; omega
theorem gap_eq_zero {c d : Dev nD} (h : gap c d = 0) : d = c := by
  apply Fin.ext; have h' : (d.val + (32 - c.val)) % 32 = 0 := h
  have := c.isLt; have := d.isLt; have : nD = 32 := rfl; omega

/-! ## Memrefs and semaphores -/

abbrev xM : Memref sig .tc .vmem S1024x512 .f32 := Memref.whole cc0_stg0_0
abbrev oM : Memref sig .tc .vmem S1x512 .f32 := Memref.whole cc0_stg1_0
abbrev rM : Memref sig .tc .vmem S32x1x512 .f32 := Memref.whole cc0_scratch0

theorem slot_inb (k : ℕ) : ∀ a, (![k % 32, 0, 0] : Fin 3 → Nat) a + S1x1x512.size a ≤ S32x1x512.size a := by
  intro a; fin_cases a
  · show k % 32 + 1 ≤ 32; omega
  · show 0 + 1 ≤ 1; omega
  · show 0 + 512 ≤ 512; omega

/-- The rectangle of slot `k` in the landing buffer. -/
abbrev slotR (k : ℕ) : Rect S32x1x512 := Rect.unit (s := S32x1x512) ![k % 32, 0, 0] S1x1x512.size (slot_inb k)

/-- Slot `k` of the landing buffer, as the copies and their waits address it. -/
abbrev slotM (k : ℕ) : Memref sig .tc .vmem S1x512 .f32 :=
  (rM.slice (slotR k) (fun _ => rfl)).squeeze S1x512 squeezes_S1x1x512_S1x512

/-- The runtime's barrier semaphore of collective id 0 (not scoped to the launch). -/
abbrev barS : Sem sig := (SemArray.scalar (sig.barrier 0 rfl) : Sems sig S_).sem
/-- The send and receive DMA semaphores of index `k` (scoped scratch: pool entries 2 + k and 34 + k). -/
abbrev sendS (k : ℕ) : DmaSem sig := ⟨2 + k % 32, by show 2 + k % 32 < 66; omega⟩
abbrev recvS (k : ℕ) : DmaSem sig := ⟨34 + k % 32, by show 34 + k % 32 < 66; omega⟩

abbrev barCell (c : Dev nD) : GSem nD τ sig := ((c : Thread nD τ), .reg barS)
abbrev sendCell (c : Dev nD) (k : ℕ) : GSem nD τ sig := ((c : Thread nD τ), .dma (sendS k))
abbrev recvCell (c : Dev nD) (k : ℕ) : GSem nD τ sig := ((c : Thread nD τ), .dma (recvS k))

/-- The credit of one slot's transfer. -/
abbrev N : ℕ := (slotM 0).view.dmaCredit
theorem N_pos : 0 < N := View.dmaCredit_pos _ (by decide)

/-! ## The shares of slot 0

Thirty-one copies read slot 0 at once: copy `k` is lent the left half of what the copies before it left, and the issuer
keeps the last right half. -/

def restSh : ℕ → PosShare TreeShare
  | 0 => fullShare
  | k + 1 => (restSh k).right
/-- The share of slot 0 lent to copy `k` (`k ≥ 1`). -/
def lentSh (k : ℕ) : PosShare TreeShare := (restSh (k - 1)).left

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- The landing buffer of `c` once it has stored its column sums in slot 0 (the other slots: whatever). -/
def stored (c : Dev nD) : (cc0_scratch0 : Ref sig .tc).ty.Contents (Elt F) :=
  ((rM.access (Rect.unit (s := S32x1x512) ![0, 0, 0] S1x1x512.size inb_S32x1x512_S1x1x512_0_0_0) : View sig .tc _ _ _).write (Elt F)
    (fun _ => Classical.arbitrary _) (k0_pay2 (xstg m ρ c)) Finset.univ)

/-! ## The schedule -/

/-- What a semaphore is in the protocol. -/
inductive Kind where
  | bar | send (k : ℕ) | recv (k : ℕ) | other

def kindOf : SemLoc sig → Kind
  | .reg s => if s = barS then .bar else .other
  | .dma q => if 3 ≤ q.val ∧ q.val < 34 then .send (q.val - 2) else if 35 ≤ q.val ∧ q.val < 66 then .recv (q.val - 34) else .other

/-- One round per cell. A barrier cell: a unit duty per OTHER device `d`, which lends the owner the slot of `d` the owner writes.
    A send cell `k`: the one duty of the slot's credit, handing back slot 0 at copy `k`'s share. A receive cell `k`: the one
    duty of the slot's credit, handing over slot `k` holding what the device `k` places before stored in its slot 0. -/
def sched : Rounds.Schedule (GSem nD τ sig) (Dev nD) 𝕄 where
  duties g r := if r = 0 ∧ g.1.2 = .tc then
      (match kindOf g.2 with | .bar => Finset.univ.erase g.1.1 | .send _ => {0} | .recv _ => {0} | .other => ∅) else ∅
  unitless _ := False
  amount g _ _ := match kindOf g.2 with | .bar => 1 | _ => N
  payload g _ d := match kindOf g.2 with
    | .bar => iprop(∃ f, (slotM (gap g.1.1 d)).view.loc (d : Thread nD τ) ↦[(slotM (gap g.1.1 d)).view.set]{fullShare} f)
    | .send k => (slotM 0).view.loc (g.1.1 : Thread nD τ) ↦[(slotM 0).view.set]{lentSh k} stored m ρ g.1.1
    | .recv k => iprop(∃ fd, (slotM k).view.loc (g.1.1 : Thread nD τ) ↦[(slotM k).view.set]{fullShare}
        ((slotM k).view.write (Elt F) fd ((slotM 0).view.read (Elt F) (stored m ρ (bwd g.1.1 k))) Finset.univ))
    | .other => iprop(emp)
  amount_pos g _ _ _ := by
    cases kindOf g.2 <;> first | exact Nat.one_pos | exact N_pos

instance sched_payload_storable (g : GSem nD τ sig) (r : ℕ) (d : Dev nD) :
    BI.Storable (upEmb : UEmb _ 𝕄) ((sched (F := F) m ρ).payload g r d) := by
  show BI.Storable upEmb (match kindOf g.2 with
    | .bar => iprop(∃ f, (slotM (gap g.1.1 d)).view.loc (d : Thread nD τ) ↦[(slotM (gap g.1.1 d)).view.set]{fullShare} f)
    | .send k => (slotM 0).view.loc (g.1.1 : Thread nD τ) ↦[(slotM 0).view.set]{lentSh k} stored m ρ g.1.1
    | .recv k => iprop(∃ fd, (slotM k).view.loc (g.1.1 : Thread nD τ) ↦[(slotM k).view.set]{fullShare}
        ((slotM k).view.write (Elt F) fd ((slotM 0).view.read (Elt F) (stored m ρ (bwd g.1.1 k))) Finset.univ))
    | .other => iprop(emp))
  split <;> infer_instance

section Tables
variable (c : Dev nD)

theorem kind_bar : kindOf (.reg barS : SemLoc sig) = .bar := by
  show (if barS = barS then Kind.bar else Kind.other) = _
  exact if_pos rfl
theorem kind_send (k : ℕ) (hk : 1 ≤ k ∧ k < 32) : kindOf (.dma (sendS k) : SemLoc sig) = .send k := by
  have e : k % 32 = k := Nat.mod_eq_of_lt hk.2
  show (if 3 ≤ 2 + k % 32 ∧ 2 + k % 32 < 34 then Kind.send (2 + k % 32 - 2) else _) = _
  rw [if_pos ⟨by omega, by omega⟩, e, Nat.add_sub_cancel_left]
theorem kind_recv (k : ℕ) (hk : 1 ≤ k ∧ k < 32) : kindOf (.dma (recvS k) : SemLoc sig) = .recv k := by
  have e : k % 32 = k := Nat.mod_eq_of_lt hk.2
  show (if 3 ≤ 34 + k % 32 ∧ 34 + k % 32 < 34 then Kind.send (34 + k % 32 - 2) else
    if 35 ≤ 34 + k % 32 ∧ 34 + k % 32 < 66 then Kind.recv (34 + k % 32 - 34) else _) = _
  rw [if_neg (by omega), if_pos ⟨by omega, by omega⟩, e, Nat.add_sub_cancel_left]

theorem duties_bar : (sched (F := F) m ρ).duties (barCell c) 0 = Finset.univ.erase c := by
  unfold sched; dsimp only; rw [if_pos ⟨rfl, rfl⟩, kind_bar]
theorem duties_send (k : ℕ) (hk : 1 ≤ k ∧ k < 32) : (sched (F := F) m ρ).duties (sendCell c k) 0 = {0} := by
  unfold sched; dsimp only; rw [if_pos ⟨rfl, rfl⟩, kind_send k hk]
theorem duties_recv (k : ℕ) (hk : 1 ≤ k ∧ k < 32) : (sched (F := F) m ρ).duties (recvCell c k) 0 = {0} := by
  unfold sched; dsimp only; rw [if_pos ⟨rfl, rfl⟩, kind_recv k hk]
theorem duties_later (g : GSem nD τ sig) : ∀ r, 1 ≤ r → (sched (F := F) m ρ).duties g r = ∅ :=
  fun r hr => if_neg fun h => by omega

theorem amount_bar (d : Dev nD) : (sched (F := F) m ρ).amount (barCell c) 0 d = 1 := by
  unfold sched; dsimp only; rw [kind_bar]
theorem amount_send (k : ℕ) (hk : 1 ≤ k ∧ k < 32) (d : Dev nD) : (sched (F := F) m ρ).amount (sendCell c k) 0 d = N := by
  unfold sched; dsimp only; rw [kind_send k hk]
theorem amount_recv (k : ℕ) (hk : 1 ≤ k ∧ k < 32) (d : Dev nD) : (sched (F := F) m ρ).amount (recvCell c k) 0 d = N := by
  unfold sched; dsimp only; rw [kind_recv k hk]

theorem expect_bar : (sched (F := F) m ρ).expect (barCell c) 0 = 31 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
  rfl
theorem expect_send (k : ℕ) (hk : 1 ≤ k ∧ k < 32) : (sched (F := F) m ρ).expect (sendCell c k) 0 = N := by
  unfold Schedule.expect Schedule.amountOf; rw [duties_send m ρ c k hk, Finset.sum_singleton, amount_send m ρ c k hk]
theorem expect_recv (k : ℕ) (hk : 1 ≤ k ∧ k < 32) : (sched (F := F) m ρ).expect (recvCell c k) 0 = N := by
  unfold Schedule.expect Schedule.amountOf; rw [duties_recv m ρ c k hk, Finset.sum_singleton, amount_recv m ρ c k hk]

theorem payload_bar (d : Dev nD) : (sched (F := F) m ρ).payload (barCell c) 0 d
    = iprop(∃ f, (slotM (gap c d)).view.loc (d : Thread nD τ) ↦[(slotM (gap c d)).view.set]{fullShare} f) := by
  unfold sched; dsimp only; rw [kind_bar]
theorem payload_send (k : ℕ) (hk : 1 ≤ k ∧ k < 32) (d : Dev nD) : (sched (F := F) m ρ).payload (sendCell c k) 0 d
    = ((slotM 0).view.loc (c : Thread nD τ) ↦[(slotM 0).view.set]{lentSh k} stored m ρ c) := by
  unfold sched; dsimp only; rw [kind_send k hk]
theorem payload_recv (k : ℕ) (hk : 1 ≤ k ∧ k < 32) (d : Dev nD) : (sched (F := F) m ρ).payload (recvCell c k) 0 d
    = iprop(∃ fd, (slotM k).view.loc (c : Thread nD τ) ↦[(slotM k).view.set]{fullShare}
        ((slotM k).view.write (Elt F) fd ((slotM 0).view.read (Elt F) (stored m ρ (bwd c k))) Finset.univ)) := by
  unfold sched; dsimp only; rw [kind_recv k hk]
/-- The receive cell of the device `k` places after `c`, seen from `c`: what lands there is what `c` stored. -/
theorem payload_recv_fwd (k : ℕ) (hk : 1 ≤ k ∧ k < 32) (d : Dev nD) : (sched (F := F) m ρ).payload (recvCell (fwd c k) k) 0 d
    = iprop(∃ fd, (slotM k).view.loc (fwd c k : Thread nD τ) ↦[(slotM k).view.set]{fullShare}
        ((slotM k).view.write (Elt F) fd ((slotM 0).view.read (Elt F) (stored m ρ c)) Finset.univ)) := by
  rw [payload_recv m ρ (fwd c k) k hk d, bwd_fwd]

end Tables

end Cert.KernelIdeal.Pf

end
-- ==== Proof.Spec.lean ====
/-
  What a device's landing buffer holds once every copy has landed, as one function of all devices' blocks:
  slot k holds the column sums of the block of the device k places before it on the ring (slot 0: its own).
-/
import proofs.«900936_g7700000000000937_dist_mean_ax0_shard0_i_m1024_n512_v7x_i32_bf16_1_alg».proof.Proof.Gen.KernelIdeal
import proofs.«900936_g7700000000000937_dist_mean_ax0_shard0_i_m1024_n512_v7x_i32_bf16_1_alg».proof.Proof.Gen.KernelIdeal.Skeleton

noncomputable section

namespace Cert.KernelIdeal.Pf

open Cert.KernelIdeal Cert.KernelIdeal.Gen
open Idealize.ShloMosaic

variable {F : FTy → Type} [FloatOps F]

/-- The device `r` places before `c` on the ring of 32. -/
def back (c : Dev nD) (r : ℕ) : Dev nD := ⟨(c.val + (32 - r % 32)) % 32, Nat.mod_lt _ (by decide)⟩

/-- Entry `(0, 0, j)` of a one-row vector. -/
def rowIx (j : Fin 512) : S1x1x512.Idx := fun a => match a with
  | ⟨0, _⟩ => ⟨0, Nat.one_pos⟩
  | ⟨1, _⟩ => ⟨0, Nat.one_pos⟩
  | ⟨2, _⟩ => ⟨j.val, j.isLt⟩

/-- The landing buffer of device `c` after the exchange, from every device's block `xs d`: entry `(k, 0, j)` is entry `j` of the
    column sums (`k0_pay2`) of the block of the device `k` places before `c`. -/
def gathered (xs : Dev nD → Vec F S1024x512 .f32) (c : Dev nD) : Vec F S32x1x512 .f32 :=
  fun i => k0_pay2 (xs (back c (i 0).val)) (rowIx ⟨(i 2).val, (i 2).isLt⟩)

end Cert.KernelIdeal.Pf

end
-- ==== Proof.State.lean ====
/-
  What each device holds when its kernel body starts and when it ends: the protocol's ghost state (every cell's invariant and
  round-0 mark; the device's positions on its own 65 cells; the tokens of the duties IT pays: one on every other device's
  barrier cell, its 31 departures, the 31 arrivals at the devices after it), its launch credit (31 units on its barrier
  cell, one slot's credit on each of its receive cells 1 … 31), what it owes (a unit to every other device's barrier cell, a
  slot's credit to receive cell k of the device k places after it), the levels (barrier cells below receive cells), and
  the pipeline's proof data: the staged block of x unchanged, the result row the scaled sum of the gathered buffer.
-/
import proofs.«900936_g7700000000000937_dist_mean_ax0_shard0_i_m1024_n512_v7x_i32_bf16_1_alg».proof.Proof.Cells
import proofs.«900936_g7700000000000937_dist_mean_ax0_shard0_i_m1024_n512_v7x_i32_bf16_1_alg».proof.Proof.Spec

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## The cells, enumerated -/

/-- A device's 65 semaphores of the protocol: the barrier (0), send 0 … 31 (1 … 32), receive 0 … 31 (33 … 64). Send 0 and
    receive 0 are never used: cells with no duty. -/
def csem (j : Fin 65) : SemLoc sig :=
  if j.val = 0 then .reg barS else if j.val ≤ 32 then .dma (sendS (j.val - 1)) else .dma (recvS (j.val - 33))
abbrev kcell (ck : Dev nD × Fin 65) : GSem nD τ sig := ((ck.1 : Thread nD τ), csem ck.2)

/-- The kernel's OWN (scoped) semaphores, as the launch indexes them: the 64 of the two scratch arrays (pool entries 2 … 65). -/
def osem (j : Fin 64) : SemLoc sig := .dma ⟨2 + j.val, by show 2 + j.val < 66; omega⟩

/-! ## What each device owes at launch; the levels -/

/-- A unit to every other device's barrier cell, at its own duty's index there, and to receive cell `k` of the device `k` places
    after it the slot's credit. -/
def O₀ (c : Dev nD) : CellTallies nD τ sig IxT :=
  (∑ d ∈ Finset.univ.erase c, tallyAt (barCell d) ((0, c) : IxT) 1) + ∑ k ∈ Finset.Icc 1 31, tallyAt (recvCell (fwd c k) k) ι₀ N

/-- The credit a device's barrier cell is dealt at launch: a unit at the index of every other device. -/
def crBar (c : Dev nD) : IxT →₀ ℕ := ∑ d ∈ Finset.univ.erase c, Finsupp.single ((0, d) : IxT) 1

def L (g : GSem nD τ sig) : Finset IxT := if g.1.2 = .tc then Finset.univ.image (fun d : Dev nD => ((0, d) : IxT)) else ∅
/-- Barrier cells at 1, receive cells at 2, everything else (staging, send) at 0: a device waits on its barrier cell while it
    owes arrivals, and on nothing else while it owes anything. -/
def lv (g : GSem nD τ sig) (_ : IxT) : ℕ := match kindOf g.2 with | .bar => 1 | .recv _ => 2 | _ => 0

/-! ## The ghost state -/

/-- Every cell's invariant, at the names `K` the launch allocated them at, and that round 0 of every cell is reached. -/
def records (K : Dev nD × Fin 65 → ℕ) : sProp 𝕄 :=
  iprop((bigSep Finset.univ fun ck : Dev nD × Fin 65 => cellInv ER (sched m ρ) (K ck) (kcell ck))
    ∗ bigSep Finset.univ fun ck : Dev nD × Fin 65 => reached ER (kcell ck) 0)

instance records_persistent (K : Dev nD × Fin 65 → ℕ) : BI.Persistent (records m ρ K) := by unfold records; infer_instance

/-- What stays with device `c`: its positions on its own cells, and the tokens of the duties IT pays. -/
def linear (c : Dev nD) : sProp 𝕄 :=
  iprop((bigSep Finset.univ fun j : Fin 65 => atPos ER (kcell (c, j)) 0 ∅ 0)
    ∗ (bigSep (Finset.univ.erase c) fun d : Dev nD => dutyTok ER (barCell d) 0 c)
    ∗ (bigSep (Finset.Icc 1 31) fun k : ℕ => iprop(dutyTok ER (sendCell c k) 0 (0 : Dev nD) ∗ dutyTok ER (recvCell (fwd c k) k) 0 (0 : Dev nD))))

/-- What the launch's global step makes for device `c`. -/
def G' (c : Dev nD) : sProp 𝕄 := iprop(∃ K, records m ρ K ∗ linear c)

/-- What device `c`'s body starts from: that, its launch credit and the level facts. -/
def start (c : Dev nD) : sProp 𝕄 :=
  iprop(G' m ρ c ∗ cred (tallyOn (barCell c) (crBar c)) ∗ (bigSep (Finset.Icc 1 31) fun k : ℕ => cred (tallyAt (recvCell c k) ι₀ N)) ∗ levAts L lv)

/-! ## The pipeline's proof data -/

/-- The kernel's result on device `c`: the gathered buffer summed over its slots and scaled (the skeleton's `k0_pay1`). -/
def outAt (c : Dev nD) : (cc0_stg1_0 : Ref sig .tc).ty.Contents (Elt F) := k0_pay1 (gathered (fun d => xstg m ρ d) c)

def Φ₀ (c : Dev nD) : sProp 𝕄 := iprop(start m ρ c ∗ ∃ f : Buf (Elt F) ((c : Thread nD τ).loc cc0_scratch0), ((c : Thread nD τ).loc cc0_scratch0) ↦{fullShare} f)
/-- After the point: the landing buffer (at whatever it holds) and the 64 own semaphores at zero. -/
def Φ₁ (c : Dev nD) : sProp 𝕄 :=
  iprop((∃ f : Buf (Elt F) ((c : Thread nD τ).loc cc0_scratch0), ((c : Thread nD τ).loc cc0_scratch0) ↦{fullShare} f)
    ∗ Pipeline.ownSems0 (Ix := IxT) (Name := ℕ) (U := UU) (Lvl := ℕ) (Val := Elt F) (τ := τ) osem c)

def dats (_ : Fin 1) (c : Dev nD) : Dat τ (Elt F) IxT ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Pf

end
-- ==== Proof.LaunchGhost.lean ====
/-
  The protocol's ghost state at launch: the 32 × 65 cells and the tokens of their duties, minted in one launch element and
  dealt to the devices — each device first gets the round-0 state, its position and the round-0 mark of its own 65 cells and
  the tokens of its OWN cells' duties; the global step then allocates every cell's invariant from the counters at zero and
  passes the tokens round to their payers: the token of duty e on device d's barrier cell to device e, the token of
  receive cell k of device d to the device k places before d, the send tokens staying where they are.
-/
import proofs.«900936_g7700000000000937_dist_mean_ax0_shard0_i_m1024_n512_v7x_i32_bf16_1_alg».proof.Proof.State
import Idealize.SL.ProofMode.BigOp

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## The cells are distinct -/

theorem csem_injective : Function.Injective csem := by
  intro j j' h
  have hj := j.isLt; have hj' := j'.isLt
  unfold csem at h
  apply Fin.ext
  split_ifs at h with h1 h2 h3 h4 h5 h6
  all_goals first
    | omega
    | exact absurd h (fun h => by cases h)
    | (have h' := congrArg Fin.val (SemLoc.dma.inj h); simp only at h'; omega)

/-- Cell j + 1 of the enumeration is the kernel's own semaphore j. -/
theorem csem_succ (j : Fin 64) : csem j.succ = osem j := by
  have hj := j.isLt
  unfold csem osem
  rw [if_neg (by simp)]
  split_ifs with h
  · congr 1; apply Fin.ext; show 2 + (j.succ.val - 1) % 32 = 2 + j.val; rw [Fin.val_succ]; rw [Fin.val_succ] at h; omega
  · congr 1; apply Fin.ext; show 34 + (j.succ.val - 33) % 32 = 2 + j.val; rw [Fin.val_succ]; rw [Fin.val_succ] at h; omega

theorem csem_zero : csem 0 = .reg barS := if_pos rfl

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All the cells of the protocol. -/
def cellsF : Finset (GSem nD τ sig) := Finset.univ.map ⟨kcell, kcell_injective⟩

/-! ## The tokens minted

A device's own cells' duty tokens: its barrier's, one per device (the one named by itself is not a duty, and is left out
below), its 31 send cells' and its 31 receive cells' one each. -/

def tokOf (x : Dev nD × (Dev nD ⊕ Fin 31 ⊕ Fin 31)) : GSem nD τ sig × ℕ × Dev nD := match x.2 with
  | .inl e => (barCell x.1, 0, e)
  | .inr (.inl k) => (sendCell x.1 (k.val + 1), 0, 0)
  | .inr (.inr k) => (recvCell x.1 (k.val + 1), 0, 0)

theorem tokOf_injective : Function.Injective tokOf := by
  rintro ⟨c, s⟩ ⟨c', s'⟩ h
  have h1 : c = c' := by
    have := congrArg (fun x : GSem nD τ sig × ℕ × Dev nD => x.1.1.1) h
    rcases s with e | k | k <;> rcases s' with e' | k' | k' <;> exact this
  subst h1
  have h2 := congrArg (fun x : GSem nD τ sig × ℕ × Dev nD => x.1.2) h
  have h3 := congrArg (fun x : GSem nD τ sig × ℕ × Dev nD => x.2.2) h
  rcases s with e | k | k <;> rcases s' with e' | k' | k'
  all_goals first
    | (have h3' : e = e' := h3; subst h3'; rfl)
    | exact absurd h2 (fun h => by cases h)
    | (have h' := congrArg Fin.val (SemLoc.dma.inj h2)
       have hk := k.isLt; have hk' := k'.isLt
       first
         | (have e : k = k' := Fin.ext (by
              first
                | (change 2 + (k.val + 1) % 32 = 2 + (k'.val + 1) % 32 at h'; omega)
                | (change 34 + (k.val + 1) % 32 = 34 + (k'.val + 1) % 32 at h'; omega)); subst e; rfl)
         | (exfalso; change 2 + (k.val + 1) % 32 = 34 + (k'.val + 1) % 32 at h'; omega)
         | (exfalso; change 34 + (k.val + 1) % 32 = 2 + (k'.val + 1) % 32 at h'; omega))

/-- The tokens of the duties: every device's own cells', the barrier's token named by the device itself left out. -/
def toksF : Finset (GSem nD τ sig × ℕ × Dev nD) :=
  (Finset.univ.filter fun x : Dev nD × (Dev nD ⊕ Fin 31 ⊕ Fin 31) => x.2 ≠ .inl x.1).map ⟨tokOf, tokOf_injective⟩

/-- The launch element: the pipeline library's, and the protocol's cells and tokens. -/
def u₀ : UU :=
  (initOf (Pipeline.cells cfgs cellOf_inj) (Pipeline.launchToks cfgs cellOf_inj), initOf cellsF toksF)

/-- The duty tokens of device c's own cells. -/
def toks (c : Dev nD) : sProp 𝕄 :=
  iprop((bigSep (Finset.univ.erase c) fun e : Dev nD => dutyTok ER (barCell c) 0 e)
    ∗ bigSep (Finset.Icc 1 31) fun k : ℕ => iprop(dutyTok ER (sendCell c k) 0 (0 : Dev nD) ∗ dutyTok ER (recvCell c k) 0 (0 : Dev nD)))

/-- What the launch element deals device c: the round-0 state of its 65 cells, its position on each and the
    round-0 mark, and the tokens of its own cells' duties. -/
def G (c : Dev nD) : sProp 𝕄 :=
  iprop((bigSep Finset.univ fun j : Fin 65 => roundState ER (sched m ρ) (kcell (c, j)) 0)
    ∗ (bigSep Finset.univ fun j : Fin 65 => iprop(atPos ER (kcell (c, j)) 0 ∅ 0 ∗ reached ER (kcell (c, j)) 0)) ∗ toks c)

/-! ## Sums over the index types -/

/-- A family over 1 … 31, indexed by Fin 31. -/
theorem bigSep_fin31 (Φ : ℕ → sProp 𝕄) : (bigSep Finset.univ fun k : Fin 31 => Φ (k.val + 1)) = bigSep (Finset.Icc 1 31) Φ := by
  have e : (Finset.Icc 1 31 : Finset ℕ) = (Finset.univ : Finset (Fin 31)).map ⟨fun k : Fin 31 => (k.val + 1 : ℕ), fun a b h => Fin.ext (Nat.add_right_cancel h)⟩ := by
    ext n; simp only [Finset.mem_Icc, Finset.mem_map, Finset.mem_univ, true_and, Function.Embedding.coeFn_mk]
    constructor
    · rintro ⟨h1, h2⟩; exact ⟨⟨n - 1, by omega⟩, by show n - 1 + 1 = n; omega⟩
    · rintro ⟨k, rfl⟩; have hk : k.val < 31 := k.isLt; show 1 ≤ k.val + 1 ∧ k.val + 1 ≤ 31; omega
  rw [e, bigSep_map]; rfl

/-- A family over Fin 65: the first member, and the rest over Fin 64. -/
theorem bigSep_fin65 (Φ : Fin 65 → sProp 𝕄) : bigSep Finset.univ Φ = iprop(Φ 0 ∗ bigSep Finset.univ fun j : Fin 64 => Φ j.succ) := by
  rw [Fin.univ_succ, Finset.cons_eq_insert, bigSep_insert (by simp), bigSep_map]; rfl

/-- A family over a device's token indices, the barrier's index of the device itself left out. -/
theorem bigSep_tokIx (c : Dev nD) (Ψ : Dev nD ⊕ Fin 31 ⊕ Fin 31 → sProp 𝕄) :
    (bigSep Finset.univ fun s : Dev nD ⊕ Fin 31 ⊕ Fin 31 => if s ≠ Sum.inl c then Ψ s else iprop(emp))
      = iprop((bigSep (Finset.univ.erase c) fun e => Ψ (.inl e))
          ∗ (bigSep Finset.univ fun k : Fin 31 => Ψ (.inr (.inl k))) ∗ bigSep Finset.univ fun k : Fin 31 => Ψ (.inr (.inr k))) := by
  rw [bigSep_univ_sum, bigSep_univ_sum, ← Finset.filter_ne' Finset.univ c, bigSep_filter]
  congr 1
  exact bigSep_congr fun e _ => by
    by_cases h : e = c
    · rw [if_neg (by simp [h]), if_neg (by simp [h])]; rfl
    · rw [if_pos (by simp [h]), if_pos h]

/-- The minted tokens, device by device. -/
theorem bigSep_toksF : bigSep toksF (fun x => (dutyTok ER x.1 x.2.1 x.2.2 : sProp 𝕄)) = bigSep Finset.univ fun c : Dev nD => toks c := by
  unfold toksF
  rw [bigSep_map, bigSep_filter, bigSep_univ_prod]
  refine bigSep_congr fun c _ => ?_
  refine (bigSep_tokIx c fun s => (dutyTok ER (tokOf (c, s)).1 (tokOf (c, s)).2.1 (tokOf (c, s)).2.2 : sProp 𝕄)).trans ?_
  unfold toks
  rw [bigSep_sep', ← bigSep_fin31 (fun k => (dutyTok ER (sendCell c k) 0 (0 : Dev nD) : sProp 𝕄)),
    ← bigSep_fin31 (fun k => (dutyTok ER (recvCell c k) 0 (0 : Dev nD) : sProp 𝕄))]
  rfl

/-! ## Funding -/

theorem fund_cells : BI.own (ER (initOf cellsF toksF)) ⊢ (|==> bigSep Finset.univ (G m ρ) : sProp 𝕄) := by
  have hX (Φ : GSem nD τ sig → sProp 𝕄) : bigSep cellsF Φ = bigSep Finset.univ fun c : Dev nD => bigSep Finset.univ fun j : Fin 65 => Φ (kcell (c, j)) := by
    unfold cellsF; rw [bigSep_map, bigSep_univ_prod]; rfl
  iintro HX
  imod (Rounds.fund ER (sched m ρ) cellsF toksF) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (bigSep_toksF (F := F))) $$ Htok
  unfold G; simp only [bigSep_sep']
  isplitl [Hst']; · iexact Hst'
  isplitl [Hat' Hr']
  · isplitl [Hat'] <;> iassumption
  iexact Htok'

/-- The launch element is the pipeline library's and, after an update, what each device is dealt. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_cells m ρ) $$ HX with HG
  imodintro
  isplitl [HP] <;> iassumption

/-! ## The counters at zero -/

/-- The barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := IxT) (Name := ℕ) (U := UU) (Lvl := ℕ) (Val := Elt F) (τ := τ) osem c ∗ unscopedSems0 c)
      ⊢ (bigSep Finset.univ fun j : Fin 65 => semVal (kcell (c, j)) 0 : sProp 𝕄) := by
  have e0 : kcell (c, (0 : Fin 65)) = barCell c := by show ((c : Thread nD τ), csem 0) = _; rw [csem_zero]
  have eS (j : Fin 64) : kcell (c, j.succ) = ((c : Thread nD τ), osem j) := by show ((c : Thread nD τ), csem j.succ) = _; rw [csem_succ]
  rw [unscopedSems0_eq, bigSep_fin65]
  unfold Pipeline.ownSems0
  simp only [e0, eS]
  iintro ⟨HS, HB⟩
  isplitl [HB]; · iexact HB
  iexact HS

/-! ## The invariants allocated -/

theorem core_alloc (c : Dev nD) :
    iprop(Pipeline.ownSems0 (Ix := IxT) (Name := ℕ) (U := UU) (Lvl := ℕ) (Val := Elt F) (τ := τ) osem c ∗ unscopedSems0 c ∗ G m ρ c)
      ⊢ |={Set.univ}=> iprop((bigSep Finset.univ fun j : Fin 65 => iprop(∃ κ : ℕ, cellInv ER (sched m ρ) κ (kcell (c, j))))
          ∗ (bigSep Finset.univ fun j : Fin 65 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 65 => semVal (kcell (c, j)) 0) ∗ bigSep Finset.univ fun j : Fin 65 => roundState ER (sched m ρ) (kcell (c, j)) 0)
      ⊢ (|={Set.univ}=> bigSep Finset.univ fun j : Fin 65 => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round -/

theorem fwd_bwd (d : Dev nD) (k : ℕ) : fwd (bwd d k) k = d := by
  apply Fin.ext; show ((d.val + (32 - k % 32)) % 32 + k) % 32 = d.val
  have := d.isLt; have : nD = 32 := rfl; omega

/-- Going k + 1 places round the ring, for each k: a bijection of the pairs (device, k). -/
def fwdE : Dev nD × Fin 31 ≃ Dev nD × Fin 31 where
  toFun p := (fwd p.1 (p.2.val + 1), p.2)
  invFun p := (bwd p.1 (p.2.val + 1), p.2)
  left_inv p := by show (bwd (fwd p.1 (p.2.val + 1)) (p.2.val + 1), p.2) = p; rw [bwd_fwd]
  right_inv p := by show (fwd (bwd p.1 (p.2.val + 1)) (p.2.val + 1), p.2) = p; rw [fwd_bwd]

/-- A family over (device d, k = 1 … 31), regrouped by the device k places before d. -/
theorem recv_around (R : Dev nD → ℕ → sProp 𝕄) :
    (bigSep Finset.univ fun d : Dev nD => bigSep (Finset.Icc 1 31) fun k => R d k)
      = bigSep Finset.univ fun c : Dev nD => bigSep (Finset.Icc 1 31) fun k => R (fwd c k) k := by
  rw [bigSep_congr (s := Finset.univ) fun (d : Dev nD) _ => (bigSep_fin31 (fun k => R d k)).symm,
    bigSep_congr (s := Finset.univ) fun (c : Dev nD) _ => (bigSep_fin31 (fun k => R (fwd c k) k)).symm,
    ← bigSep_univ_prod (fun p : Dev nD × Fin 31 => R p.1 (p.2.val + 1)),
    ← bigSep_univ_prod (fun p : Dev nD × Fin 31 => R (fwd p.1 (p.2.val + 1)) (p.2.val + 1)),
    bigSep_univ_equiv fwdE (fun p : Dev nD × Fin 31 => R p.1 (p.2.val + 1))]
  rfl

/-- The tokens of the duties device c pays. -/
def payToks (c : Dev nD) : sProp 𝕄 :=
  iprop((bigSep (Finset.univ.erase c) fun d : Dev nD => dutyTok ER (barCell d) 0 c)
    ∗ (bigSep (Finset.Icc 1 31) fun k : ℕ => iprop(dutyTok ER (sendCell c k) 0 (0 : Dev nD) ∗ dutyTok ER (recvCell (fwd c k) k) 0 (0 : Dev nD))))

/-- The tokens dealt round: a barrier cell's token of duty e to device e, the token of receive cell k of device d to the
    device k places before d; the send tokens stay. -/
theorem toks_around : (bigSep Finset.univ fun c : Dev nD => (toks c : sProp 𝕄)) = bigSep Finset.univ fun c : Dev nD => payToks c := by
  unfold toks payToks
  simp only [bigSep_sep']
  rw [bigSep_erase_comm (fun d e : Dev nD => (dutyTok ER (barCell d) 0 e : sProp 𝕄)),
    recv_around (fun d k => (dutyTok ER (recvCell d k) 0 (0 : Dev nD) : sProp 𝕄))]

/-! ## Regrouped -/

theorem ghost_intro (K : Dev nD × Fin 65 → ℕ) (c : Dev nD) : iprop(records m ρ K ∗ linear c) ⊢ G' m ρ c := by
  unfold G'
  iintro H
  iexists K
  iexact H

theorem regroup :
    (bigSep Finset.univ fun c : Dev nD => iprop((bigSep Finset.univ fun j : Fin 65 => iprop(∃ κ : ℕ, cellInv ER (sched m ρ) κ (kcell (c, j))))
          ∗ (bigSep Finset.univ fun j : Fin 65 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × Fin 65 => iprop(∃ κ : ℕ, cellInv ER (sched m ρ) κ (kcell ck))),
    bigSep_congr (s := Finset.univ) (fun (c : Dev nD) _ => bigSep_sep' Finset.univ (fun j : Fin 65 => (atPos ER (kcell (c, j)) 0 ∅ 0 : sProp 𝕄)) (fun j => reached ER (kcell (c, j)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (sched m ρ) κ (kcell ck) : sProp 𝕄))) $$ HI
  icases HK with ⟨%K, #HI⟩
  ihave Htk := (Entails.of_eq (toks_around (F := F))) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 65 => (atPos ER (kcell (c, j)) 0 ∅ 0 : sProp 𝕄)) payToks).symm).trans
      (bigSep_mono fun c _ => show _ ⊢ linear c from Entails.of_eq (by unfold linear payToks; rfl)))
    isplitl [Hat]; · iexact Hat
    iexact Htk

/-- The global step: from every device's own and unscoped counters at zero and what it was dealt, every cell's invariant,
    and each device holding what it pays with. -/
theorem glob : (bigSep Finset.univ fun c => iprop(Pipeline.ownSems0 (Ix := IxT) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdeal.Pf.glob' depends on axioms: [propext, Classical.choice, Quot.sound] -/
#guard_msgs in #print axioms glob

end Cert.KernelIdeal.Pf

end
-- ==== Proof.Launch.lean ====
/-
  The launch of the all-to-all mean on 32 devices.

  What the launch deals each device and what it asks back: the credit on a device's own cells is what the other devices owe
  them (a unit at every other device's index on its barrier cell, one slot's credit on each of its receive cells 1 … 31);
  barrier cells sit below receive cells and the staging cells below both, so every wait of a device is on a cell below all it
  still owes; a device's body starts from its share of the protocol's ghost state, its credit and the level facts, beside its
  landing buffer, and ends holding the landing buffer and its 64 own semaphores at zero. From one body obligation per device
  the whole program runs: every fair execution ends, the block of x is unchanged and the result row is what the body left
  in its staging buffer.
-/
import proofs.«900936_g7700000000000937_dist_mean_ax0_shard0_i_m1024_n512_v7x_i32_bf16_1_alg».proof.Proof.State
import proofs.«900936_g7700000000000937_dist_mean_ax0_shard0_i_m1024_n512_v7x_i32_bf16_1_alg».proof.Proof.LaunchGhost

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## The launch credit

Summed over the devices that owe, the dues are each device's own credit: a unit at every other device's index on its barrier
cell, one slot's credit on each of its receive cells 1 … 31. -/

theorem fwd_bijective (k : ℕ) : Function.Bijective fun c : Dev nD => fwd c k :=
  Finite.injective_iff_bijective.mp (Function.LeftInverse.injective (g := fun d : Dev nD => bwd d k) fun c => bwd_fwd c k)

theorem tallyOn_sum {α : Type} (s : Finset α) (g : GSem nD τ sig) (f : α → IxT →₀ ℕ) :
    (tallyOn g (∑ x ∈ s, f x) : CellTallies nD τ sig IxT) = ∑ x ∈ s, tallyOn g (f x) := by
  classical
  induction s using Finset.induction_on with
  | empty => rw [Finset.sum_empty, Finset.sum_empty, tallyOn_zero]
  | insert a s ha ih => rw [Finset.sum_insert ha, Finset.sum_insert ha, tallyOn_add, ih]

/-- What the launch credits device c: on its barrier cell a unit at every other device's index, on receive cell k the slot's credit. -/
def T₀ (c : Dev nD) : CellTallies nD τ sig IxT :=
  tallyOn (barCell c) (crBar c) + ∑ k ∈ Finset.Icc 1 31, tallyAt (recvCell c k) ι₀ N

theorem tallyOn_crBar (c : Dev nD) :
    (tallyOn (barCell c) (crBar c) : CellTallies nD τ sig IxT) = ∑ d ∈ Finset.univ.erase c, tallyAt (barCell c) ((0, d) : IxT) 1 := by
  unfold crBar; rw [tallyOn_sum]; rfl

/-- The dues of all devices are the credits of all devices: the units owed to barrier cells regrouped by the cell, the
    arrivals regrouped by the device they land on. -/
theorem sum_O₀ : (∑ d : Dev nD, O₀ d) = ∑ d : Dev nD, T₀ d := by
  unfold O₀ T₀
  rw [Finset.sum_add_distrib, Finset.sum_add_distrib]
  refine congrArg₂ (· + ·) ?_ ?_
  · rw [Finset.sum_comm' (s' := fun e : Dev nD => Finset.univ.erase e) (t' := Finset.univ) (fun d e => by
      simp only [Finset.mem_univ, Finset.mem_erase, true_and, and_true, ne_comm])]
    exact Finset.sum_congr rfl fun e _ => (tallyOn_crBar e).symm
  · rw [Finset.sum_comm]
    conv_rhs => rw [Finset.sum_comm]
    exact Finset.sum_congr rfl fun k _ => (fwd_bijective k).sum_comp fun d : Dev nD => (tallyAt (recvCell d k) ι₀ N : CellTallies nD τ sig IxT)

/-- A device's credit sits on its own cells. -/
theorem T₀_own (d : Dev nD) (g : GSem nD τ sig) (h : T₀ d g ≠ 0) : g.1 = (d : Thread nD τ) := by
  obtain ⟨u, hu⟩ := Finsupp.ne_iff.mp h
  have hp : 0 < T₀ d g u := Nat.pos_of_ne_zero hu
  unfold T₀ at hp
  rcases Pipeline.add_pos_cases hp with hp | hp
  · rw [tallyOn_crBar] at hp
    obtain ⟨e, _, he⟩ := Pipeline.sum_pos_exists hp
    rw [(Pipeline.tallyAt_pos he).1]
  · obtain ⟨k, _, hk⟩ := Pipeline.sum_pos_exists hp
    rw [(Pipeline.tallyAt_pos hk).1]

theorem creds (c : Dev nD) :
    (Pipeline.launchCred O₀ c : sProp 𝕄)
      ⊢ iprop(cred (tallyOn (barCell c) (crBar c)) ∗ bigSep (Finset.Icc 1 31) fun k : ℕ => cred (tallyAt (recvCell c k) ι₀ N)) := by
  rw [Pipeline.launchCred_of_sum O₀ T₀ sum_O₀ T₀_own c]
  unfold T₀
  rw [← Pipeline.cred_finsetSum]
  exact (cred_add _ _).1

/-! ### The barrier credit, index by index -/

theorem crBar_apply (c : Dev nD) (i : IxT) : crBar c i = if i.1 = 0 ∧ i.2 ≠ c then 1 else 0 := by
  obtain ⟨r, e⟩ := i
  unfold crBar
  rw [Finsupp.finset_sum_apply]
  simp only [Finsupp.single_apply, Prod.mk.injEq]
  by_cases hr : 0 = r
  · subst hr
    simp only [true_and]
    rw [Finset.sum_ite_eq' (Finset.univ.erase c) e fun _ => 1]
    simp only [Finset.mem_erase, Finset.mem_univ, and_true]
  · rw [Finset.sum_eq_zero fun d _ => if_neg fun h => hr h.1, if_neg fun h => hr h.1.symm]

theorem support_crBar (c : Dev nD) : (crBar c).support = (Finset.univ.erase c).image (fun d => ((0, d) : IxT)) := by
  ext i
  rw [Finsupp.mem_support_iff, crBar_apply, Finset.mem_image]
  constructor
  · intro h
    by_cases hc : i.1 = 0 ∧ i.2 ≠ c
    · exact ⟨i.2, Finset.mem_erase.mpr ⟨hc.2, Finset.mem_univ _⟩, Prod.ext hc.1.symm rfl⟩
    · rw [if_neg hc] at h; exact absurd rfl h
  · rintro ⟨d, hd, rfl⟩
    rw [if_pos ⟨rfl, (Finset.mem_erase.mp hd).1⟩]; exact Nat.one_ne_zero

theorem total_crBar (c : Dev nD) : Util.total (crBar c) = 31 := by
  unfold crBar
  rw [Util.total_finset_sum, Finset.sum_congr rfl fun d _ => Util.total_single ((0, d) : IxT) 1, Finset.sum_const,
    Finset.card_erase_of_mem (Finset.mem_univ _), Finset.card_univ, Fintype.card_fin, smul_eq_mul]
  rfl

/-! ## The levels -/

theorem L_of_ne (g : GSem nD τ sig) (h : g.1.2 ≠ .tc) : L g = ∅ := if_neg h
theorem L_tc (c : Dev nD) (sm : SemLoc sig) : L ((c : Thread nD τ), sm) = Finset.univ.image (fun d : Dev nD => ((0, d) : IxT)) := if_pos rfl
theorem mem_L (c : Dev nD) (sm : SemLoc sig) (i : IxT) (hi : i.1 = 0) : i ∈ L ((c : Thread nD τ), sm) := by
  rw [L_tc]; exact Finset.mem_image.mpr ⟨i.2, Finset.mem_univ _, Prod.ext hi.symm rfl⟩

theorem lv_bar (d : Dev nD) (i : IxT) : lv (barCell d) i = 1 := by
  show (match kindOf (.reg barS : SemLoc sig) with | .bar => 1 | .recv _ => 2 | _ => 0) = 1
  rw [kind_bar]
theorem lv_recv (d : Dev nD) (k : ℕ) (hk : 1 ≤ k ∧ k < 32) (i : IxT) : lv (recvCell d k) i = 2 := by
  show (match kindOf (.dma (recvS k) : SemLoc sig) with | .bar => 1 | .recv _ => 2 | _ => 0) = 2
  rw [kind_recv k hk]
theorem lv_stage (c : Dev nD) (q : DmaSem sig) (hq : q.val < 2) (i : IxT) : lv ((c : Thread nD τ), .dma q) i = 0 := by
  show (match (if 3 ≤ q.val ∧ q.val < 34 then Kind.send (q.val - 2) else if 35 ≤ q.val ∧ q.val < 66 then Kind.recv (q.val - 34) else Kind.other) with
    | .bar => 1 | .recv _ => 2 | _ => 0) = 0
  rw [if_neg (by omega), if_neg (by omega)]

/-- Where a device owes at launch: at round-0 indices, on barrier cells and on receive cells 1 … 31. -/
theorem O₀_pos {c : Dev nD} {g : GSem nD τ sig} {u : IxT} (h : 0 < O₀ c g u) :
    u.1 = 0 ∧ ((∃ d, g = barCell d) ∨ ∃ d k, 1 ≤ k ∧ k < 32 ∧ g = recvCell d k) := by
  unfold O₀ at h
  rcases Pipeline.add_pos_cases h with h | h
  · obtain ⟨d, _, hd⟩ := Pipeline.sum_pos_exists h
    obtain ⟨hg, hu⟩ := Pipeline.tallyAt_pos hd
    exact ⟨by rw [hu], Or.inl ⟨d, hg⟩⟩
  · obtain ⟨k, hk, hd⟩ := Pipeline.sum_pos_exists h
    obtain ⟨hg, hu⟩ := Pipeline.tallyAt_pos hd
    have := Finset.mem_Icc.mp hk
    exact ⟨by rw [hu], Or.inr ⟨fwd c k, k, this.1, by omega, hg⟩⟩

/-- The pipeline's staging waits: a staging cell is below everything a device owes at launch, and after the point it owes nothing. -/
theorem mayWait_stage (c : Dev nD) (q : DmaSem sig) (hq : q.val < 2) (O : CellTallies nD τ sig IxT) (hO : O = O₀ c ∨ O = 0) :
    (levAts L lv : sProp 𝕄) ⊢ MayWait (c : Thread nD τ) (.dma q) ι₀ O := by
  rcases hO with rfl | rfl
  · refine MayOwe.of_cut (L := L) (lev := lv) 0 (fun p hp => by rw [Finset.mem_singleton.mp hp]; exact mem_L c _ _ rfl)
      (fun g u hg => ?_) (fun p hp => by rw [Finset.mem_singleton.mp hp]; exact (lv_stage c q hq _).le) (fun g u hg => ?_)
    · obtain ⟨hu, ⟨d, rfl⟩ | ⟨d, k, _, _, rfl⟩⟩ := O₀_pos hg <;> exact mem_L d _ _ hu
    · obtain ⟨hu, ⟨d, rfl⟩ | ⟨d, k, h1, h2, rfl⟩⟩ := O₀_pos hg
      · rw [lv_bar]; exact Nat.one_pos
      · rw [lv_recv d k ⟨h1, h2⟩]; exact Nat.succ_pos 1
  · rw [MayWait_zero]; iintro -; iempintro

/-- At its barrier wait a device owes arrivals only, and a receive cell sits above every barrier cell. -/
theorem mayOwe_bar (c : Dev nD) (O : CellTallies nD τ sig IxT)
    (hO : ∀ g u, 0 < O g u → u.1 = 0 ∧ ∃ d k, 1 ≤ k ∧ k < 32 ∧ g = recvCell d k) :
    (levAts L lv : sProp 𝕄) ⊢ MayOwe (c : Thread nD τ) ((crBar c).support.image fun i => (SemLoc.reg barS, i)) O :=
  MayOwe.of_cut (L := L) (lev := lv) 1
    (fun p hp => by
      obtain ⟨i, hi, rfl⟩ := Finset.mem_image.mp hp
      rw [support_crBar] at hi; obtain ⟨d, _, rfl⟩ := Finset.mem_image.mp hi
      exact mem_L c _ _ rfl)
    (fun g u hg => by obtain ⟨hu, d, k, _, _, rfl⟩ := hO g u hg; exact mem_L d _ _ hu)
    (fun p hp => by obtain ⟨i, _, rfl⟩ := Finset.mem_image.mp hp; exact (lv_bar c i).le)
    (fun g u hg => by obtain ⟨_, d, k, h1, h2, rfl⟩ := hO g u hg; rw [lv_recv d k ⟨h1, h2⟩]; exact Nat.lt_succ_self 1)

/-- The arrivals a device owes: they are what it owes at its barrier wait. -/
theorem arrivals_pos (c : Dev nD) (g : GSem nD τ sig) (u : IxT)
    (h : 0 < (∑ k ∈ Finset.Icc 1 31, (tallyAt (recvCell (fwd c k) k) ι₀ N : CellTallies nD τ sig IxT)) g u) :
    u.1 = 0 ∧ ∃ d k, 1 ≤ k ∧ k < 32 ∧ g = recvCell d k := by
  obtain ⟨k, hk, hd⟩ := Pipeline.sum_pos_exists h
  obtain ⟨hg, hu⟩ := Pipeline.tallyAt_pos hd
  have := Finset.mem_Icc.mp hk
  exact ⟨by rw [hu], fwd c k, k, this.1, by omega, hg⟩

theorem waits (c : Dev nD) : (levAts L lv : sProp 𝕄) ⊢ Pipeline.cellsWaits cfgs (dats m ρ) ι₀ 0 c :=
  Pipeline.cellsWaits_intro cfgs (dats m ρ) ι₀ 0 c fun w s t =>
    mayWait_stage c _ (by fin_cases w <;> fin_cases s <;> decide) _ (by
      rcases t with ⟨_ | _, ht⟩
      · exact Or.inl rfl
      · exact Or.inr rfl)

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

/-- What a device's body starts from, out of what the launch hands it: its launch credit read cell by cell. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- The one scoped buffer that is no staging buffer is the landing buffer. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  isplitr; · iempintro
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters, given each device's body
    obligation: every weakly fair execution of @main — the 32 kernels handshaking on the runtime's barrier semaphore, then
    exchanging their column sums — terminates, and every final state has each device's block of x as it was and its result
    array as the write-back of what the body left. -/
theorem run_main (hbody : ∀ c : Dev nD, BodyObligation (dats (F := F) m ρ 0 c) (defs₀ (F := F)) 𝒱₀ ι₀ Set.univ) :
    θ_run defs (onTc (τ := τ) (main (F := F))) (s₀ m ρ) (QC m ρ) :=
  Pipeline.θ_run_region_owing_glob_pf (fun p => (cfgs p).toPCfg) (fun p => (cfgs p).toPCfg_adm) (dats m ρ) ι₀ cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := _)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The block of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run: the write-back of what the body left in the staging buffer, the window's block being the
    whole array. -/
theorem finalA_out (c : Dev nD) : finalA m ρ c (1 : Fin 2) = outAt m ρ c := by
  show (dats m ρ 0 c).arrAt (1 : Fin 2) ((t₀ : Fin cfg0.N).val + 1) = _
  rw [Dat.arrAt_succ, flush0_1 t₀, if_pos rfl]
  exact Memref.write_access_unit_zero_univ (Elt F) main_v1 (off := fun a => (cfg0.win 1).index t₀ a * (cfg0.win 1).size a)
    (funext fun a => Nat.zero_mul _) _ _ _

/-- info: 'Cert.KernelIdeal.Pf.finalA_out' depends on axioms: [propext, Classical.choice, Quot.sound] -/
#guard_msgs in #print axioms finalA_out

/-- info: 'Cert.KernelIdeal.Pf.run_main' depends on axioms: [propext, Classical.choice, Quot.sound] -/
#guard_msgs in #print axioms run_main

end Cert.KernelIdeal.Pf

end
-- ==== Proof.Staged.lean ====
/-
  The staged block of x is the device's whole argument buffer: the window's one block is the whole [1024, 512] array.
-/
import proofs.«900936_g7700000000000937_dist_mean_ax0_shard0_i_m1024_n512_v7x_i32_bf16_1_alg».proof.Proof.State

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-- What the pipeline stages for device c is what its argument buffer holds at launch. -/
theorem xstg_eq (c : Dev nD) : xstg m ρ c = m ((c : Thread nD τ).loc main_arg0) :=
  Memref.read_access_unit_zero (Elt F) main_arg0 (off := fun a => win0_0.index (0 : Fin 1) a * win0_0.size a)
    (funext fun a => Nat.zero_mul _) _ _

/-- info: 'Cert.KernelIdeal.Pf.xstg_eq' depends on axioms: [propext, Classical.choice, Quot.sound] -/
#guard_msgs in #print axioms xstg_eq

end Cert.KernelIdeal.Pf

end
-- ==== Proof.Canon.lean ====
/-
  The printed program's own spellings of the protocol's memrefs, semaphores and devices, each equal to the name the proof
  holds it under: slot k of the landing buffer, send and receive semaphore k, and the devices the signals and copies name
  (signal number d + 1 names device d; copy number r names the device r places after the issuer).
  A table of cases, one equation per literal index, stated by one command that runs over the indices.
-/
import proofs.«900936_g7700000000000937_dist_mean_ax0_shard0_i_m1024_n512_v7x_i32_bf16_1_alg».proof.Proof.Cells

noncomputable section

namespace Cert.KernelIdeal.Pf

open Cert.KernelIdeal Cert.KernelIdeal.Gen
open Idealize.ShloMosaic Idealize.ShloMosaic.TcCoe Idealize.ShloMosaic.Tactic
open Lean Elab Command

/-- The literal device `k`. -/
def dv (k : ℕ) : Dev nD := ⟨k % 32, Nat.mod_lt _ (by decide)⟩

/-- One equation per index: slots, send and receive semaphores, signalled devices, copy targets. -/
elab "protocol_names" : command => do
  for k in [0:32] do
    let kk := Syntax.mkNumLit (toString k)
    let inb3 := mkIdent (Name.mkSimple s!"inb_S32x1x512_S1x1x512_{k}_0_0")
    let nSlot := mkIdent (Name.mkSimple s!"slot{k}_eq")
    elabCommand (← `(@[sl_canon] theorem $nSlot :
      ((Memref.whole cc0_scratch0 : Memref sig .tc .vmem S32x1x512 .f32).slice (Rect.unit (s := S32x1x512) ![$kk, 0, 0] S1x1x512.size $inb3) (fun _ => rfl)).squeeze S1x512 squeezes_S1x1x512_S1x512
        = slotM $kk := rfl))
    let nDev := mkIdent (Name.mkSimple s!"dev{k+1}_eq")
    let kdev := mkIdent (Name.mkSimple s!"k0_dev{k+1}")
    let kdevlt := mkIdent (Name.mkSimple s!"k0_dev{k+1}_lt")
    let kdeveq := mkIdent (Name.mkSimple s!"k0_dev{k+1}_eq")
    let kcond := mkIdent (Name.mkSimple s!"k0_cond{k+1}")
    elabCommand (← `(@[sl_canon] theorem $nDev (d0 : Dev nD) (h : $kcond d0 = 1#1) :
      (⟨$kdev, $kdevlt d0 h⟩ : Dev nD) = dv $kk := Fin.ext $kdeveq))
  for k in [1:32] do
    let kk := Syntax.mkNumLit (toString k)
    let inb1 := mkIdent (Name.mkSimple s!"inb_S32_S1_{k}")
    let nSend := mkIdent (Name.mkSimple s!"sendS{k}_eq")
    let nRecv := mkIdent (Name.mkSimple s!"recvS{k}_eq")
    elabCommand (← `(@[sl_canon] theorem $nSend :
      ((cc0_scratch1.slice (Rect.unit (s := S32) ![$kk] S1.size $inb1)).squeeze S_ squeezes_S1_S_).sem = sendS $kk := rfl))
    elabCommand (← `(@[sl_canon] theorem $nRecv :
      ((cc0_scratch2.slice (Rect.unit (s := S32) ![$kk] S1.size $inb1)).squeeze S_ squeezes_S1_S_).sem = recvS $kk := rfl))
    let nDev := mkIdent (Name.mkSimple s!"dev{k+32}_eq")
    let kdev := mkIdent (Name.mkSimple s!"k0_dev{k+32}")
    let kdevlt := mkIdent (Name.mkSimple s!"k0_dev{k+32}_lt")
    let kdeveq := mkIdent (Name.mkSimple s!"k0_dev{k+32}_eq")
    elabCommand (← `(@[sl_canon] theorem $nDev (c : Dev nD) :
      (⟨$kdev c, $kdevlt c⟩ : Dev nD) = fwd c $kk := Fin.ext ($kdeveq c)))

protocol_names

end Cert.KernelIdeal.Pf

end
-- ==== Proof.BodyKit.lean ====
/-
  Tools for running the kernel body at a symbolic device.
  The 32 guarded signals: signal number d + 1 is sent unless the device IS d, so its guard holds exactly when the device is
  not d (decided once over the mesh); under it the device is among the payers of d's barrier cell.
  Families of resources indexed by a run of numbers, as flat chains whose members a tactic names one by one.
-/
import proofs.«900936_g7700000000000937_dist_mean_ax0_shard0_i_m1024_n512_v7x_i32_bf16_1_alg».proof.Proof.Cells
import proofs.«900936_g7700000000000937_dist_mean_ax0_shard0_i_m1024_n512_v7x_i32_bf16_1_alg».proof.Proof.Canon
import proofs.«900936_g7700000000000937_dist_mean_ax0_shard0_i_m1024_n512_v7x_i32_bf16_1_alg».proof.Proof.State

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (bigSep_Ico_one bigSep_Ico_succ)
open Lean Elab Command Tactic

variable {F : FTy → Type} [FloatOps F]

local notation "𝕄" => MT nD τ sig IxT (Elt F) ℕ UU ℕ

/-! ## The guards -/

/-- `condOf d c`: the guard of the signal to device `d`, as the kernel computes it (the printed `k0_cond<d+1> c`; zero past the mesh):
    a match with one arm per device, laid out by running over the devices. -/
elab "def_condOf" : command => do
  let mut alts : Array (TSyntax ``Lean.Parser.Term.matchAlt) := #[]
  for d in [0:32] do
    let dd := Syntax.mkNumLit (toString d)
    let cond := mkIdent (Name.mkSimple s!"k0_cond{d + 1}")
    alts := alts.push (← `(Lean.Parser.Term.matchAltExpr| | $dd => $cond c))
  alts := alts.push (← `(Lean.Parser.Term.matchAltExpr| | _ => 0#1))
  elabCommand (← `(def $(mkIdent `condOf) (d : ℕ) (c : Dev nD) : BitVec 1 := match d with $alts:matchAlt*))

def_condOf

/-- The guard holds exactly on the devices other than `d`. -/
theorem condOf_iff : ∀ d : Fin 32, ∀ c : Dev nD, (condOf d.val c = 1#1) ↔ (c ≠ dv d.val) := by decide +kernel

theorem tc_fst (x : Dev nD) : ((x : Thread nD τ)).1 = x := rfl

/-- One fact per guard: under it the device pays a duty of that barrier cell; where it fails the device is that one. -/
elab "guard_facts" : command => do
  for k in [1:33] do
    let kk := Syntax.mkNumLit (toString (k - 1))
    let cond := mkIdent (Name.mkSimple s!"k0_cond{k}")
    let nNe := mkIdent (Name.mkSimple s!"cond{k}_ne")
    let nMem := mkIdent (Name.mkSimple s!"mem_bar{k}")
    let nOf := mkIdent (Name.mkSimple s!"condOf_{k - 1}")
    elabCommand (← `(theorem $nOf (c : Dev nD) : condOf $kk c = $cond c := rfl))
    elabCommand (← `(theorem $nNe : ∀ c : Dev nD, $cond c = 1#1 → c ≠ dv $kk := by decide +kernel))
    elabCommand (← `(theorem $nMem {F : FTy → Type} [FloatOps F] (m : (ℓ : Loc nD τ sig) → Buf (Elt F) ℓ) (ρ : Dev nD → PrngReg) (c : Dev nD)
        (h : $cond c = 1#1) : c ∈ (sched (F := F) m ρ).duties (barCell (dv $kk)) 0 := by
      rw [duties_bar]; exact Finset.mem_erase.mpr ⟨$nNe c h, Finset.mem_univ _⟩))

guard_facts

/-- Closes `c ∈ duties (barCell (dv d)) 0` under the guard of the signal to `d`, found among the hypotheses. -/
elab "bar_mem " m:term:max ρ:term:max : tactic => do
  for k in [1:33] do
    let lem := mkIdent (`Cert.KernelIdeal.Pf ++ Name.mkSimple s!"mem_bar{k}")
    let ok ← observing? (evalTactic (← `(tactic| sl_exact ($lem $m $ρ _ (by with_reducible assumption)))))
    if ok.isSome then return
  throwError "bar_mem: no guard in scope"

/-! ## Chains -/

/-- `Φ lo ∗ Φ (lo + 1) ∗ … ` over `n` numbers (`emp` for none). -/
def chain (Φ : ℕ → sProp 𝕄) : ℕ → ℕ → sProp 𝕄
  | _, 0 => iprop(emp)
  | lo, 1 => Φ lo
  | lo, n + 2 => iprop(Φ lo ∗ chain Φ (lo + 1) (n + 1))

theorem bigSep_Ico_chain (Φ : ℕ → sProp 𝕄) (n lo : ℕ) : bigSep (Finset.Ico lo (lo + (n + 1))) Φ = chain Φ lo (n + 1) := by
  induction n generalizing lo with
  | zero => exact bigSep_Ico_one lo Φ
  | succ n ih =>
    rw [bigSep_Ico_succ (by omega), show lo + (n + 1 + 1) = lo + 1 + (n + 1) by omega, ih (lo + 1)]
    rfl

/-- The chain over 1 … 31, member by member. -/
theorem chain31 (Φ : ℕ → sProp 𝕄) : chain Φ 1 31 = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16
    ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := rfl

theorem Icc_eq_Ico : Finset.Icc 1 31 = Finset.Ico 1 (1 + (30 + 1)) := by decide

/-- `icases_chain H as pre from lo to hi`: the members of a chain named `pre<lo> … pre<hi>` (`pers`: into the persistent context). -/
elab "icases_chain " h:ident " as " pre:ident " from " lo:num " to " hi:num pers:(" pers")? : tactic => do
  let mut pats : Array (TSyntax ``Idealize.SL.ProofMode.icasesPatAlts) := #[]
  for k in [lo.getNat : hi.getNat + 1] do
    let nm := mkIdent (Name.mkSimple s!"{pre.getId}{k}")
    let p ← if pers.isSome then `(icasesPat| # $nm:ident) else `(icasesPat| $nm:ident)
    pats := pats.push (← `(icasesPatAlts| $p:icasesPat))
  let sepPats : Syntax.TSepArray ``Idealize.SL.ProofMode.icasesPatAlts "," := .ofElems pats
  evalTactic (← `(tactic| icases $h:ident with ⟨$sepPats,*⟩))

end Cert.KernelIdeal.Pf

end
-- ==== Proof.Flat.lean ====
/-
  The body's starting resources laid out member by member, as the symbolic run reads them: per signalled device d = 0 … 31
  its barrier cell's invariant and round-0 mark, the token of this device's duty there and the slot of this device's landing
  buffer that d writes — the last two under the signal's guard (nothing for the device's own index) —; per copy k = 1 … 31 the
  invariants and round-0 marks of this device's send cell and of the target's receive cell, the two tokens, this device's
  positions on its send and receive cells and the receive cell's launch credit; the device's own barrier cell; slot 0; and
  what the device owes, as a flat sum: the 31 arrivals and, per signalled device, a unit that is nothing when the guard fails.
-/
import proofs.«900936_g7700000000000937_dist_mean_ax0_shard0_i_m1024_n512_v7x_i32_bf16_1_alg».proof.Proof.BodyKit

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-- A sum of tallies over a run of numbers, the first number's outermost (the first paid). -/
def osum (T : ℕ → CellTallies nD τ sig IxT) : ℕ → ℕ → CellTallies nD τ sig IxT
  | _, 0 => 0
  | lo, 1 => T lo
  | lo, n + 2 => osum T (lo + 1) (n + 1) + T lo

/-- The same over a base: `((base + T (lo + n - 1)) + …) + T lo`, the first number's outermost. -/
def osumB (base : CellTallies nD τ sig IxT) (T : ℕ → CellTallies nD τ sig IxT) : ℕ → ℕ → CellTallies nD τ sig IxT
  | _, 0 => base
  | lo, n + 1 => osumB base T (lo + 1) n + T lo

/-- The arrivals a device owes: the slot's credit to receive cell `k` of the device `k` places after it. -/
def Oarr (c : Dev nD) : CellTallies nD τ sig IxT := osum (fun k => tallyAt (recvCell (fwd c k) k) ι₀ N) 1 31
/-- All it owes at the start: those, and a unit to each signalled device's barrier cell unless that device is itself. -/
def Oflat (c : Dev nD) : CellTallies nD τ sig IxT :=
  osumB (Oarr c) (fun d => tallyAt (barCell (dv d)) ((0, c) : IxT) (if condOf d c = 1#1 then 1 else 0)) 0 32

/-- What the run only reads. -/
def flatPers (κ : GSem nD τ sig → ℕ) (c : Dev nD) : sProp 𝕄 :=
  iprop(chain (fun d => cellInv ER (sched m ρ) (κ (barCell (dv d))) (barCell (dv d))) 0 32
    ∗ chain (fun d => reached ER (barCell (dv d)) 0) 0 32
    ∗ chain (fun k => cellInv ER (sched m ρ) (κ (sendCell c k)) (sendCell c k)) 1 31
    ∗ chain (fun k => reached ER (sendCell c k) 0) 1 31
    ∗ chain (fun k => cellInv ER (sched m ρ) (κ (recvCell c k)) (recvCell c k)) 1 31
    ∗ chain (fun k => cellInv ER (sched m ρ) (κ (recvCell (fwd c k) k)) (recvCell (fwd c k) k)) 1 31
    ∗ chain (fun k => reached ER (recvCell (fwd c k) k) 0) 1 31
    ∗ cellInv ER (sched m ρ) (κ (barCell c)) (barCell c)
    ∗ levAts L lv)

/-- What it consumes. -/
def flatLin (c : Dev nD) (f : Buf (Elt F) ((c : Thread nD τ).loc cc0_scratch0)) (W : Waits sig IxT) : sProp 𝕄 :=
  iprop(chain (fun d => Guarded (condOf d c = 1#1) (fun _ => dutyTok ER (barCell (dv d)) 0 c) (fun _ => (BIBase.emp : sProp 𝕄))) 0 32
    ∗ chain (fun d => Guarded (condOf d c = 1#1)
        (fun _ => ((slotM (gap (dv d) c)).view.loc (c : Thread nD τ) ↦[(slotM (gap (dv d) c)).view.set]{fullShare} f : sProp 𝕄)) (fun _ => (BIBase.emp : sProp 𝕄))) 0 32
    ∗ chain (fun k => dutyTok ER (sendCell c k) 0 (0 : Dev nD)) 1 31
    ∗ chain (fun k => dutyTok ER (recvCell (fwd c k) k) 0 (0 : Dev nD)) 1 31
    ∗ chain (fun k => atPos ER (sendCell c k) 0 ∅ 0) 1 31
    ∗ chain (fun k => atPos ER (recvCell c k) 0 ∅ 0) 1 31
    ∗ chain (fun k => cred (tallyAt (recvCell c k) ι₀ N)) 1 31
    ∗ atPos ER (barCell c) 0 ∅ 0
    ∗ cred (tallyOn (barCell c) (crBar c))
    ∗ ((slotM 0).view.loc (c : Thread nD τ) ↦[(slotM 0).view.set]{fullShare} f)
    ∗ owes (c : Thread nD τ) (Oflat c) W)

/-- The two cells no copy uses (send 0, receive 0): kept aside, to be closed with the others at the end. -/
def flatKeep (κ : GSem nD τ sig → ℕ) (c : Dev nD) : sProp 𝕄 :=
  iprop(cellInv ER (sched m ρ) (κ (sendCell c 0)) (sendCell c 0) ∗ cellInv ER (sched m ρ) (κ (recvCell c 0)) (recvCell c 0)
    ∗ atPos ER (sendCell c 0) 0 ∅ 0 ∗ atPos ER (recvCell c 0) 0 ∅ 0)

end Cert.KernelIdeal.Pf

end
-- ==== Proof.SignalReturn.lean ====
/-
  A signal sent under a guard and followed at once by a return, the shape of the one guarded signal whose region ends a printed
  part: whether the guard holds or not the device ends owing what is left after that signal's unit, the unit being owed only
  where the guard holds. Proved by cases on the guard once, here, so that the run after it is one run.
-/
import proofs.«900936_g7700000000000937_dist_mean_ax0_shard0_i_m1024_n512_v7x_i32_bf16_1_alg».proof.Proof.Flat

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

theorem wp_guarded_signal_ret {α : Type} {C : Prop} [Decidable C] (c dst : Dev nD) (dev : C → Dev nD) (hdev : ∀ h, dev h = dst)
    (κ : ℕ) (O : CellTallies nD τ sig IxT) (W : Waits sig IxT) (T : α) (Q : α → sProp 𝕄)
    (f : Buf (Elt F) ((c : Thread nD τ).loc cc0_scratch0))
    (hmem : C → c ∈ (sched (F := F) m ρ).duties (barCell dst) 0) :
    iprop(cellInv ER (sched m ρ) κ (barCell dst) ∗ reached ER (barCell dst) 0
        ∗ Guarded C (fun _ => dutyTok ER (barCell dst) 0 c) (fun _ => (BIBase.emp : sProp 𝕄))
        ∗ Guarded C (fun _ => ((slotM (gap dst c)).view.loc (c : Thread nD τ) ↦[(slotM (gap dst c)).view.set]{fullShare} f : sProp 𝕄)) (fun _ => (BIBase.emp : sProp 𝕄))
        ∗ owes (c : Thread nD τ) (O + tallyAt (barCell dst) ((0, c) : IxT) (if C then 1 else 0)) W)
      ⊢ iprop((owes (c : Thread nD τ) O W -∗ Q T)
          -∗ wp frame (wpE (defs₀ (F := F)) 𝒱₀ (c : Thread nD τ) none) Set.univ
              (if h : C then (Prog.op (.semSignal ((dev h : Dev nD) : Thread nD τ) barS 1) fun _ => Prog.ret T) else Prog.ret T) Q) := by
  by_cases hC : C
  · rw [dif_pos hC, hdev hC, if_pos hC]
    unfold Guarded; rw [dif_pos hC, dif_pos hC]
    iintro ⟨#HI, #HR, Htok, Hslot, HO⟩ Hk
    iapply (Rounds.wp_signal 𝒱₀ ER (sched m ρ) (c : Thread nD τ) none (dst := (dst : Thread nD τ)) (κ := κ) (d := c) (hmem hC) (amount_bar m ρ dst c)
      ((0, c) : IxT) O rfl) $$ [HO Htok Hslot]
    · isplitr; · iexact HI
      isplitl [HO]; · iexact HO
      isplitl [Htok]; · iexact Htok
      isplitl [Hslot]; · rw [payload_bar]; iexists f; iexact Hslot
      iexact HR
    iintro HO
    rw [wp_ret]; imodintro
    iapply Hk; iexact HO
  · rw [dif_neg hC]
    unfold Guarded; rw [dif_neg hC, dif_neg hC, if_neg hC, tallyAt_zero, add_zero]
    iintro ⟨-, -, -, -, HO⟩ Hk
    rw [wp_ret]; imodintro
    iapply Hk; iexact HO

end Cert.KernelIdeal.Pf

end
-- ==== Proof.Slots.lean ====
/-
  The landing buffer's 32 slots: slot k is the row (k mod 32, 0, ·) of the 32 × 1 × 512 buffer, seen as a 1 × 512 array.
  Here: each slot's element set, the 32 slots as a partition of the buffer (a points-to of the buffer is the 32 slots'),
  the shares of slot 0 (the full share is what is kept after n copies and the n shares lent), and the values: what the
  store of the column sums leaves on slot 0, what a landing leaves on slot k, and the buffer whose slot k holds the column
  sums of the device k places before, read whole, as the gathered array of all devices' blocks.
-/
import proofs.«900936_g7700000000000937_dist_mean_ax0_shard0_i_m1024_n512_v7x_i32_bf16_1_alg».proof.Proof.Cells
import proofs.«900936_g7700000000000937_dist_mean_ax0_shard0_i_m1024_n512_v7x_i32_bf16_1_alg».proof.Proof.Spec
import Idealize.ShloMosaic.Rules.PointsTo
import Idealize.ShloMosaic.Lib.ValueIdx
import Idealize.ShloMosaic.Lib.ValueLayout
import Mathlib.Order.Interval.Finset.Nat

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig IxT (Elt F) ℕ UU ℕ

variable (m : (ℓ : Loc nD τ sig) → Buf (Elt F) ℓ) (ρ : Dev nD → PrngReg)

/-! ## The slots' element sets -/

theorem slot_loc (k : ℕ) (c : Dev nD) : (slotM k).view.loc (c : Thread nD τ) = (c : Thread nD τ).loc cc0_scratch0 := rfl

/-- A slot's elements are its rectangle's: seeing the row as a 1 × 512 array keeps them. -/
theorem slot_set (k : ℕ) : (slotM k).view.set = (slotR k).set := by
  show (((View.whole cc0_scratch0).slice (slotR k)).reshape S1x512 _).set = _
  rw [View.set_reshape, View.set_slice_whole]

/-- The middle coordinate of a buffer index is 0. -/
private theorem idx_mid (i : S32x1x512.Idx) : (i 1).val = 0 := Nat.lt_one_iff.mp (show (i 1).val < 1 from (i 1).isLt)

theorem mem_slot_set (k : ℕ) (i : S32x1x512.Idx) : i ∈ (slotM k).view.set ↔ (i 0).val = k % 32 := by
  rw [slot_set, Rect.mem_set_unit]
  constructor
  · intro h
    have h0 : k % 32 ≤ (i 0).val ∧ (i 0).val < k % 32 + 1 := h 0
    omega
  · intro h a
    match a with
    | ⟨0, _⟩ => exact (show k % 32 ≤ (i 0).val ∧ (i 0).val < k % 32 + 1 from ⟨by omega, by omega⟩)
    | ⟨1, _⟩ => exact (show 0 ≤ (i 1).val ∧ (i 1).val < 0 + 1 from ⟨Nat.zero_le _, by have := idx_mid i; omega⟩)
    | ⟨2, _⟩ => exact (show 0 ≤ (i 2).val ∧ (i 2).val < 0 + 512 from ⟨Nat.zero_le _, by have : (i 2).val < 512 := (i 2).isLt; omega⟩)

theorem slot0_access_set : ((rM.access (Rect.unit (s := S32x1x512) ![0, 0, 0] S1x1x512.size inb_S32x1x512_S1x1x512_0_0_0) : View sig .tc _ _ _).set) = (slotM 0).view.set := by
  rw [slot_set]
  exact View.set_slice_whole cc0_scratch0 _

/-! ## The 32 slots partition the buffer -/

theorem slot_disjoint (k k' : ℕ) (hk : k < 32) (hk' : k' < 32) (hne : k ≠ k') :
    Disjoint (slotM k).view.set (slotM k').view.set := by
  rw [Finset.disjoint_left]
  intro i hi hi'
  have h1 := (mem_slot_set k i).mp hi
  have h2 := (mem_slot_set k' i).mp hi'
  omega

theorem slots_cover : (Finset.univ : Finset S32x1x512.Idx) = (Finset.range 32).biUnion fun k => (slotM k).view.set := by
  ext i
  simp only [Finset.mem_univ, Finset.mem_biUnion, Finset.mem_range, true_iff]
  have hlt : (i 0).val < 32 := (i 0).isLt
  exact ⟨(i 0).val, hlt, (mem_slot_set _ i).mpr (Nat.mod_eq_of_lt hlt).symm⟩

/-- the 32 slots partition the buffer: a points-to of the whole buffer, at any share, is the 32 slots' -/
theorem scratch_split (c : Dev nD) (q : PosShare TreeShare) (f : Buf (Elt F) ((c : Thread nD τ).loc cc0_scratch0)) :
    ((((c : Thread nD τ).loc cc0_scratch0) ↦{q} f : sProp 𝕄)) = bigSep (Finset.range 32) fun k => ((slotM k).view.loc (c : Thread nD τ) ↦[(slotM k).view.set]{q} f) := by
  have h := pointsTo_biUnion (nD := nD) (τ := τ) (sig := sig) (Ix := IxT) (Val := Elt F) (Name := ℕ) (U := UU) (Lvl := ℕ)
    (ℓ := (c : Thread nD τ).loc cc0_scratch0) (q := q) (f := f) (Finset.range 32) (fun k => (slotM k).view.set)
    (fun k hk k' hk' hne => slot_disjoint k k' (Finset.mem_range.mp hk) (Finset.mem_range.mp hk') hne)
  rw [← slots_cover] at h
  exact h

/-! ## The shares of slot 0 -/

private theorem Icc_succ (n : ℕ) : Finset.Icc 1 (n + 1) = insert (n + 1) (Finset.Icc 1 n) := by
  ext x; simp only [Finset.mem_Icc, Finset.mem_insert]; omega

private theorem sep_rot (P Q R : sProp 𝕄) : (iprop((P ∗ Q) ∗ R) : sProp 𝕄) = iprop(Q ∗ P ∗ R) := by
  have hc : (iprop((P ∗ Q) ∗ R) : sProp 𝕄) ⊣⊢ iprop(Q ∗ P ∗ R) := sep_assoc.trans sep_left_comm
  exact BI.equiv_iff.mp ⟨hc.1, hc.2⟩

theorem share_split_eq (n : ℕ) (c : Dev nD) (f : Buf (Elt F) ((c : Thread nD τ).loc cc0_scratch0)) :
    ((slotM 0).view.loc (c : Thread nD τ) ↦[(slotM 0).view.set]{fullShare} f : sProp 𝕄)
      = iprop(((slotM 0).view.loc (c : Thread nD τ) ↦[(slotM 0).view.set]{restSh n} f) ∗ bigSep (Finset.Icc 1 n) fun k => ((slotM 0).view.loc (c : Thread nD τ) ↦[(slotM 0).view.set]{lentSh k} f)) := by
  induction n with
  | zero =>
    rw [show Finset.Icc 1 0 = (∅ : Finset ℕ) from rfl, bigSep_empty]
    exact (BI.equiv_iff.mp ⟨sep_emp.2, sep_emp.1⟩)
  | succ n ih =>
    have hs := pointsTo_share (nD := nD) (τ := τ) (sig := sig) (Ix := IxT) (Val := Elt F) (Name := ℕ) (U := UU) (Lvl := ℕ)
      (ℓ := (slotM 0).view.loc (c : Thread nD τ)) (I := (slotM 0).view.set) (f := f) (PosShare.mem_left_op_right (restSh n))
    have hn : n + 1 ∉ Finset.Icc 1 n := by simp only [Finset.mem_Icc]; omega
    rw [Icc_succ, bigSep_insert hn, ih, BI.equiv_iff.mp ⟨hs.1, hs.2⟩]
    exact sep_rot _ _ _

/-- slot 0 at the full share is the share kept after n copies and the n shares lent -/
theorem share_split (n : ℕ) (c : Dev nD) (f : Buf (Elt F) ((c : Thread nD τ).loc cc0_scratch0)) :
    ((slotM 0).view.loc (c : Thread nD τ) ↦[(slotM 0).view.set]{fullShare} f : sProp 𝕄)
      ⊣⊢ iprop(((slotM 0).view.loc (c : Thread nD τ) ↦[(slotM 0).view.set]{restSh n} f) ∗ bigSep (Finset.Icc 1 n) fun k => ((slotM 0).view.loc (c : Thread nD τ) ↦[(slotM 0).view.set]{lentSh k} f)) :=
  ⟨Entails.of_eq (share_split_eq n c f), Entails.of_eq (share_split_eq n c f).symm⟩

/-! ## The values on the slots -/

/-- Entry `(k mod 32, 0, j)` of the landing buffer. -/
def slotIx (k : ℕ) (j : Fin 512) : S32x1x512.Idx :=
  ix3 (⟨k % 32, Nat.mod_lt _ (by decide)⟩ : Fin 32) (⟨0, Nat.one_pos⟩ : Fin 1) j

/-- An index whose first coordinate is `k mod 32` is entry `(k mod 32, 0, j)`, `j` its last coordinate. -/
theorem eq_slotIx {k : ℕ} {i : S32x1x512.Idx} (h : (i 0).val = k % 32) : i = slotIx k ⟨(i 2).val, (i 2).isLt⟩ := by
  funext a
  match a with
  | ⟨0, _⟩ => exact Fin.ext h
  | ⟨1, _⟩ => exact Fin.ext (idx_mid i)
  | ⟨2, _⟩ => rfl

/-- Slot `k`'s entry `(0, j)` sits at entry `(k mod 32, 0, j)` of the buffer. -/
theorem slot_emb (k : ℕ) (j : Fin 512) : (slotM k).view.emb (ix2 (⟨0, Nat.one_pos⟩ : Fin 1) j) = slotIx k j := by
  show (slotR k).emb (Shape.reshapeEquiv _ (ix2 (⟨0, Nat.one_pos⟩ : Fin 1) j)) = _
  rw [reshapeEquiv_ix2_1ab]
  funext a
  apply Fin.ext
  rw [Rect.emb_apply]
  match a with
  | ⟨0, _⟩ => show k % 32 + 1 * 0 = k % 32; omega
  | ⟨1, _⟩ => show 0 + 1 * 0 = 0; rfl
  | ⟨2, _⟩ => show 0 + 1 * j.val = j.val; omega

/-- The store's rectangle (the first row) places its entry `(0, 0, j)` at entry `(0, 0, j)` of the buffer. -/
theorem access0_emb (j : Fin 512) :
    ((rM.access (Rect.unit (s := S32x1x512) ![0, 0, 0] S1x1x512.size inb_S32x1x512_S1x1x512_0_0_0) : View sig .tc _ _ _).emb (rowIx j)) = slotIx 0 j := by
  show (Rect.unit (s := S32x1x512) ![0, 0, 0] S1x1x512.size inb_S32x1x512_S1x1x512_0_0_0).emb (rowIx j) = _
  funext a
  apply Fin.ext
  rw [Rect.emb_apply]
  match a with
  | ⟨0, _⟩ => show 0 + 1 * 0 = 0 % 32; rfl
  | ⟨1, _⟩ => show 0 + 1 * 0 = 0; rfl
  | ⟨2, _⟩ => show 0 + 1 * j.val = j.val; omega

/-- what the store of the column sums leaves on slot 0, whatever the buffer held: the stored buffer's slot 0 -/
theorem stored_congr (c : Dev nD) (f : Buf (Elt F) ((c : Thread nD τ).loc cc0_scratch0)) :
    ∀ i ∈ (slotM 0).view.set, ((rM.access (Rect.unit (s := S32x1x512) ![0, 0, 0] S1x1x512.size inb_S32x1x512_S1x1x512_0_0_0) : View sig .tc _ _ _).write (Elt F) f (k0_pay2 (xstg m ρ c)) Finset.univ) i = stored m ρ c i := by
  intro i hi
  rw [← slot0_access_set] at hi
  exact View.write_congr (fun _ _ _ => rfl) fun hn => absurd hi hn

theorem stored_slotIx (c : Dev nD) (j : Fin 512) : stored m ρ c (slotIx 0 j) = k0_pay2 (xstg m ρ c) (rowIx j) := by
  unfold stored
  rw [← access0_emb j, View.write_emb_of_mem _ _ (Finset.mem_univ _)]
  rfl

theorem stored_at (c : Dev nD) (i : S32x1x512.Idx) (h : i ∈ (slotM 0).view.set) : stored m ρ c i = k0_pay2 (xstg m ρ c) (rowIx ⟨(i 2).val, (i 2).isLt⟩) :=
  (congrArg (stored m ρ c) (eq_slotIx ((mem_slot_set 0 i).mp h))).trans (stored_slotIx m ρ c _)

/-- What a landing of the stored slot 0 of device `e` leaves at entry `(k mod 32, 0, j)`: entry `j` of `e`'s column sums. -/
theorem landed_slotIx (k : ℕ) (e : Dev nD) (fd : Buf (Elt F) ((slotM k).view.loc ((e : Dev nD) : Thread nD τ))) (j : Fin 512) :
    ((slotM k).view.write (Elt F) fd ((slotM 0).view.read (Elt F) (stored m ρ e)) Finset.univ) (slotIx k j)
      = k0_pay2 (xstg m ρ e) (rowIx j) := by
  rw [← slot_emb k j, View.write_emb_of_mem _ _ (Finset.mem_univ _), View.read_apply, slot_emb 0 j, stored_slotIx]
  rfl

theorem landed_at (k : ℕ) (e : Dev nD) (fd : Buf (Elt F) ((slotM k).view.loc ((e : Dev nD) : Thread nD τ))) (i : S32x1x512.Idx) (h : i ∈ (slotM k).view.set) :
    ((slotM k).view.write (Elt F) fd ((slotM 0).view.read (Elt F) (stored m ρ e)) Finset.univ) i = k0_pay2 (xstg m ρ e) (rowIx ⟨(i 2).val, (i 2).isLt⟩) :=
  (congrArg ((slotM k).view.write (Elt F) fd ((slotM 0).view.read (Elt F) (stored m ρ e)) Finset.univ) (eq_slotIx ((mem_slot_set k i).mp h))).trans
    (landed_slotIx m ρ k e fd _)

/-! ## The gathered buffer -/

/-- The device 0 places before `c` is `c`. -/
private theorem back_zero (c : Dev nD) : back c 0 = c := by
  apply Fin.ext; show (c.val + (32 - 0 % 32)) % 32 = c.val
  have := c.isLt; have : nD = 32 := rfl; omega

/-- the gathered buffer: a buffer that on slot 0 is the stored one of c and on slot k (1 ≤ k ≤ 31) is what landed from the device k places before c is, read whole, Spec.lean's `gathered` of all devices' staged blocks -/
theorem gathered_of_slots (c : Dev nD) (g : Buf (Elt F) ((c : Thread nD τ).loc cc0_scratch0)) (fd : (k : ℕ) → Buf (Elt F) ((c : Thread nD τ).loc cc0_scratch0))
    (h0 : ∀ i ∈ (slotM 0).view.set, g i = stored m ρ c i)
    (hk : ∀ k, 1 ≤ k → k < 32 → ∀ i ∈ (slotM k).view.set, g i = ((slotM k).view.write (Elt F) (fd k) ((slotM 0).view.read (Elt F) (stored m ρ (bwd c k))) Finset.univ) i) :
    (rM.view.readAt (Elt F) (Rect.unit (s := S32x1x512) ![0, 0, 0] S32x1x512.size inb_S32x1x512_S32x1x512_0_0_0).toLoadRect g) = gathered (fun d => xstg m ρ d) c := by
  refine (Memref.readAt_unit_zero (Elt F) cc0_scratch0 (by funext a; match a with | ⟨0, _⟩ => rfl | ⟨1, _⟩ => rfl | ⟨2, _⟩ => rfl) inb_S32x1x512_S32x1x512_0_0_0 g).trans ?_
  funext i
  show g i = k0_pay2 (xstg m ρ (back c (i 0).val)) (rowIx ⟨(i 2).val, (i 2).isLt⟩)
  have hlt : (i 0).val < 32 := (i 0).isLt
  by_cases hz : (i 0).val = 0
  · have hm : i ∈ (slotM 0).view.set := (mem_slot_set 0 i).mpr hz
    rw [h0 i hm, stored_at m ρ c i hm, hz, back_zero]
  · have hm : i ∈ (slotM (i 0).val).view.set := (mem_slot_set _ i).mpr (Nat.mod_eq_of_lt hlt).symm
    rw [hk _ (Nat.one_le_iff_ne_zero.mpr hz) hlt i hm, landed_at m ρ _ (bwd c (i 0).val) (fd _) i hm]
    rfl

/-! ## Slot 0 as the first row's load and store address it -/

/-- The elements a load of the first row reads are slot 0's. -/
theorem slot0_load_eq : (rM : Memref sig .tc .vmem S32x1x512 .f32).view.setOn ((Rect.unit (s := S32x1x512) ![0, 0, 0] S1x1x512.size inb_S32x1x512_S1x1x512_0_0_0).toLoadRect).set = (slotM 0).view.set := by
  rw [slot_set]
  exact Finset.map_refl

theorem slot0_load_sub : (rM : Memref sig .tc .vmem S32x1x512 .f32).view.setOn ((Rect.unit (s := S32x1x512) ![0, 0, 0] S1x1x512.size inb_S32x1x512_S1x1x512_0_0_0).toLoadRect).set ⊆ (slotM 0).view.set :=
  Finset.subset_of_eq slot0_load_eq

/-- The elements an unmasked store to the first row writes are slot 0's. -/
theorem slot0_store_eq : ((rM.access (Rect.unit (s := S32x1x512) ![0, 0, 0] S1x1x512.size inb_S32x1x512_S1x1x512_0_0_0) : View sig .tc _ _ _)).setOn Finset.univ = (slotM 0).view.set :=
  slot0_access_set

theorem slot0_store_sub : ((rM.access (Rect.unit (s := S32x1x512) ![0, 0, 0] S1x1x512.size inb_S32x1x512_S1x1x512_0_0_0) : View sig .tc _ _ _)).setOn Finset.univ ⊆ (slotM 0).view.set :=
  Finset.subset_of_eq slot0_store_eq

/-- info: 'Cert.KernelIdeal.Pf.gathered_of_slots' depends on axioms: [propext, Classical.choice, Quot.sound] -/
#guard_msgs in #print axioms gathered_of_slots

end Cert.KernelIdeal.Pf

end
-- ==== Proof.Joins.lean ====
/-
  The landing buffer's slots as chains: the whole buffer as slot 0 and the chain of slots 1 … 31, the shares of slot 0
  as the kept share and the chain of the 31 lent ones, and the 32 slots, each at its own contents, joined into the whole
  buffer at contents that agree with each on its slot.
-/
import proofs.«900936_g7700000000000937_dist_mean_ax0_shard0_i_m1024_n512_v7x_i32_bf16_1_alg».proof.Proof.Slots
import proofs.«900936_g7700000000000937_dist_mean_ax0_shard0_i_m1024_n512_v7x_i32_bf16_1_alg».proof.Proof.BodyKit
import Idealize.ShloMosaic.Rules.PointsTo
import Idealize.ShloMosaic.Lib.Ring

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## Runs of 32 as a first member and a chain of 31 -/

/-- A family over 0 … 31 is its member 0 and the chain of its members 1 … 31. -/
theorem bigSep_range32_chain (Φ : ℕ → sProp 𝕄) : bigSep (Finset.range 32) Φ = iprop(Φ 0 ∗ chain Φ 1 31) := by
  rw [Finset.range_eq_Ico, Idealize.ShloMosaic.Ring.bigSep_Ico_succ (by decide : 0 < 32)]
  exact congrArg (fun X : sProp 𝕄 => iprop(Φ 0 ∗ X)) (bigSep_Ico_chain Φ 30 1)

/-- Chains of families that agree on the chain's numbers are equal. -/
private theorem chain_congr (Φ Ψ : ℕ → sProp 𝕄) (n lo : ℕ) (h : ∀ k ∈ Finset.Ico lo (lo + (n + 1)), Φ k = Ψ k) :
    chain Φ lo (n + 1) = chain Ψ lo (n + 1) := by
  rw [← bigSep_Ico_chain, ← bigSep_Ico_chain]; exact bigSep_congr h

/-! ## The shares of slot 0 -/

theorem shares_eq (c : Dev nD) (f : Buf (Elt F) ((c : Thread nD τ).loc cc0_scratch0)) :
    ((slotM 0).view.loc (c : Thread nD τ) ↦[(slotM 0).view.set]{fullShare} f : sProp 𝕄)
      = iprop(((slotM 0).view.loc (c : Thread nD τ) ↦[(slotM 0).view.set]{restSh 31} f) ∗ chain (fun k => ((slotM 0).view.loc (c : Thread nD τ) ↦[(slotM 0).view.set]{lentSh k} f)) 1 31) := by
  rw [share_split_eq 31 c f, Icc_eq_Ico, bigSep_Ico_chain]

/-- slot 0 after the store: at the full share it is the kept share and the 31 lent ones, one chain member per copy -/
theorem shares_out (c : Dev nD) (f : Buf (Elt F) ((c : Thread nD τ).loc cc0_scratch0)) :
    ((slotM 0).view.loc (c : Thread nD τ) ↦[(slotM 0).view.set]{fullShare} f : sProp 𝕄)
      ⊢ iprop(((slotM 0).view.loc (c : Thread nD τ) ↦[(slotM 0).view.set]{restSh 31} f) ∗ chain (fun k => ((slotM 0).view.loc (c : Thread nD τ) ↦[(slotM 0).view.set]{lentSh k} f)) 1 31) :=
  Entails.of_eq (shares_eq c f)

theorem shares_in (c : Dev nD) (f : Buf (Elt F) ((c : Thread nD τ).loc cc0_scratch0)) :
    iprop(((slotM 0).view.loc (c : Thread nD τ) ↦[(slotM 0).view.set]{restSh 31} f) ∗ chain (fun k => ((slotM 0).view.loc (c : Thread nD τ) ↦[(slotM 0).view.set]{lentSh k} f)) 1 31)
      ⊢ ((slotM 0).view.loc (c : Thread nD τ) ↦[(slotM 0).view.set]{fullShare} f : sProp 𝕄) :=
  Entails.of_eq (shares_eq c f).symm

/-! ## The whole buffer and its 32 slots -/

/-- and the converse of the split into 32 slots in chain form: the whole buffer as slot 0 and the chain of slots 1 … 31 -/
theorem scratch_chain (c : Dev nD) (q : PosShare TreeShare) (f : Buf (Elt F) ((c : Thread nD τ).loc cc0_scratch0)) :
    ((((c : Thread nD τ).loc cc0_scratch0) ↦{q} f : sProp 𝕄)) = iprop(((slotM 0).view.loc (c : Thread nD τ) ↦[(slotM 0).view.set]{q} f) ∗ chain (fun k => ((slotM k).view.loc (c : Thread nD τ) ↦[(slotM k).view.set]{q} f)) 1 31) := by
  rw [scratch_split c q f]
  exact bigSep_range32_chain (fun k => ((slotM k).view.loc (c : Thread nD τ) ↦[(slotM k).view.set]{q} f))

/-- The contents of slot `k` in a join: `f0` on slot 0, `fs k` on the others. -/
def joinFam {ℓ : Loc nD τ sig} (f0 : Buf (Elt F) ℓ) (fs : ℕ → Buf (Elt F) ℓ) (k : ℕ) : Buf (Elt F) ℓ := if k = 0 then f0 else fs k

theorem joinFam_zero {ℓ : Loc nD τ sig} (f0 : Buf (Elt F) ℓ) (fs : ℕ → Buf (Elt F) ℓ) : joinFam f0 fs 0 = f0 := if_pos rfl
theorem joinFam_pos {ℓ : Loc nD τ sig} (f0 : Buf (Elt F) ℓ) (fs : ℕ → Buf (Elt F) ℓ) {k : ℕ} (h : k ≠ 0) : joinFam f0 fs k = fs k := if_neg h

/-- Slot 0 and the chain of slots 1 … 31, each at its own contents, as one family over 0 … 31. -/
theorem join_family (c : Dev nD) (f0 : Buf (Elt F) ((c : Thread nD τ).loc cc0_scratch0)) (fs : ℕ → Buf (Elt F) ((c : Thread nD τ).loc cc0_scratch0)) :
    (iprop(((slotM 0).view.loc (c : Thread nD τ) ↦[(slotM 0).view.set]{fullShare} f0) ∗ chain (fun k => ((slotM k).view.loc (c : Thread nD τ) ↦[(slotM k).view.set]{fullShare} fs k)) 1 31) : sProp 𝕄)
      = bigSep (Finset.range 32) fun k => ((c : Thread nD τ).loc cc0_scratch0 ↦[(slotM k).view.set]{fullShare} joinFam f0 fs k) := by
  rw [bigSep_range32_chain, joinFam_zero]
  have ec : chain (fun k => (((c : Thread nD τ).loc cc0_scratch0 ↦[(slotM k).view.set]{fullShare} joinFam f0 fs k : sProp 𝕄))) 1 (30 + 1)
      = chain (fun k => ((slotM k).view.loc (c : Thread nD τ) ↦[(slotM k).view.set]{fullShare} fs k)) 1 (30 + 1) :=
    chain_congr _ _ 30 1 fun k hk => by
      have hk0 : k ≠ 0 := by have := (Finset.mem_Ico.mp hk).1; omega
      show (_ ↦[_]{_} joinFam f0 fs k) = _
      rw [joinFam_pos f0 fs hk0]
  exact congrArg (fun X : sProp 𝕄 => iprop(((slotM 0).view.loc (c : Thread nD τ) ↦[(slotM 0).view.set]{fullShare} f0) ∗ X)) ec.symm

/-- the 32 slots, each at its own contents, joined into the whole buffer at contents that agree with each on its slot -/
theorem scratch_join (c : Dev nD) (f0 : Buf (Elt F) ((c : Thread nD τ).loc cc0_scratch0)) (fs : ℕ → Buf (Elt F) ((c : Thread nD τ).loc cc0_scratch0)) :
    iprop(((slotM 0).view.loc (c : Thread nD τ) ↦[(slotM 0).view.set]{fullShare} f0) ∗ chain (fun k => ((slotM k).view.loc (c : Thread nD τ) ↦[(slotM k).view.set]{fullShare} fs k)) 1 31)
      ⊢ (iprop(∃ g : Buf (Elt F) ((c : Thread nD τ).loc cc0_scratch0), ⌜(∀ i ∈ (slotM 0).view.set, g i = f0 i) ∧ ∀ k, 1 ≤ k → k < 32 → ∀ i ∈ (slotM k).view.set, g i = fs k i⌝ ∗ (((c : Thread nD τ).loc cc0_scratch0) ↦{fullShare} g)) : sProp 𝕄) := by
  rw [join_family c f0 fs]
  have hj := pointsTo_biUnion_join (nD := nD) (τ := τ) (sig := sig) (Ix := IxT) (Val := Elt F) (Name := ℕ) (U := UU) (Lvl := ℕ)
    (ℓ := (c : Thread nD τ).loc cc0_scratch0) (q := fullShare) (Finset.range 32) (fun k => (slotM k).view.set) (joinFam f0 fs) f0
    (fun k hk k' hk' hne => slot_disjoint k k' (Finset.mem_range.mp hk) (Finset.mem_range.mp hk') hne)
  rw [← slots_cover] at hj
  refine hj.trans ?_
  iintro H
  icases H with ⟨%g, %hg, HS⟩
  iexists g
  isplitr
  · ipureintro
    refine ⟨fun i hi => ?_, fun k h1 h32 i hi => ?_⟩
    · rw [hg 0 (Finset.mem_range.mpr (by decide)) i hi, joinFam_zero]
    · rw [hg k (Finset.mem_range.mpr h32) i hi, joinFam_pos f0 fs (by omega)]
  · iexact HS

/-- info: 'Cert.KernelIdeal.Pf.scratch_join' depends on axioms: [propext, Classical.choice, Quot.sound] -/
#guard_msgs in #print axioms scratch_join

end Cert.KernelIdeal.Pf

end
-- ==== Proof.Regroup.lean ====
/-
  What the words of the 31 other devices hand a device at its barrier wait, regrouped by the copy that uses it: the
  devices other than c are the devices 1 … 31 places after c, and the one k places after lends its slot k.
-/
import proofs.«900936_g7700000000000937_dist_mean_ax0_shard0_i_m1024_n512_v7x_i32_bf16_1_alg».proof.Proof.Joins
import Idealize.SL.ProofMode.BigOp

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## The other devices, counted by their place after `c` -/

/-- The devices other than `c` are the devices 1 … 31 places after it. -/
theorem others_eq_image (c : Dev nD) :
    (Finset.univ.erase c : Finset (Dev nD)) = (Finset.Icc 1 31).image (fun k => fwd c k) := by
  ext d
  simp only [Finset.mem_erase, Finset.mem_univ, and_true, Finset.mem_image, Finset.mem_Icc]
  constructor
  · intro hne
    refine ⟨gap c d, ⟨?_, ?_⟩, fwd_gap c d⟩
    · rcases Nat.eq_zero_or_pos (gap c d) with h | h
      · exact absurd (gap_eq_zero h) hne
      · exact h
    · have := gap_lt c d; omega
  · rintro ⟨k, ⟨h1, h31⟩, rfl⟩ h
    have hg := gap_fwd c k (by omega)
    rw [h, gap_self] at hg
    omega

/-- Different places 1 … 31 after `c` are different devices. -/
theorem fwd_injOn (c : Dev nD) : Set.InjOn (fun k => fwd c k) (Finset.Icc 1 31 : Finset ℕ) := by
  intro k hk k' hk' e
  have hk1 := Finset.mem_Icc.mp (Finset.mem_coe.mp hk)
  have hk2 := Finset.mem_Icc.mp (Finset.mem_coe.mp hk')
  have hg := congrArg (gap c) e
  simp only at hg
  rw [gap_fwd c k (by omega), gap_fwd c k' (by omega)] at hg
  exact hg

/-! ## The barrier's payloads as a chain over the copies -/

/-- Slot `n` of device `d`, at the full share, at some contents. -/
def lentSlot (d : Dev nD) (n : ℕ) : sProp 𝕄 :=
  iprop(∃ f : Buf (Elt F) ((slotM n).view.loc (d : Thread nD τ)), ((slotM n).view.loc (d : Thread nD τ) ↦[(slotM n).view.set]{fullShare} f))

theorem bar_payloads_eq (c : Dev nD) :
    bigSep (Finset.univ.erase c) (fun d : Dev nD => lentSlot (F := F) d (gap c d)) = chain (fun k => lentSlot (F := F) (fwd c k) k) 1 31 := by
  have e1 : bigSep (Finset.univ.erase c) (fun d : Dev nD => lentSlot (F := F) d (gap c d))
      = bigSep (Finset.Icc 1 31) (fun k => lentSlot (F := F) (fwd c k) (gap c (fwd c k))) := by
    rw [others_eq_image c]
    exact bigSep_image_of_injOn (fwd_injOn c) (fun d : Dev nD => lentSlot (F := F) d (gap c d))
  have e2 : bigSep (Finset.Icc 1 31) (fun k => lentSlot (F := F) (fwd c k) (gap c (fwd c k)))
      = bigSep (Finset.Icc 1 31) (fun k => lentSlot (F := F) (fwd c k) k) :=
    bigSep_congr fun k hk => by
      have hk' := Finset.mem_Icc.mp hk
      show lentSlot (fwd c k) (gap c (fwd c k)) = lentSlot (fwd c k) k
      rw [gap_fwd c k (by omega)]
  have e3 : bigSep (Finset.Icc 1 31) (fun k => lentSlot (F := F) (fwd c k) k) = chain (fun k => lentSlot (F := F) (fwd c k) k) 1 31 := by
    rw [Icc_eq_Ico]; exact bigSep_Ico_chain _ 30 1
  exact e1.trans (e2.trans e3)

theorem bar_payloads (c : Dev nD) :
    bigSep (Finset.univ.erase c) (fun d : Dev nD => (iprop(∃ f : Buf (Elt F) ((slotM (gap c d)).view.loc (d : Thread nD τ)), ((slotM (gap c d)).view.loc (d : Thread nD τ) ↦[(slotM (gap c d)).view.set]{fullShare} f)) : sProp 𝕄))
      ⊢ chain (fun k => (iprop(∃ f : Buf (Elt F) ((slotM k).view.loc ((fwd c k : Dev nD) : Thread nD τ)), ((slotM k).view.loc ((fwd c k : Dev nD) : Thread nD τ) ↦[(slotM k).view.set]{fullShare} f)) : sProp 𝕄)) 1 31 :=
  Entails.of_eq (bar_payloads_eq (F := F) c)

theorem bar_payloads' (c : Dev nD) :
    bigSep (Finset.univ.erase c \ ∅) (fun d : Dev nD => (iprop(∃ f : Buf (Elt F) ((slotM (gap c d)).view.loc (d : Thread nD τ)), ((slotM (gap c d)).view.loc (d : Thread nD τ) ↦[(slotM (gap c d)).view.set]{fullShare} f)) : sProp 𝕄))
      ⊢ chain (fun k => (iprop(∃ f : Buf (Elt F) ((slotM k).view.loc ((fwd c k : Dev nD) : Thread nD τ)), ((slotM k).view.loc ((fwd c k : Dev nD) : Thread nD τ) ↦[(slotM k).view.set]{fullShare} f)) : sProp 𝕄)) 1 31 := by
  rw [Finset.sdiff_empty]
  exact bar_payloads (F := F) c

/-! ## The gathered buffer as one contents function -/

/-- the landing buffer of c after the exchange, as a buffer: Spec.lean's gathered of all devices' staged blocks -/
def gbuf (c : Dev nD) : Buf (Elt F) ((c : Thread nD τ).loc cc0_scratch0) := gathered (fun d => xstg m ρ d) c

/-- The device 0 places before `c` is `c`. -/
private theorem back_zero' (c : Dev nD) : back c 0 = c := by
  apply Fin.ext; show (c.val + (32 - 0 % 32)) % 32 = c.val
  have := c.isLt; have : nD = 32 := rfl; omega

theorem gbuf_apply (c : Dev nD) (i : S32x1x512.Idx) :
    gbuf m ρ c i = k0_pay2 (xstg m ρ (back c (i 0).val)) (rowIx ⟨(i 2).val, (i 2).isLt⟩) := rfl

theorem stored_gbuf (c : Dev nD) : ∀ i ∈ (slotM 0).view.set, stored m ρ c i = gbuf m ρ c i := by
  intro i hi
  have h0 : (i 0).val = 0 := (mem_slot_set 0 i).mp hi
  rw [stored_at m ρ c i hi, gbuf_apply, h0, back_zero']

theorem landed_gbuf (c : Dev nD) (k : ℕ) (hk : 1 ≤ k ∧ k < 32) (fd : Buf (Elt F) ((slotM k).view.loc (c : Thread nD τ))) :
    ∀ i ∈ (slotM k).view.set, ((slotM k).view.write (Elt F) fd ((slotM 0).view.read (Elt F) (stored m ρ (bwd c k))) Finset.univ) i = gbuf m ρ c i := by
  intro i hi
  have hkk : (i 0).val = k := ((mem_slot_set k i).mp hi).trans (Nat.mod_eq_of_lt hk.2)
  rw [landed_at m ρ k (bwd c k) fd i hi, gbuf_apply, hkk]
  rfl

theorem gbuf_read (c : Dev nD) : (rM.view.readAt (Elt F) (Rect.unit (s := S32x1x512) ![0, 0, 0] S32x1x512.size inb_S32x1x512_S32x1x512_0_0_0).toLoadRect (gbuf m ρ c)) = gathered (fun d => xstg m ρ d) c :=
  (Memref.readAt_unit_zero (Elt F) cc0_scratch0 (by funext a; match a with | ⟨0, _⟩ => rfl | ⟨1, _⟩ => rfl | ⟨2, _⟩ => rfl) inb_S32x1x512_S32x1x512_0_0_0 (gbuf m ρ c)).trans rfl

/-- info: 'Cert.KernelIdeal.Pf.bar_payloads' depends on axioms: [propext, Classical.choice, Quot.sound] -/
#guard_msgs in #print axioms bar_payloads

/-- info: 'Cert.KernelIdeal.Pf.landed_gbuf' depends on axioms: [propext, Classical.choice, Quot.sound] -/
#guard_msgs in #print axioms landed_gbuf

end Cert.KernelIdeal.Pf

end
-- ==== Proof.BodyPre.lean ====
/-
  From the launch's ghost state to the body's starting resources laid out member by member, and back: the cells' invariants
  and round-0 marks read off the launch's records at the names it chose; the tokens of the duties a device pays, the slots
  of its landing buffer and its positions, each family regrouped as a chain over the signalled devices 0 … 31 (the member
  of the device itself under a guard that fails) or over the copies 1 … 31; what the device owes as a flat sum; and, after
  the run, every own cell closed with its counter back at zero.
-/
import proofs.«900936_g7700000000000937_dist_mean_ax0_shard0_i_m1024_n512_v7x_i32_bf16_1_alg».proof.Proof.Flat
import proofs.«900936_g7700000000000937_dist_mean_ax0_shard0_i_m1024_n512_v7x_i32_bf16_1_alg».proof.Proof.LaunchGhost
import proofs.«900936_g7700000000000937_dist_mean_ax0_shard0_i_m1024_n512_v7x_i32_bf16_1_alg».proof.Proof.Slots
import Idealize.ShloMosaic.Lib.Ring
import Idealize.ShloMosaic.Lib.Guarded
import Mathlib.Logic.Function.Basic
import Mathlib.Logic.Equiv.Fin.Basic

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (bigSep_fin_eq_range bigSep_Ico_succ)

variable {F : FTy → Type} [FloatOps F]

local notation "𝕄" => MT nD τ sig IxT (Elt F) ℕ UU ℕ

variable (m : (ℓ : Loc nD τ sig) → Buf (Elt F) ℓ) (ρ : Dev nD → PrngReg)

/-! ## The names of the cells -/

/-- The name of a cell: the launch's choice at the (device, index) the cell is, 0 for what is no cell of the protocol. -/
def κOf (K : Dev nD × Fin 65 → ℕ) (g : GSem nD τ sig) : ℕ := Function.extend kcell K (fun _ => 0) g

theorem κOf_kcell (K : Dev nD × Fin 65 → ℕ) (ck : Dev nD × Fin 65) : κOf K (kcell ck) = K ck :=
  kcell_injective.extend_apply K _ ck

theorem bar_kcell (d : Dev nD) : barCell d = kcell (d, 0) := by
  show _ = ((d : Thread nD τ), csem 0); rw [csem_zero]
theorem send_kcell (c : Dev nD) (k : ℕ) (hk : k < 32) : sendCell c k = kcell (c, ⟨k + 1, by omega⟩) := by
  show _ = ((c : Thread nD τ), csem ⟨k + 1, by omega⟩)
  unfold csem; rw [if_neg (by simp), if_pos (by show k + 1 ≤ 32; omega)]; rfl
theorem recv_kcell (d : Dev nD) (k : ℕ) (hk : k < 32) : recvCell d k = kcell (d, ⟨k + 33, by omega⟩) := by
  show _ = ((d : Thread nD τ), csem ⟨k + 33, by omega⟩)
  unfold csem; rw [if_neg (by simp), if_neg (by show ¬ k + 33 ≤ 32; omega)]; rfl

/-! ## What a device owes, as a flat sum -/

theorem osum_eq_sum (T : ℕ → CellTallies nD τ sig IxT) : ∀ n lo, osum T lo n = ∑ k ∈ Finset.Ico lo (lo + n), T k
  | 0, lo => by simp [osum]
  | 1, lo => by simp [osum]
  | n + 2, lo => by
    rw [osum, osum_eq_sum T (n + 1) (lo + 1), Ring.sum_Ico_succ (by omega : lo < lo + (n + 2)), show lo + 1 + (n + 1) = lo + (n + 2) by omega]
    exact add_comm _ _

theorem dv_val (d : Dev nD) : dv d.val = d := Fin.ext (Nat.mod_eq_of_lt d.isLt)

theorem osumB_eq_sum (base : CellTallies nD τ sig IxT) (T : ℕ → CellTallies nD τ sig IxT) :
    ∀ n lo, osumB base T lo n = base + ∑ k ∈ Finset.Ico lo (lo + n), T k
  | 0, lo => by simp [osumB]
  | n + 1, lo => by
    rw [osumB, osumB_eq_sum base T n (lo + 1), Ring.sum_Ico_succ (by omega : lo < lo + (n + 1)), show lo + 1 + n = lo + (n + 1) by omega, add_assoc]
    exact congrArg _ (add_comm _ _)

/-- The arrivals a device owes, as the sum over the copies. -/
theorem Oarr_eq (c : Dev nD) : Oarr c = ∑ k ∈ Finset.Icc 1 31, tallyAt (recvCell (fwd c k) k) ι₀ N :=
  (osum_eq_sum _ 31 1).trans (by rw [Icc_eq_Ico])

theorem O₀_flat (c : Dev nD) : O₀ c = Oflat c := by
  unfold O₀ Oflat
  rw [osumB_eq_sum, Oarr_eq]
  refine (add_comm _ _).trans (congrArg _ ?_)
  rw [← Finset.filter_ne' Finset.univ c, Finset.sum_filter, Nat.zero_add, ← Finset.range_eq_Ico,
    ← Fin.sum_univ_eq_sum_range (fun d => tallyAt (barCell (dv d)) ((0, c) : IxT) (if condOf d c = 1#1 then 1 else 0)) 32]
  refine Finset.sum_congr rfl fun d _ => ?_
  rw [dv_val]
  by_cases h : d = c
  · rw [if_neg (by simp [h]), if_neg (fun hc => (condOf_iff d c).mp hc (by rw [dv_val]; exact h.symm)), tallyAt_zero]
  · rw [if_pos h, if_pos ((condOf_iff d c).mpr (by rw [dv_val]; exact fun e => h e.symm))]

/-! ## Families over a device's cells, as chains -/

theorem range32_chain (Ψ : ℕ → sProp 𝕄) : bigSep (Finset.range 32) Ψ = iprop(Ψ 0 ∗ chain Ψ 1 31) := by
  rw [Finset.range_eq_Ico, bigSep_Ico_succ (by omega : 0 < 32)]
  exact congrArg (fun X => iprop(Ψ 0 ∗ X)) (bigSep_Ico_chain Ψ 30 1)

theorem range32_chain0 (Ψ : ℕ → sProp 𝕄) : bigSep (Finset.range 32) Ψ = chain Ψ 0 32 := by
  rw [Finset.range_eq_Ico]; exact bigSep_Ico_chain Ψ 31 0

theorem Icc_chain (Ψ : ℕ → sProp 𝕄) : bigSep (Finset.Icc 1 31) Ψ = chain Ψ 1 31 := by
  rw [Icc_eq_Ico]; exact bigSep_Ico_chain Ψ 30 1

/-- A family over a device's 64 own semaphores: send 0, send 1 … 31, receive 0, receive 1 … 31. -/
theorem own_cells (c : Dev nD) (Φ : GSem nD τ sig → sProp 𝕄) :
    (bigSep Finset.univ fun j : Fin 64 => Φ ((c : Thread nD τ), osem j))
      = iprop((Φ (sendCell c 0) ∗ chain (fun k => Φ (sendCell c k)) 1 31) ∗ (Φ (recvCell c 0) ∗ chain (fun k => Φ (recvCell c k)) 1 31)) := by
  have hS : (bigSep Finset.univ fun a : Fin 32 => Φ ((c : Thread nD τ), osem (finSumFinEquiv (m := 32) (n := 32) (Sum.inl a))))
      = bigSep (Finset.range 32) fun k => Φ (sendCell c k) :=
    bigSep_fin_eq_range 32 _ _ fun t h => by
      congr 1
      refine congrArg (Prod.mk _) (congrArg SemLoc.dma (Fin.ext ?_))
      show 2 + t % 32 = 2 + t; omega
  have hR : (bigSep Finset.univ fun b : Fin 32 => Φ ((c : Thread nD τ), osem (finSumFinEquiv (m := 32) (n := 32) (Sum.inr b))))
      = bigSep (Finset.range 32) fun k => Φ (recvCell c k) :=
    bigSep_fin_eq_range 32 _ _ fun t h => by
      congr 1
      refine congrArg (Prod.mk _) (congrArg SemLoc.dma (Fin.ext ?_))
      show 34 + t % 32 = 2 + (32 + t); omega
  refine (bigSep_univ_equiv (finSumFinEquiv (m := 32) (n := 32)) (fun j : Fin 64 => Φ ((c : Thread nD τ), osem j))).trans ?_
  rw [bigSep_univ_sum, hS, hR, range32_chain, range32_chain]
  rfl

/-- A family over a device's 65 cells: the barrier cell and those. -/
theorem all_cells (c : Dev nD) (Φ : GSem nD τ sig → sProp 𝕄) :
    (bigSep Finset.univ fun j : Fin 65 => Φ (kcell (c, j)))
      = iprop(Φ (barCell c) ∗ (Φ (sendCell c 0) ∗ chain (fun k => Φ (sendCell c k)) 1 31) ∗ (Φ (recvCell c 0) ∗ chain (fun k => Φ (recvCell c k)) 1 31)) := by
  have e0 : kcell (c, (0 : Fin 65)) = barCell c := (bar_kcell c).symm
  have eS (j : Fin 64) : kcell (c, j.succ) = ((c : Thread nD τ), osem j) := by show ((c : Thread nD τ), csem j.succ) = _; rw [csem_succ]
  rw [bigSep_fin65]
  simp only [e0, eS]
  rw [own_cells]

/-! ## Families over the other devices, under the signals' guards -/

/-- A family over the devices other than c, as the chain over the signalled devices 0 … 31, each member under its signal's
    guard. -/
theorem guard_chain (c : Dev nD) (Ψ : Dev nD → sProp 𝕄) :
    bigSep (Finset.univ.erase c) Ψ
      = chain (fun d => Guarded (condOf d c = 1#1) (fun _ => Ψ (dv d)) (fun _ => (BIBase.emp : sProp 𝕄))) 0 32 := by
  rw [← range32_chain0, ← Finset.filter_ne' Finset.univ c, bigSep_filter]
  exact bigSep_fin_eq_range 32 _ _ fun t h => by
    have e : dv t = (⟨t, h⟩ : Dev nD) := Fin.ext (Nat.mod_eq_of_lt h)
    have hc := condOf_iff ⟨t, h⟩ c
    by_cases hd : (⟨t, h⟩ : Dev nD) = c
    · rw [Guarded.neg (fun hg => hc.mp hg (by rw [e]; exact hd.symm)), if_neg (by simp [hd])]; rfl
    · rw [Guarded.pos (hc.mpr (by rw [e]; exact fun x => hd x.symm)), if_pos hd, e]

/-- How many places c is after a device: a bijection of the devices onto 0 … 31. -/
def gapE (c : Dev nD) : Dev nD ≃ Dev nD where
  toFun d := ⟨gap d c, gap_lt d c⟩
  invFun t := bwd c t.val
  left_inv d := by
    apply Fin.ext; show (c.val + (32 - ((c.val + (32 - d.val)) % 32) % 32)) % 32 = d.val
    have := c.isLt; have := d.isLt; have : nD = 32 := rfl; omega
  right_inv t := by
    apply Fin.ext; show (c.val + (32 - (c.val + (32 - t.val % 32)) % 32)) % 32 = t.val
    have := c.isLt; have := t.isLt; have : nD = 32 := rfl; omega

/-- A family over the slots 0 … 31 of c's landing buffer, by the device that writes the slot: slot 0 its own, the others
    under the guards of the signals to their writers. -/
theorem slots_split (c : Dev nD) (S : ℕ → sProp 𝕄) :
    bigSep (Finset.range 32) S
      = iprop(S 0 ∗ chain (fun d => Guarded (condOf d c = 1#1) (fun _ => S (gap (dv d) c)) (fun _ => (BIBase.emp : sProp 𝕄))) 0 32) := by
  rw [← guard_chain c (fun d => S (gap d c)), ← bigSep_fin_eq_range 32 (fun t : Fin 32 => S t.val) S (fun _ _ => rfl)]
  refine (bigSep_univ_equiv (gapE c) (fun t : Dev nD => S t.val)).trans ?_
  rw [bigSep_univ_split c]
  show BI.sep (S (gap c c)) _ = _
  rw [gap_self]; rfl

theorem Icc_chain2 (A B : ℕ → sProp 𝕄) : (bigSep (Finset.Icc 1 31) fun k => iprop(A k ∗ B k)) = iprop(chain A 1 31 ∗ chain B 1 31) := by
  rw [bigSep_sep', Icc_chain, Icc_chain]

/-! ## The launch's records, read at a cell -/

theorem rec_inv (K : Dev nD × Fin 65 → ℕ) {g : GSem nD τ sig} {ck : Dev nD × Fin 65} (h : g = kcell ck) :
    records m ρ K ⊢ cellInv ER (sched m ρ) (κOf K g) g := by
  subst h; rw [κOf_kcell]; unfold records
  iintro ⟨HI, -⟩
  iapply (show (bigSep Finset.univ fun ck : Dev nD × Fin 65 => (cellInv ER (sched m ρ) (K ck) (kcell ck) : sProp 𝕄)) ⊢ cellInv ER (sched m ρ) (K ck) (kcell ck)
    from bigSep_elim (Finset.mem_univ ck))
  iexact HI

theorem rec_reached (K : Dev nD × Fin 65 → ℕ) {g : GSem nD τ sig} {ck : Dev nD × Fin 65} (h : g = kcell ck) :
    records m ρ K ⊢ reached ER g 0 := by
  subst h; unfold records
  iintro ⟨-, HR⟩
  iapply (show (bigSep Finset.univ fun ck : Dev nD × Fin 65 => (reached ER (kcell ck) 0 : sProp 𝕄)) ⊢ reached ER (kcell ck) 0
    from bigSep_elim (Finset.mem_univ ck))
  iexact HR

theorem Icc_lt {k : ℕ} (hk : k ∈ Finset.Icc 1 31) : k < 32 := by have := Finset.mem_Icc.mp hk; omega

/-- What the run only reads, from the records and the level facts. -/
theorem pers_intro (K : Dev nD × Fin 65 → ℕ) (c : Dev nD) : iprop(records m ρ K ∗ levAts L lv) ⊢ flatPers m ρ (κOf K) c := by
  unfold flatPers
  simp only [← range32_chain0, ← Icc_chain]
  iintro ⟨#HR, Hlev⟩
  isplitr; · iapply (bigSep_intro_persistent (R := records m ρ K) fun d _ => rec_inv m ρ K (bar_kcell (dv d))); iexact HR
  isplitr; · iapply (bigSep_intro_persistent (R := records m ρ K) fun d _ => rec_reached m ρ K (bar_kcell (dv d))); iexact HR
  isplitr; · iapply (bigSep_intro_persistent (R := records m ρ K) fun k hk => rec_inv m ρ K (send_kcell c k (Icc_lt hk))); iexact HR
  isplitr; · iapply (bigSep_intro_persistent (R := records m ρ K) fun k hk => rec_reached m ρ K (send_kcell c k (Icc_lt hk))); iexact HR
  isplitr; · iapply (bigSep_intro_persistent (R := records m ρ K) fun k hk => rec_inv m ρ K (recv_kcell c k (Icc_lt hk))); iexact HR
  isplitr; · iapply (bigSep_intro_persistent (R := records m ρ K) fun k hk => rec_inv m ρ K (recv_kcell (fwd c k) k (Icc_lt hk))); iexact HR
  isplitr; · iapply (bigSep_intro_persistent (R := records m ρ K) fun k hk => rec_reached m ρ K (recv_kcell (fwd c k) k (Icc_lt hk))); iexact HR
  isplitr; · iapply (rec_inv m ρ K (bar_kcell c)); iexact HR
  iexact Hlev

/-! ## The starting resources -/

/-- The starting resources, as the run reads them. -/
theorem flat_intro (K : Dev nD × Fin 65 → ℕ) (c : Dev nD) (W : Waits sig IxT) :
    iprop(records m ρ K ∗ linear c ∗ cred (tallyOn (barCell c) (crBar c)) ∗ (bigSep (Finset.Icc 1 31) fun k : ℕ => cred (tallyAt (recvCell c k) ι₀ N)) ∗ levAts L lv
        ∗ (∃ f : Buf (Elt F) ((c : Thread nD τ).loc cc0_scratch0), ((c : Thread nD τ).loc cc0_scratch0) ↦{fullShare} f) ∗ owes (c : Thread nD τ) (O₀ c) W)
      ⊢ (iprop(∃ f : Buf (Elt F) ((c : Thread nD τ).loc cc0_scratch0), flatPers m ρ (κOf K) c ∗ flatLin c f W ∗ flatKeep m ρ (κOf K) c) : sProp 𝕄) := by
  rw [O₀_flat]
  iintro ⟨#HR, Hlin, Hcb, Hcr, Hlev, ⟨%f, Hf⟩, Ho⟩
  iexists f
  isplitl [Hlev]
  · iapply (pers_intro m ρ K c); isplitr; · iexact HR
    iexact Hlev
  unfold linear
  icases Hlin with ⟨Hat, Htb, Htk⟩
  ihave Hat' := (Entails.of_eq (all_cells c (fun g => (atPos ER g 0 ∅ 0 : sProp 𝕄)))) $$ Hat
  icases Hat' with ⟨HaB, ⟨HaS0, HaS⟩, HaR0, HaR⟩
  ihave Htb' := (Entails.of_eq (guard_chain c (fun d => (dutyTok ER (barCell d) 0 c : sProp 𝕄)))) $$ Htb
  ihave Htk' := (Entails.of_eq (Icc_chain2 (fun k => (dutyTok ER (sendCell c k) 0 (0 : Dev nD) : sProp 𝕄)) (fun k => dutyTok ER (recvCell (fwd c k) k) 0 (0 : Dev nD)))) $$ Htk
  icases Htk' with ⟨HtS, HtR⟩
  ihave Hcr' := (Entails.of_eq (Icc_chain (fun k => (cred (tallyAt (recvCell c k) ι₀ N) : sProp 𝕄)))) $$ Hcr
  ihave Hf' := (Entails.of_eq ((scratch_split c fullShare f).trans
    (slots_split c (fun k => ((slotM k).view.loc (c : Thread nD τ) ↦[(slotM k).view.set]{fullShare} f : sProp 𝕄))))) $$ Hf
  icases Hf' with ⟨Hs0, Hs⟩
  unfold flatLin flatKeep
  isplitl [Htb' Hs HtS HtR HaS HaR Hcr' HaB Hcb Hs0 Ho]
  · isplitl [Htb']; · iexact Htb'
    isplitl [Hs]; · iexact Hs
    isplitl [HtS]; · iexact HtS
    isplitl [HtR]; · iexact HtR
    isplitl [HaS]; · iexact HaS
    isplitl [HaR]; · iexact HaR
    isplitl [Hcr']; · iexact Hcr'
    isplitl [HaB]; · iexact HaB
    isplitl [Hcb]; · iexact Hcb
    isplitl [Hs0]; · iexact Hs0
    iexact Ho
  · isplitr; · iapply (rec_inv m ρ K (send_kcell c 0 (by omega))); iexact HR
    isplitr; · iapply (rec_inv m ρ K (recv_kcell c 0 (by omega))); iexact HR
    isplitl [HaS0]; · iexact HaS0
    iexact HaR0

/-! ## The own cells closed -/

/-- A cell at round 1, nothing taken: no round from there has a duty, so its owner closes it and has its counter, at zero. -/
theorem close_late (κ : ℕ) (g : GSem nD τ sig) :
    iprop(cellInv ER (sched m ρ) κ g ∗ atPos ER g 1 ∅ 0) ⊢ (|={Set.univ}=> semVal g 0 : sProp 𝕄) :=
  Rounds.cell_close ER (sched m ρ) (Set.mem_univ κ) (fun h => h) (R := 1) (duties_later m ρ g)

theorem duties_send0 (c : Dev nD) (r : ℕ) : (sched (F := F) m ρ).duties (sendCell c 0) r = ∅ := by
  rcases Nat.eq_zero_or_pos r with rfl | hr
  · unfold sched; dsimp only; rw [if_pos ⟨rfl, rfl⟩]; rfl
  · exact duties_later m ρ _ r hr
theorem duties_recv0 (c : Dev nD) (r : ℕ) : (sched (F := F) m ρ).duties (recvCell c 0) r = ∅ := by
  rcases Nat.eq_zero_or_pos r with rfl | hr
  · unfold sched; dsimp only; rw [if_pos ⟨rfl, rfl⟩]; rfl
  · exact duties_later m ρ _ r hr

/-- The chain of the cells of one kind, each at round 1: closed under one update. -/
theorem close_chain (κ : GSem nD τ sig → ℕ) (g : ℕ → GSem nD τ sig) :
    iprop(chain (fun k => cellInv ER (sched m ρ) (κ (g k)) (g k)) 1 31 ∗ chain (fun k => atPos ER (g k) 1 ∅ 0) 1 31)
      ⊢ (|={Set.univ}=> chain (fun k => semVal (g k) 0) 1 31 : sProp 𝕄) := by
  rw [← Icc_chain2, ← Icc_chain]
  exact (bigSep_mono fun k _ => close_late m ρ (κ (g k)) (g k)).trans (bigSep_fupd _ _)

/-- After the run every own cell is at a round with no duty left (send and receive k ≥ 1 at round 1, send 0 and receive 0 at
    round 0): closed, its counter back at zero — the 64 own semaphores as the launch wants them back. -/
theorem close_cells (κ : GSem nD τ sig → ℕ) (c : Dev nD) :
    iprop(flatPers m ρ κ c ∗ flatKeep m ρ κ c ∗ chain (fun k => atPos ER (sendCell c k) 1 ∅ 0) 1 31 ∗ chain (fun k => atPos ER (recvCell c k) 1 ∅ 0) 1 31)
      ⊢ (|={Set.univ}=> Pipeline.ownSems0 (Ix := IxT) (Name := ℕ) (U := UU) (Lvl := ℕ) (Val := Elt F) (τ := τ) osem c : sProp 𝕄) := by
  unfold flatPers flatKeep Pipeline.ownSems0
  rw [own_cells c (fun g => (semVal g 0 : sProp 𝕄))]
  iintro ⟨⟨-, -, HIS, -, HIR, -, -, -, -⟩, ⟨HIS0, HIR0, HaS0, HaR0⟩, HaS, HaR⟩
  imod (Rounds.cell_close ER (sched m ρ) (Set.mem_univ (κ (sendCell c 0))) (fun h => h) (R := 0) (fun r _ => duties_send0 m ρ c r)) $$ [HIS0 HaS0] with HzS0
  · isplitl [HIS0] <;> iassumption
  imod (Rounds.cell_close ER (sched m ρ) (Set.mem_univ (κ (recvCell c 0))) (fun h => h) (R := 0) (fun r _ => duties_recv0 m ρ c r)) $$ [HIR0 HaR0] with HzR0
  · isplitl [HIR0] <;> iassumption
  imod (close_chain m ρ κ (fun k => sendCell c k)) $$ [HIS HaS] with HzS
  · isplitl [HIS] <;> iassumption
  imod (close_chain m ρ κ (fun k => recvCell c k)) $$ [HIR HaR] with HzR
  · isplitl [HIR] <;> iassumption
  imodintro
  isplitl [HzS0 HzS]
  · isplitl [HzS0] <;> iassumption
  · isplitl [HzR0] <;> iassumption

/-- info: 'Cert.KernelIdeal.Pf.flat_intro' depends on axioms: [propext, Classical.choice, Quot.sound] -/
#guard_msgs in #print axioms flat_intro

/-- info: 'Cert.KernelIdeal.Pf.close_cells' depends on axioms: [propext, Classical.choice, Quot.sound] -/
#guard_msgs in #print axioms close_cells

end Cert.KernelIdeal.Pf

end
-- ==== Proof.BodyTac.lean ====
/-
  Three small tactics over families of hypotheses named by a run of numbers: opening each member's contents, closing a
  goal that is their chain, and handing them all (with a few others) to one lemma.
-/
import proofs.«900936_g7700000000000937_dist_mean_ax0_shard0_i_m1024_n512_v7x_i32_bf16_1_alg».proof.Proof.BodyKit

noncomputable section

namespace Cert.KernelIdeal.Pf

open Idealize.SL Idealize.SL.BI Idealize.SL.ProofMode
open scoped Idealize.SL.BI
open Lean Elab Tactic

/-- `iopen_chain pre from lo to hi`: each `pre<k> : ∃ f, …` opened, its contents the variable `pre<k>v`. -/
elab "iopen_chain " pre:ident " from " lo:num " to " hi:num : tactic => do
  for k in [lo.getNat : hi.getNat + 1] do
    let h := mkIdent (Name.mkSimple s!"{pre.getId}{k}")
    let v := mkIdent (Name.mkSimple s!"{pre.getId}{k}v")
    let vb ← `(binderIdent| $v:ident)
    let p1 ← `(icasesPat| % $vb:binderIdent)
    let p2 ← `(icasesPat| $h:ident)
    let a1 ← `(Idealize.SL.ProofMode.icasesPatAlts| $p1:icasesPat)
    let a2 ← `(Idealize.SL.ProofMode.icasesPatAlts| $p2:icasesPat)
    let sep : Syntax.TSepArray ``Idealize.SL.ProofMode.icasesPatAlts "," := .ofElems #[a1, a2]
    evalTactic (← `(tactic| icases $h:ident with ⟨$sep,*⟩))

/-- `iexact_chain pre suffix "s" from lo to hi`: closes a goal `Φ lo ∗ … ∗ Φ hi` by the hypotheses `pre<k>s`, one each. -/
elab "iexact_chain " pre:ident " suffix " suf:str " from " lo:num " to " hi:num : tactic => do
  for k in [lo.getNat : hi.getNat + 1] do
    let h := mkIdent (Name.mkSimple s!"{pre.getId}{k}{suf.getString}")
    if k < hi.getNat then
      evalTactic (← `(tactic| isplitl [$h:ident]))
      evalTactic (← `(tactic| iexact $h:ident))
    else
      evalTactic (← `(tactic| iexact $h:ident))

/-- `ihave_chain H := lemma using pre suffix "s" from lo to hi and A B …`: the lemma's premise is proved from `A B …` and the
    members `pre<k>s` (a goal left to the caller), its conclusion named `H`. -/
elab "ihave_chain " nm:ident " := " t:term " using " pre:ident " suffix " suf:str " from " lo:num " to " hi:num " and " extra:ident* : tactic => do
  let mut ids : Array (TSyntax `frameIdent) := #[]
  for e in extra do ids := ids.push (← `(frameIdent| $e:ident))
  for k in [lo.getNat : hi.getNat + 1] do
    let h := mkIdent (Name.mkSimple s!"{pre.getId}{k}{suf.getString}")
    ids := ids.push (← `(frameIdent| $h:ident))
  evalTactic (← `(tactic| ihave $nm:ident := $t:term $$ [$ids*]))

/-- `iupd_chain pre suffix "s" from lo to hi by t`: each member `pre<k>s` replaced by what the entailment `t k` makes of it. -/
elab "iupd_chain " pre:ident " suffix " suf:str " from " lo:num " to " hi:num " by " t:term : tactic => do
  for k in [lo.getNat : hi.getNat + 1] do
    let h := mkIdent (Name.mkSimple s!"{pre.getId}{k}{suf.getString}")
    let kk := Syntax.mkNumLit (toString k)
    evalTactic (← `(tactic| ihave $h:ident := ($t $kk) $$ $h:ident))

end Cert.KernelIdeal.Pf

end
-- ==== Proof.Body.lean ====
/-
  The kernel body on one device, from what the launch hands it to what it must hand back.
  The run: the 32 guarded signals (each lends the signalled device the slot of this device's landing buffer that it writes);
  the column sums of the device's block stored in slot 0, whose points-to is then cut into one share per copy; the barrier
  wait (the 31 other devices' words, each lending the slot of that device this one writes); the 31 copies of slot 0, each
  paying a departure duty here with its share and an arrival duty there with the slot it fills; the 31 departures' waits (the
  shares come back) and the 31 arrivals' waits (slot k comes back holding what the device k places before stored); the 32
  slots rejoined, every one at the gathered buffer's contents; the slots summed and scaled into the result row; the 64 own
  cells closed. Statements of the library's rules are met from a context laid out member by member (Flat.lean).
-/
import proofs.«900936_g7700000000000937_dist_mean_ax0_shard0_i_m1024_n512_v7x_i32_bf16_1_alg».proof.Proof.Flat
import proofs.«900936_g7700000000000937_dist_mean_ax0_shard0_i_m1024_n512_v7x_i32_bf16_1_alg».proof.Proof.SignalReturn
import proofs.«900936_g7700000000000937_dist_mean_ax0_shard0_i_m1024_n512_v7x_i32_bf16_1_alg».proof.Proof.Slots
import proofs.«900936_g7700000000000937_dist_mean_ax0_shard0_i_m1024_n512_v7x_i32_bf16_1_alg».proof.Proof.Joins
import proofs.«900936_g7700000000000937_dist_mean_ax0_shard0_i_m1024_n512_v7x_i32_bf16_1_alg».proof.Proof.Regroup
import proofs.«900936_g7700000000000937_dist_mean_ax0_shard0_i_m1024_n512_v7x_i32_bf16_1_alg».proof.Proof.Launch
import proofs.«900936_g7700000000000937_dist_mean_ax0_shard0_i_m1024_n512_v7x_i32_bf16_1_alg».proof.Proof.BodyPre
import proofs.«900936_g7700000000000937_dist_mean_ax0_shard0_i_m1024_n512_v7x_i32_bf16_1_alg».proof.Proof.BodyTac

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

attribute [local sl_rounds] bwd_fwd total_crBar duties_bar amount_bar payload_bar expect_bar duties_send duties_recv amount_send amount_recv
  payload_send payload_recv payload_recv_fwd expect_send expect_recv

/-- A resource set aside: held, but not read as what it is until taken out again (slot 0 while the signals hand out the other
    slots of the same buffer). -/
@[irreducible] def parked (P : sProp 𝕄) : sProp 𝕄 := P
theorem park (P : sProp 𝕄) : P ⊢ parked P := by unfold parked; exact .rfl
theorem unpark (P : sProp 𝕄) : parked P ⊢ P := by unfold parked; exact .rfl

theorem ret_bind_rfl {E : Type → Type} {α β : Type} (a : α) (k : α → Prog E β) : (Prog.ret a).bind k = k a := rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What lands in slot `k` of `c`, whatever the slot held: the gathered buffer's slot `k` (for every `k`: slots and ring places are
    taken modulo 32). -/
theorem landed_gbuf_any (c : Dev nD) (k : ℕ) (fd : Buf (Elt F) ((slotM k).view.loc (c : Thread nD τ))) :
    ∀ i ∈ (slotM k).view.set, ((slotM k).view.write (Elt F) fd ((slotM 0).view.read (Elt F) (stored m ρ (bwd c k))) Finset.univ) i = gbuf m ρ c i := by
  intro i hi
  have h0 : (i 0).val = k % 32 := (mem_slot_set k i).mp hi
  rw [landed_at m ρ k (bwd c k) fd i hi, gbuf_apply]
  have e : back c (i 0).val = bwd c k := by
    apply Fin.ext; show (c.val + (32 - (i 0).val % 32)) % 32 = (c.val + (32 - k % 32)) % 32
    rw [h0, Nat.mod_mod]
  rw [e]

def bodyPost (c : Dev nD) : sProp 𝕄 :=
  iprop(Φ₁ (F := F) c ∗ (dats m ρ 0 c).owesAt ι₀ t₀.succ ∗ stg c cc0_stg0_0 (xstg m ρ c) ∗ stg c cc0_stg1_0 (outAt m ρ c))

set_option maxRecDepth 8000 in
set_option maxHeartbeats 40000000 in
set_option sl_exec.dischHeartbeats 30000 in
/-- The body, run from the launch's resources to what the launch wants back. -/
theorem sound_body (K : Dev nD × Fin 65 → ℕ) (c : Dev nD) (W : Waits sig IxT) (fo : Buf (Elt F) ((c : Thread nD τ).loc cc0_stg1_0)) (Kt : PUnit → sProp 𝕄) :
    iprop(records m ρ K ∗ levAts L lv ∗ linear c ∗ cred (tallyOn (barCell c) (crBar c)) ∗ (bigSep (Finset.Icc 1 31) fun k : ℕ => cred (tallyAt (recvCell c k) ι₀ N))
        ∗ (∃ f : Buf (Elt F) ((c : Thread nD τ).loc cc0_scratch0), ((c : Thread nD τ).loc cc0_scratch0) ↦{fullShare} f) ∗ owes (c : Thread nD τ) (O₀ c) W
        ∗ (((c : Thread nD τ).loc cc0_stg0_0) ↦{fullShare} xstg m ρ c) ∗ (((c : Thread nD τ).loc cc0_stg1_0) ↦{fullShare} fo)
        ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  iintro ⟨#Hrec, #Hlev, Hlin, Hcb, Hcr, Hscr, HO, Hx, Hout, Hk⟩
  ihave Hfl := (flat_intro m ρ K c W) $$ [Hlin Hcb Hcr Hscr HO]
  · isplitr; · iexact Hrec
    isplitl [Hlin]; · iexact Hlin
    isplitl [Hcb]; · iexact Hcb
    isplitl [Hcr]; · iexact Hcr
    isplitr; · iexact Hlev
    isplitl [Hscr]; · iexact Hscr
    iexact HO
  icases Hfl with ⟨%f, Hfp, HL, HK⟩
  unfold flatPers flatLin Oflat Oarr
  simp (config := { proj := false }) only [chain, osum, osumB, Nat.reduceAdd]
  simp (config := { proj := false }) only [condOf_0, condOf_1, condOf_2, condOf_3, condOf_4, condOf_5, condOf_6, condOf_7, condOf_8, condOf_9, condOf_10, condOf_11, condOf_12, condOf_13, condOf_14, condOf_15, condOf_16, condOf_17, condOf_18, condOf_19, condOf_20, condOf_21, condOf_22, condOf_23, condOf_24, condOf_25, condOf_26, condOf_27, condOf_28, condOf_29, condOf_30, condOf_31]
  icases Hfp with ⟨HIb, HRb, HIs, HRs, HIr, HIp, HRp, #HIbc, -⟩
  icases HL with ⟨Htb, Hsl, Hts, Htp, Has, Har, Hcr, Hab, Hcb, Hs0, HO⟩
  icases_chain HIb as HIb from 0 to 31 pers
  icases_chain HRb as HRb from 0 to 31 pers
  icases_chain HIs as HIs from 1 to 31 pers
  icases_chain HRs as HRs from 1 to 31 pers
  icases_chain HIr as HIr from 1 to 31 pers
  icases_chain HIp as HIp from 1 to 31 pers
  icases_chain HRp as HRp from 1 to 31 pers
  icases_chain Htb as Htb from 0 to 31
  icases_chain Hsl as Hsl from 0 to 31
  icases_chain Hts as Hts from 1 to 31
  icases_chain Htp as Htp from 1 to 31
  icases_chain Has as Has from 1 to 31
  icases_chain Har as Har from 1 to 31
  icases_chain Hcr as Hcr from 1 to 31
  ihave Hp0 := (park _) $$ Hs0
  ihave Hx := (Entails.of_eq (show ((((c : Thread nD τ).loc cc0_stg0_0) ↦{fullShare} xstg m ρ c : sProp 𝕄)) = ((xM : Memref sig .tc .vmem S1024x512 .f32).view.loc (c : Thread nD τ) ↦[(xM : Memref sig .tc .vmem S1024x512 .f32).view.set]{fullShare} xstg m ρ c) from by rw [View.set_whole])) $$ Hx
  ihave Hout := (Entails.of_eq (show ((((c : Thread nD τ).loc cc0_stg1_0) ↦{fullShare} fo : sProp 𝕄)) = ((oM : Memref sig .tc .vmem S1x512 .f32).view.loc (c : Thread nD τ) ↦[(oM : Memref sig .tc .vmem S1x512 .f32).view.set]{fullShare} fo) from by rw [View.set_whole])) $$ Hout
  -- the device's id, then the signals to devices 0 … 6
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- the signal to device 7, whose region ends the first printed part
  iapply (wp_guarded_signal_ret m ρ c (dv 7) (fun h => ⟨k0_dev8, k0_dev8_lt _ h⟩) (fun h => dev8_eq _ h) (κOf K (barCell (dv 7))) _ W _ _ f (fun h => mem_bar8 m ρ c h)) $$ [HO Htb7 Hsl7]
  · isplitr; · iexact HIb7
    isplitr; · iexact HRb7
    isplitl [Htb7]; · iexact Htb7
    isplitl [Hsl7]; · iexact Hsl7
    iexact HO
  iintro HO
  -- the signals to devices 8 … 31; the staged block read
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- slot 0: read (a dead load), then overwritten with the column sums of the device's block
  ihave Hs0 := (unpark _) $$ Hp0
  iapply (wp_load 𝒱₀ (c : Thread nD τ) none Set.univ (m := rM) slot0_load_sub) $$ Hs0
  iintro Hs0
  iapply (wp_store 𝒱₀ (c : Thread nD τ) none Set.univ (m := rM) (r := Rect.unit (s := S32x1x512) ![0, 0, 0] S1x1x512.size inb_S32x1x512_S1x1x512_0_0_0)
    (Mk := Finset.univ) slot0_store_sub) $$ Hs0
  iintro Hs0
  have hx : View.readAt (Elt F) (xM : Memref sig .tc .vmem S1024x512 .f32).view (Rect.unit (s := S1024x512) ![0, 0] S1024x512.size inb_S1024x512_S1024x512_0_0).toLoadRect (xstg m ρ c)
      = xstg m ρ c := Memref.readAt_unit_zero (Elt F) cc0_stg0_0 (funext fun a => by fin_cases a <;> rfl) _ _
  rw [hx]
  simp (config := { proj := false }) only [ret_bind_rfl]
  ihave Hs0 := (Entails.of_eq (pointsTo_congr (ℓ := (c : Thread nD τ).loc cc0_scratch0) (stored_congr m ρ c f))) $$ Hs0
  ihave Hsh := (shares_out c (stored m ρ c)) $$ Hs0
  icases Hsh with ⟨Hkeep, Hsrc⟩
  ihave Hsrc := (Entails.of_eq (chain31 _)) $$ Hsrc
  icases_chain Hsrc as Hsrc from 1 to 31
  -- the barrier wait: the 31 other devices' words, while owing only arrivals
  have hmo : (levAts L lv : sProp 𝕄) ⊢ MayOwe (c : Thread nD τ) ((crBar c).support.image fun i => (SemLoc.reg barS, i)) (Oarr c) :=
    mayOwe_bar c (Oarr c) (by rw [Oarr_eq]; exact fun g u => arrivals_pos c g u)
  unfold Oarr at hmo
  simp (config := { proj := false }) only [osum, Nat.reduceAdd] at hmo
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- the words' payloads: the slot of every other device that this device writes, by the copy that writes it
  ihave Hd := (bar_payloads c) $$ Hab_pay1
  ihave Hd := (Entails.of_eq (chain31 _)) $$ Hd
  icases_chain Hd as Hd from 1 to 31
  iopen_chain Hd from 1 to 31
  -- the 31 copies, then the 31 departures' and the 31 arrivals' waits
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- slot 0 whole again; every slot at the gathered buffer's contents; the buffer whole
  ihave_chain Hs0 := (shares_in c (stored m ρ c)) using Has suffix "_pay1" from 1 to 31 and Hkeep
  · rw [chain31]; isplitl [Hkeep]; · iexact Hkeep
    iexact_chain Has suffix "_pay1" from 1 to 31
  ihave Hs0 := (Entails.of_eq (pointsTo_congr (ℓ := (c : Thread nD τ).loc cc0_scratch0) (stored_gbuf m ρ c))) $$ Hs0
  iupd_chain Har suffix "_pay1" from 1 to 31 by (fun k => Entails.of_eq (pointsTo_congr (ℓ := (c : Thread nD τ).loc cc0_scratch0) (landed_gbuf_any m ρ c k _)))
  ihave_chain Hscr := (Entails.of_eq (scratch_chain c fullShare (gbuf m ρ c)).symm) using Har suffix "_pay1" from 1 to 31 and Hs0
  · rw [chain31]; isplitl [Hs0]; · iexact Hs0
    iexact_chain Har suffix "_pay1" from 1 to 31
  ihave Hscr := (Entails.of_eq (show ((((c : Thread nD τ).loc cc0_scratch0) ↦{fullShare} gbuf m ρ c : sProp 𝕄)) = ((rM : Memref sig .tc .vmem S32x1x512 .f32).view.loc (c : Thread nD τ) ↦[(rM : Memref sig .tc .vmem S32x1x512 .f32).view.set]{fullShare} gbuf m ρ c) from by rw [View.set_whole])) $$ Hscr
  -- the slots summed and scaled into the result row
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- the result row: the one write of the whole [1, 512] staging buffer, over the gathered buffer read whole
  have hw : ∀ w, (oM : Memref sig .tc .vmem S1x512 .f32).view.writes (Elt F) fo [⟨Rect.unit (s := S1x512) ![0, 0] S1x512.size inb_S1x512_S1x512_0_0, w⟩] = w :=
    fun w => by
      rw [View.writes_singleton]
      exact Memref.write_access_unit_zero_univ (Elt F) cc0_stg1_0 (off := ![0, 0]) (funext fun a => by fin_cases a <;> rfl) inb_S1x512_S1x512_0_0 fo w
  rw [hw, gbuf_read]
  -- the 64 own cells closed: their counters, at zero, are the device's again
  ihave Hfp2 := (pers_intro m ρ K c) $$ []
  · isplitr; · iexact Hrec
    iexact Hlev
  ihave_chain HAs := (Entails.of_eq (chain31 (fun k => atPos ER (sendCell c k) 1 ∅ 0)).symm) using Has suffix "" from 1 to 31 and
  · iexact_chain Has suffix "" from 1 to 31
  ihave_chain HAr := (Entails.of_eq (chain31 (fun k => atPos ER (recvCell c k) 1 ∅ 0)).symm) using Har suffix "" from 1 to 31 and
  · iexact_chain Har suffix "" from 1 to 31
  imod (close_cells m ρ (κOf K) c) $$ [Hfp2 HK HAs HAr] with Hsems
  · isplitl [Hfp2]; · iexact Hfp2
    isplitl [HK]; · iexact HK
    isplitl [HAs]; · iexact HAs
    iexact HAr
  ihave Hx := (Entails.of_eq (show ((((c : Thread nD τ).loc cc0_stg0_0) ↦{fullShare} xstg m ρ c : sProp 𝕄)) = ((xM : Memref sig .tc .vmem S1024x512 .f32).view.loc (c : Thread nD τ) ↦[(xM : Memref sig .tc .vmem S1024x512 .f32).view.set]{fullShare} xstg m ρ c) from by rw [View.set_whole]).symm) $$ Hx
  ihave Hout := (Entails.of_eq (show ((((c : Thread nD τ).loc cc0_stg1_0) ↦{fullShare} k0_pay1 (gathered (fun d => xstg m ρ d) c) : sProp 𝕄)) = ((oM : Memref sig .tc .vmem S1x512 .f32).view.loc (c : Thread nD τ) ↦[(oM : Memref sig .tc .vmem S1x512 .f32).view.set]{fullShare} k0_pay1 (gathered (fun d => xstg m ρ d) c)) from by rw [View.set_whole]).symm) $$ Hout
  ihave Hscr := (Entails.of_eq (show ((((c : Thread nD τ).loc cc0_scratch0) ↦{fullShare} gbuf m ρ c : sProp 𝕄)) = ((rM : Memref sig .tc .vmem S32x1x512 .f32).view.loc (c : Thread nD τ) ↦[(rM : Memref sig .tc .vmem S32x1x512 .f32).view.set]{fullShare} gbuf m ρ c) from by rw [View.set_whole]).symm) $$ Hscr
  rw [wp_ret]; imodintro
  iapply Hk
  unfold bodyPost Φ₁ Dat.owesAt Pipeline.owesWithin
  rw [show (dats m ρ 0 c).owed t₀.succ = 0 from rfl]
  isplitl [Hscr Hsems]
  · isplitl [Hscr]; · iexists _; iexact Hscr
    iexact Hsems
  isplitl [HO]
  · iexists _
    isplitr
    rotate_left
    · iexact HO
    ipureintro; exact fun _ _ => Or.inl trivial
  isplitl [Hx]
  · iexists _; isplitr; · (ipureintro; rfl)
    iexact Hx
  iexists _; isplitr; · (ipureintro; rfl)
  iexact Hout

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := IxT) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the library's body obligation gives the body at its one point. -/
def bodyPre' (c : Dev nD) : sProp 𝕄 :=
  iprop(Φ₀ m ρ c ∗ (dats m ρ 0 c).owesAt ι₀ t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ ι₀ Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start G'
  iintro ⟨⟨⟨⟨%K, Hrec, Hlin⟩, Hcb, Hcr, Hlev⟩, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (sound_body m ρ K c W g1 fun _ => bodyPost m ρ c)
  isplitl [Hrec]; · iexact Hrec
  isplitl [Hlev]; · iexact Hlev
  isplitl [Hlin]; · iexact Hlin
  isplitl [Hcb]; · iexact Hcb
  isplitl [Hcr]; · iexact Hcr
  isplitl [Hscr]; · iexact Hscr
  isplitl [HO]; · iexact HO
  isplitl [Hx]; · iexact Hx
  isplitl [Hout]; · iexact Hout
  iintro H; iexact H

/-- info: 'Cert.KernelIdeal.Pf.body_obligation' depends on axioms: [propext, Classical.choice, Quot.sound] -/
#guard_msgs in #print axioms body_obligation

end Cert.KernelIdeal.Pf

end
-- ==== Proof.Runs.lean ====
/-
  The whole program's run, read at the arrays the claims speak of: from the launch theorem's run and each device's body
  obligation, every fair execution of the 32 kernels ends with each device's block of x unchanged and its result row the
  scaled sum, over the 32 slots of its landing buffer, of the column sums of the blocks of all devices.
-/
import proofs.«900936_g7700000000000937_dist_mean_ax0_shard0_i_m1024_n512_v7x_i32_bf16_1_alg».proof.Proof.Launch
import proofs.«900936_g7700000000000937_dist_mean_ax0_shard0_i_m1024_n512_v7x_i32_bf16_1_alg».proof.Proof.Staged
import proofs.«900936_g7700000000000937_dist_mean_ax0_shard0_i_m1024_n512_v7x_i32_bf16_1_alg».proof.Proof.Body

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-- The whole program's run with everything the claims read: every fair execution ends, and on every device the block of x is
    unchanged and the result row is the scaled sum of the gathered column sums of all devices' blocks. -/
theorem run_value : θ_run defs (onTc (τ := τ) (main (F := F))) ⟨m, fun _ => 0, ρ⟩ (fun r => ∀ c : Dev nD,
    r.2.mem ((c.tc : Thread nD τ).loc main_v1) = k0_pay1 (gathered (fun d => m ((d.tc : Thread nD τ).loc main_arg0)) c)
    ∧ r.2.mem ((c.tc : Thread nD τ).loc main_arg0) = m ((c.tc : Thread nD τ).loc main_arg0)) :=
  (θ_run defs _ _).mono (fun _ h c =>
      ⟨((h c (1 : Fin 2)).trans (finalA_out m ρ c)).trans (congrArg (fun xs => k0_pay1 (gathered xs c)) (funext fun d => xstg_eq m ρ d)),
       (h c (0 : Fin 2)).trans (finalA_x m ρ c)⟩)
    (run_main m ρ (body_obligation m ρ))

/-- The frame: that run with the result's value dropped. -/
theorem run_frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (run_value m ρ)

/-- info: 'Cert.KernelIdeal.Pf.run_value' depends on axioms: [propext, Classical.choice, Quot.sound] -/
#guard_msgs in #print axioms run_value

end Cert.KernelIdeal.Pf

end
-- ==== Proof.Value.lean ====
/-
  The value equation of the distributed column mean, at the ideal instance (floats are extended reals, every operation exact).

  Each of 32 devices holds 1024 consecutive rows of x : f32[32768, 512] and sums them column by column; after the exchange device c
  holds, in slot k of its landing buffer, the column sums of the device k places before it on the ring; it adds the 32 slots and
  multiplies by the literal 2^-15. The reference adds all 32768 rows from the literal 0 and divides by the literal 32768.

  Both are (∑ n < 32768, x[n, j]) / 32768 at every column j:
    • the row index n splits as n = 1024·d + r with d < 32, r < 1024, so the sum over the rows is the double sum over (d, r);
    • k ↦ (c − k) mod 32 is a bijection of the 32 devices (its own inverse), so the outer sum may run over the slots k instead;
      both steps use only that + on the extended reals is commutative and associative;
    • 0 + s = s, and s · (1/32768) = s / 32768 on every extended real, the infinities included.
-/
import proofs.«900936_g7700000000000937_dist_mean_ax0_shard0_i_m1024_n512_v7x_i32_bf16_1_alg».proof.Defs
import proofs.«900936_g7700000000000937_dist_mean_ax0_shard0_i_m1024_n512_v7x_i32_bf16_1_alg».proof.Proof.Spec
import proofs.«900936_g7700000000000937_dist_mean_ax0_shard0_i_m1024_n512_v7x_i32_bf16_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.Layout
import Idealize.ShloMosaic.PureOps.Ideal.Laws
import Mathlib.Algebra.BigOperators.Group.Finset.Defs
import Mathlib.Data.Fintype.BigOperators

noncomputable section

namespace Cert.KernelIdeal.Val

open Cert.KernelIdeal Cert.KernelIdeal.Gen Cert.KernelIdeal.Pf
open Idealize.ShloMosaic Idealize.ShloMosaic.ValueIdx

/-! ## The three literals as extended reals -/

/-- The pattern of `+0.0` denotes 0. -/
theorem lit_zero : Ideal.ofBits .f32 0x00000000#32 = 0 := Ideal.ofBits_zero_f32

/-- The pattern `0x47000000` (exponent field 142, significand 0) denotes 2^15 = 32768. -/
theorem lit_32768 : Ideal.ofBits .f32 0x47000000#32 = ((32768 : ℝ) : EReal) := by
  simp [Ideal.ofBits, Ideal.ieee, -EReal.coe_mul]; norm_num

/-- The pattern `0x38000000` (exponent field 112, significand 0) denotes 2^-15 = 1/32768. -/
theorem lit_inv : Ideal.ofBits .f32 0x38000000#32 = ((1 / 32768 : ℝ) : EReal) := by
  simp [Ideal.ofBits, Ideal.ieee, -EReal.coe_mul]; norm_num

/-! ## The rows of the whole array, regrouped -/

/-- A row n < 32768 of the whole array is row r < 1024 of block d < 32, with n = 1024·d + r (quotient and remainder by 1024). -/
def splitRow : Fin 32 × Fin 1024 ≃ Fin 32768 where
  toFun p := ⟨p.1.val * 1024 + p.2.val, by have := p.1.isLt; have := p.2.isLt; omega⟩
  invFun n := (⟨n.val / 1024, by have := n.isLt; omega⟩, ⟨n.val % 1024, by omega⟩)
  left_inv := by
    rintro ⟨d, r⟩
    refine Prod.ext (Fin.ext ?_) (Fin.ext ?_)
    · show (d.val * 1024 + r.val) / 1024 = d.val
      have := r.isLt; omega
    · show (d.val * 1024 + r.val) % 1024 = r.val
      have := r.isLt; omega
  right_inv := by
    intro n
    refine Fin.ext ?_
    show n.val / 1024 * 1024 + n.val % 1024 = n.val
    omega

/-- Stepping back k places from c, then back from c by the place reached, returns k: k ↦ (c − k) mod 32 is its own inverse. -/
theorem back_back (c : Dev nD) (k : Fin 32) : back c (back c k.val).val = k := by
  refine Fin.ext ?_
  show (c.val + (32 - ((c.val + (32 - k.val % 32)) % 32) % 32)) % 32 = k.val
  have := c.isLt; have := k.isLt; omega

/-- So k ↦ (c − k) mod 32 is a bijection of the 32 devices. -/
def backPerm (c : Dev nD) : Fin 32 ≃ Fin 32 where
  toFun k := back c k.val
  invFun k := back c k.val
  left_inv := back_back c
  right_inv := back_back c

/-- A sum over the 32768 rows is the sum, over the slots k and the rows r of a block, of the term at row
    1024·((c − k) mod 32) + r: reindex along `splitRow`, split the product, reindex the blocks along `backPerm c`.
    Only a commutative monoid is needed. -/
theorem sum_rows {M : Type*} [AddCommMonoid M] (c : Dev nD) (f : Fin 32768 → M) :
    ∑ n : Fin 32768, f n = ∑ k : Fin 32, ∑ r : Fin 1024, f (splitRow (back c k.val, r)) := by
  rw [← Equiv.sum_comp splitRow f, Fintype.sum_prod_type, ← Equiv.sum_comp (backPerm c)]
  rfl

/-! ## The kernel side read at an index -/

/-- Entry (0, 0, j) of a one-row vector, by coordinates. -/
theorem rowIx_eq (j : Fin 512) : rowIx j = ix3 (0 : Fin 1) (0 : Fin 1) j := by
  funext a; match a with | ⟨0, _⟩ => rfl | ⟨1, _⟩ => rfl | ⟨2, _⟩ => rfl

/-- The column sums of a block at column j: the sum over the block's 1024 rows of the entry in column j
    (the two casts [512] → [1, 512] → [1, 1, 512] only add unit axes; the sum starts from the literal 0, its neutral element). -/
theorem colsum_block (v : FVec Ideal S1024x512 .f32) (j : Fin 512) :
    k0_pay2 (F := Ideal) v (rowIx j) = ∑ r : Fin 1024, v (ix2 r j) := by
  unfold k0_pay2
  rw [rowIx_eq]
  refine (shapeCast_ab_1ab_apply _ shapeCasts_S1x512_S1x1x512 (0 : Fin 1) (0 : Fin 1) j).trans ?_
  refine (shapeCast_a_1a_apply _ shapeCasts_S512_S1x512 (0 : Fin 1) j).trans ?_
  refine (Ideal.multiReduction_add_single _ 0x00000000#32 reduces_S1024x512_S512 (.inl rfl) rfl (ix1 j)).trans ?_
  refine Finset.sum_congr rfl fun r _ => ?_
  rw [shapeCast_self]
  exact congrArg v (funext fun a => by match a with | ⟨0, _⟩ => rfl | ⟨1, _⟩ => rfl)

/-- Slot k of the landing buffer at column j: the column sums of the block of the device k places before c. -/
theorem gathered_apply (xs : Dev nD → Vec Ideal S1024x512 .f32) (c : Dev nD) (k : Fin 32) (u : Fin 1) (j : Fin 512) :
    gathered (F := Ideal) xs c (ix3 k u j) = k0_pay2 (F := Ideal) (xs (back c k.val)) (rowIx j) := rfl

/-- The kernel's result at column j: the sum of the 32 slots there, times the literal 2^-15. -/
theorem slot_sum (G : FVec Ideal S32x1x512 .f32) (u : Fin 1) (j : Fin 512) :
    k0_pay1 (F := Ideal) G (ix2 u j) = (∑ k : Fin 32, G (ix3 k u j)) * Ideal.ofBits .f32 0x38000000#32 := by
  unfold k0_pay1
  rw [mulf_apply, broadcast_apply]
  refine congrArg (· * _) ?_
  refine (Ideal.multiReduction_add_single _ 0x00000000#32 reduces_S32x1x512_S1x512 (.inl rfl) rfl (ix2 u j)).trans ?_
  refine Finset.sum_congr rfl fun k _ => ?_
  exact congrArg G (funext fun a => by match a with | ⟨0, _⟩ => rfl | ⟨1, _⟩ => rfl | ⟨2, _⟩ => rfl)

/-- Row r, column j of block d is row 1024·d + r, column j of the whole array. -/
theorem block_at (X : (⟨Cert.ReferenceIdeal.S32768x512, .f32⟩ : BufTy).Contents (Elt Ideal)) (d : Fin 32) (r : Fin 1024) (j : Fin 512) :
    (Layout.block ⟨2, ![1024, 512]⟩ ⟨2, ![32768, 512]⟩ 0 32 d X) (ix2 r j) = X (ix2 (splitRow (d, r)) j) := by
  rw [Layout.block_apply]
  exact congrArg X (funext fun a => Fin.ext (by match a with | ⟨0, _⟩ => rfl | ⟨1, _⟩ => rfl))

/-! ## The reference side read at an index -/

/-- The reference at column j: the literal 0 plus the sum over all 32768 rows of the entry in column j, divided by the literal 32768. -/
theorem ref_at (X : (⟨Cert.ReferenceIdeal.S32768x512, .f32⟩ : BufTy).Contents (Elt Ideal)) (u : Fin 1) (j : Fin 512) :
    Cert.ReferenceIdeal.Read.val_main_v3 (F := Ideal) X (ix2 u j)
      = Ideal.div (Ideal.ofBits .f32 0x00000000#32 + ∑ n : Fin 32768, X (ix2 n j)) (Ideal.ofBits .f32 0x47000000#32) := by
  rw [Cert.ReferenceIdeal.Read.val_main_v3_apply, Cert.ReferenceIdeal.Read.val_main_v1_apply,
    Cert.ReferenceIdeal.Read.val_main_v2_apply, Cert.ReferenceIdeal.Read.val_main_v0_apply,
    Cert.ReferenceIdeal.Read.val_main_cst_0_apply, Cert.ReferenceIdeal.Read.val_main_cst_apply]
  show Ideal.div (Ideal.ofBits .f32 0x00000000#32 + _) (Ideal.ofBits .f32 0x47000000#32) = _
  refine congrArg (fun s => Ideal.div (Ideal.ofBits .f32 0x00000000#32 + s) (Ideal.ofBits .f32 0x47000000#32)) ?_
  refine Finset.sum_congr rfl fun n _ => ?_
  exact congrArg X (funext fun a => by match a with | ⟨0, _⟩ => rfl | ⟨1, _⟩ => rfl)

/-! ## The two sides are one function -/

/-- On 32 devices the kernel computes, and on one device the reference computes, the mean over all 32768 rows:
    the slots' column sums regroup the sum over the rows along (k, r) ↦ 1024·((c − k) mod 32) + r, and the product
    with 2^-15 is the quotient by 32768 on every extended real. -/
theorem mean_eq (X : (⟨Cert.ReferenceIdeal.S32768x512, .f32⟩ : BufTy).Contents (Elt Ideal)) (c : Dev 32) :
    Cert.KernelIdeal.Gen.k0_pay1 (F := Ideal)
        (Cert.KernelIdeal.Pf.gathered (F := Ideal) (fun d => Layout.block ⟨2, ![1024, 512]⟩ ⟨2, ![32768, 512]⟩ 0 32 d X) c)
      = Cert.ReferenceIdeal.Read.val_main_v3 (F := Ideal) X := by
  funext i
  obtain ⟨u, j, rfl⟩ : ∃ (u : Fin 1) (j : Fin 512), i = ix2 u j := ⟨i 0, i 1, eq_ix2 i⟩
  rw [slot_sum, ref_at, lit_zero, zero_add, lit_32768, lit_inv, Ideal.div_coe (by norm_num : (32768 : ℝ) ≠ 0),
    sum_rows c]
  refine congrArg (· * _) (Finset.sum_congr rfl fun k _ => ?_)
  rw [gathered_apply, colsum_block]
  exact Finset.sum_congr rfl fun r _ => block_at X (back c k.val) r j

end Cert.KernelIdeal.Val

end

/-- info: 'Cert.KernelIdeal.Val.mean_eq' depends on axioms: [propext, Classical.choice, Quot.sound] -/
#guard_msgs in #print axioms Cert.KernelIdeal.Val.mean_eq
-- ==== Proof.RefSide.lean ====
/-
  The reference side: the one-device reference's run, and its result read index by index.
-/
import proofs.«900936_g7700000000000937_dist_mean_ax0_shard0_i_m1024_n512_v7x_i32_bf16_1_alg».proof.Defs
import proofs.«900936_g7700000000000937_dist_mean_ax0_shard0_i_m1024_n512_v7x_i32_bf16_1_alg».proof.Proof.Gen.ReferenceIdeal
import proofs.«900936_g7700000000000937_dist_mean_ax0_shard0_i_m1024_n512_v7x_i32_bf16_1_alg».proof.Proof.Gen.ReferenceIdeal.Run
import proofs.«900936_g7700000000000937_dist_mean_ax0_shard0_i_m1024_n512_v7x_i32_bf16_1_alg».proof.Proof.Gen.ReferenceIdeal.Read
import proofs.«900936_g7700000000000937_dist_mean_ax0_shard0_i_m1024_n512_v7x_i32_bf16_1_alg».proof.Proof.Gen.Pre_finite_inputs_ReferenceIdeal

noncomputable section

namespace Cert.KernelIdeal.Ref

open Idealize.ShloMosaic Idealize.SL.Sem

/-- The reference terminates on every fair execution and leaves its argument array as it was: its run, the result's value dropped. -/
theorem frame_ri : Cert.frame_ReferenceIdeal :=
  fun m ρ _ => (θ_run Cert.ReferenceIdeal.defs _ _).mono (fun _ h c => (h c).2) (Cert.ReferenceIdeal.Value.run (F := Ideal) m ρ)

/-- info: 'Cert.KernelIdeal.Ref.frame_ri' depends on axioms: [propext, Classical.choice, Quot.sound] -/
#guard_msgs in #print axioms frame_ri

end Cert.KernelIdeal.Ref

end
-- ==== Proof.Bits.Cells.lean ====
/-
  The all-to-all mean on 32 devices: the cells of its protocol and what each landing hands its owner.

  Every device first tells every OTHER device, on that device's barrier semaphore, that it is inside the kernel, and with
  that word lends it the one slot of its own 32-slot landing buffer that the other device will write (slot k of device d is
  written by the device k places before d on the ring); it then stores the column sums of its own block in slot 0, waits for
  the 31 words of the others (and with them holds the 31 slots it writes), copies slot 0 into slot r of the device r places
  after it for r = 1 … 31 — each copy reading slot 0 at its own share of it, crediting its own send semaphore r here and
  the receive semaphore r there —, waits for its 31 departures (the shares of slot 0 come back) and its 31 arrivals (slot r
  comes back holding the column sums of the device r places before it), sums the 32 slots and scales by 1/32768.

  Here: the two resource algebras side by side, the ring arithmetic, the semaphores' cells, the slot memrefs, the shares of
  slot 0, and the schedule — one round per cell: a barrier cell has a unit duty per other device, a send or receive cell of
  index r ≥ 1 one duty of the slot's credit.
-/
import proofs.«900936_g7700000000000937_dist_mean_ax0_shard0_i_m1024_n512_v7x_i32_bf16_1_alg».proof.Proof.Gen.Kernel
import proofs.«900936_g7700000000000937_dist_mean_ax0_shard0_i_m1024_n512_v7x_i32_bf16_1_alg».proof.Proof.Gen.Kernel.Skeleton
import proofs.«900936_g7700000000000937_dist_mean_ax0_shard0_i_m1024_n512_v7x_i32_bf16_1_alg».proof.Proof.Gen.Kernel.Launch
import proofs.«900936_g7700000000000937_dist_mean_ax0_shard0_i_m1024_n512_v7x_i32_bf16_1_alg».proof.Proof.Gen.Kernel.Points
import proofs.«900936_g7700000000000937_dist_mean_ax0_shard0_i_m1024_n512_v7x_i32_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties named by a device) -/

abbrev UB : Type := URounds (GSem nD τ sig) (Fin 32)
abbrev UU : Type := UR sig nD τ × UB

/-- Tallies are indexed by (round, duty): a unit owed to a barrier cell is owed at its payer's index. -/
abbrev IxT : Type := ℕ × Dev nD
/-- The index of a cell's one duty `0` of round 0 (a send or receive cell's; also the pipeline's own). -/
abbrev ι₀ : IxT := (0, 0)

local notation "𝕄" => MT nD τ sig IxT (Elt F) ℕ UU ℕ

abbrev EP : Emb (UR sig nD τ) (MT nD τ sig IxT (Elt F) ℕ UU ℕ) := embL
abbrev ER : Emb UB (MT nD τ sig IxT (Elt F) ℕ UU ℕ) := embR

/-! ## The ring -/

/-- The device `r` places after `c`: where `c`'s copy number `r` lands. -/
def fwd (c : Dev nD) (r : ℕ) : Dev nD := ⟨(c.val + r) % 32, Nat.mod_lt _ (by decide)⟩
/-- The device `r` places before `c`: whose copy lands in `c`'s slot `r`. -/
def bwd (c : Dev nD) (r : ℕ) : Dev nD := ⟨(c.val + (32 - r % 32)) % 32, Nat.mod_lt _ (by decide)⟩
/-- How many places `d` is after `c`: the slot of `d` that `c` writes. -/
def gap (c d : Dev nD) : ℕ := (d.val + (32 - c.val)) % 32

theorem gap_lt (c d : Dev nD) : gap c d < 32 := Nat.mod_lt _ (by decide)
theorem bwd_fwd (c : Dev nD) (r : ℕ) : bwd (fwd c r) r = c := by
  apply Fin.ext; show ((c.val + r) % 32 + (32 - r % 32)) % 32 = c.val
  have := c.isLt; have : nD = 32 := rfl; omega
theorem fwd_gap (c d : Dev nD) : fwd c (gap c d) = d := by
  apply Fin.ext; show (c.val + (d.val + (32 - c.val)) % 32) % 32 = d.val
  have := c.isLt; have := d.isLt; have : nD = 32 := rfl; omega
theorem gap_fwd (c : Dev nD) (r : ℕ) (hr : r < 32) : gap c (fwd c r) = r := by
  show ((c.val + r) % 32 + (32 - c.val)) % 32 = r
  have := c.isLt; have : nD = 32 := rfl; omega
theorem gap_self (c : Dev nD) : gap c c = 0 := by
  show (c.val + (32 - c.val)) % 32 = 0
  have := c.isLt; have : nD = 32 := rfl; omega
theorem gap_eq_zero {c d : Dev nD} (h : gap c d = 0) : d = c := by
  apply Fin.ext; have h' : (d.val + (32 - c.val)) % 32 = 0 := h
  have := c.isLt; have := d.isLt; have : nD = 32 := rfl; omega

/-! ## Memrefs and semaphores -/

abbrev xM : Memref sig .tc .vmem S1024x512 .f32 := Memref.whole cc0_stg0_0
abbrev oM : Memref sig .tc .vmem S1x512 .f32 := Memref.whole cc0_stg1_0
abbrev rM : Memref sig .tc .vmem S32x1x512 .f32 := Memref.whole cc0_scratch0

theorem slot_inb (k : ℕ) : ∀ a, (![k % 32, 0, 0] : Fin 3 → Nat) a + S1x1x512.size a ≤ S32x1x512.size a := by
  intro a; fin_cases a
  · show k % 32 + 1 ≤ 32; omega
  · show 0 + 1 ≤ 1; omega
  · show 0 + 512 ≤ 512; omega

/-- The rectangle of slot `k` in the landing buffer. -/
abbrev slotR (k : ℕ) : Rect S32x1x512 := Rect.unit (s := S32x1x512) ![k % 32, 0, 0] S1x1x512.size (slot_inb k)

/-- Slot `k` of the landing buffer, as the copies and their waits address it. -/
abbrev slotM (k : ℕ) : Memref sig .tc .vmem S1x512 .f32 :=
  (rM.slice (slotR k) (fun _ => rfl)).squeeze S1x512 squeezes_S1x1x512_S1x512

/-- The runtime's barrier semaphore of collective id 0 (not scoped to the launch). -/
abbrev barS : Sem sig := (SemArray.scalar (sig.barrier 0 rfl) : Sems sig S_).sem
/-- The send and receive DMA semaphores of index `k` (scoped scratch: pool entries 2 + k and 34 + k). -/
abbrev sendS (k : ℕ) : DmaSem sig := ⟨2 + k % 32, by show 2 + k % 32 < 66; omega⟩
abbrev recvS (k : ℕ) : DmaSem sig := ⟨34 + k % 32, by show 34 + k % 32 < 66; omega⟩

abbrev barCell (c : Dev nD) : GSem nD τ sig := ((c : Thread nD τ), .reg barS)
abbrev sendCell (c : Dev nD) (k : ℕ) : GSem nD τ sig := ((c : Thread nD τ), .dma (sendS k))
abbrev recvCell (c : Dev nD) (k : ℕ) : GSem nD τ sig := ((c : Thread nD τ), .dma (recvS k))

/-- The credit of one slot's transfer. -/
abbrev N : ℕ := (slotM 0).view.dmaCredit
theorem N_pos : 0 < N := View.dmaCredit_pos _ (by decide)

/-! ## The shares of slot 0

Thirty-one copies read slot 0 at once: copy `k` is lent the left half of what the copies before it left, and the issuer
keeps the last right half. -/

def restSh : ℕ → PosShare TreeShare
  | 0 => fullShare
  | k + 1 => (restSh k).right
/-- The share of slot 0 lent to copy `k` (`k ≥ 1`). -/
def lentSh (k : ℕ) : PosShare TreeShare := (restSh (k - 1)).left

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- The landing buffer of `c` once it has stored its column sums in slot 0 (the other slots: whatever). -/
def stored (c : Dev nD) : (cc0_scratch0 : Ref sig .tc).ty.Contents (Elt F) :=
  ((rM.access (Rect.unit (s := S32x1x512) ![0, 0, 0] S1x1x512.size inb_S32x1x512_S1x1x512_0_0_0) : View sig .tc _ _ _).write (Elt F)
    (fun _ => Classical.arbitrary _) (k0_pay2 (xstg m ρ c)) Finset.univ)

/-! ## The schedule -/

/-- What a semaphore is in the protocol. -/
inductive Kind where
  | bar | send (k : ℕ) | recv (k : ℕ) | other

def kindOf : SemLoc sig → Kind
  | .reg s => if s = barS then .bar else .other
  | .dma q => if 3 ≤ q.val ∧ q.val < 34 then .send (q.val - 2) else if 35 ≤ q.val ∧ q.val < 66 then .recv (q.val - 34) else .other

/-- One round per cell. A barrier cell: a unit duty per OTHER device `d`, which lends the owner the slot of `d` the owner writes.
    A send cell `k`: the one duty of the slot's credit, handing back slot 0 at copy `k`'s share. A receive cell `k`: the one
    duty of the slot's credit, handing over slot `k` holding what the device `k` places before stored in its slot 0. -/
def sched : Rounds.Schedule (GSem nD τ sig) (Dev nD) 𝕄 where
  duties g r := if r = 0 ∧ g.1.2 = .tc then
      (match kindOf g.2 with | .bar => Finset.univ.erase g.1.1 | .send _ => {0} | .recv _ => {0} | .other => ∅) else ∅
  unitless _ := False
  amount g _ _ := match kindOf g.2 with | .bar => 1 | _ => N
  payload g _ d := match kindOf g.2 with
    | .bar => iprop(∃ f, (slotM (gap g.1.1 d)).view.loc (d : Thread nD τ) ↦[(slotM (gap g.1.1 d)).view.set]{fullShare} f)
    | .send k => (slotM 0).view.loc (g.1.1 : Thread nD τ) ↦[(slotM 0).view.set]{lentSh k} stored m ρ g.1.1
    | .recv k => iprop(∃ fd, (slotM k).view.loc (g.1.1 : Thread nD τ) ↦[(slotM k).view.set]{fullShare}
        ((slotM k).view.write (Elt F) fd ((slotM 0).view.read (Elt F) (stored m ρ (bwd g.1.1 k))) Finset.univ))
    | .other => iprop(emp)
  amount_pos g _ _ _ := by
    cases kindOf g.2 <;> first | exact Nat.one_pos | exact N_pos

instance sched_payload_storable (g : GSem nD τ sig) (r : ℕ) (d : Dev nD) :
    BI.Storable (upEmb : UEmb _ 𝕄) ((sched (F := F) m ρ).payload g r d) := by
  show BI.Storable upEmb (match kindOf g.2 with
    | .bar => iprop(∃ f, (slotM (gap g.1.1 d)).view.loc (d : Thread nD τ) ↦[(slotM (gap g.1.1 d)).view.set]{fullShare} f)
    | .send k => (slotM 0).view.loc (g.1.1 : Thread nD τ) ↦[(slotM 0).view.set]{lentSh k} stored m ρ g.1.1
    | .recv k => iprop(∃ fd, (slotM k).view.loc (g.1.1 : Thread nD τ) ↦[(slotM k).view.set]{fullShare}
        ((slotM k).view.write (Elt F) fd ((slotM 0).view.read (Elt F) (stored m ρ (bwd g.1.1 k))) Finset.univ))
    | .other => iprop(emp))
  split <;> infer_instance

section Tables
variable (c : Dev nD)

theorem kind_bar : kindOf (.reg barS : SemLoc sig) = .bar := by
  show (if barS = barS then Kind.bar else Kind.other) = _
  exact if_pos rfl
theorem kind_send (k : ℕ) (hk : 1 ≤ k ∧ k < 32) : kindOf (.dma (sendS k) : SemLoc sig) = .send k := by
  have e : k % 32 = k := Nat.mod_eq_of_lt hk.2
  show (if 3 ≤ 2 + k % 32 ∧ 2 + k % 32 < 34 then Kind.send (2 + k % 32 - 2) else _) = _
  rw [if_pos ⟨by omega, by omega⟩, e, Nat.add_sub_cancel_left]
theorem kind_recv (k : ℕ) (hk : 1 ≤ k ∧ k < 32) : kindOf (.dma (recvS k) : SemLoc sig) = .recv k := by
  have e : k % 32 = k := Nat.mod_eq_of_lt hk.2
  show (if 3 ≤ 34 + k % 32 ∧ 34 + k % 32 < 34 then Kind.send (34 + k % 32 - 2) else
    if 35 ≤ 34 + k % 32 ∧ 34 + k % 32 < 66 then Kind.recv (34 + k % 32 - 34) else _) = _
  rw [if_neg (by omega), if_pos ⟨by omega, by omega⟩, e, Nat.add_sub_cancel_left]

theorem duties_bar : (sched (F := F) m ρ).duties (barCell c) 0 = Finset.univ.erase c := by
  unfold sched; dsimp only; rw [if_pos ⟨rfl, rfl⟩, kind_bar]
theorem duties_send (k : ℕ) (hk : 1 ≤ k ∧ k < 32) : (sched (F := F) m ρ).duties (sendCell c k) 0 = {0} := by
  unfold sched; dsimp only; rw [if_pos ⟨rfl, rfl⟩, kind_send k hk]
theorem duties_recv (k : ℕ) (hk : 1 ≤ k ∧ k < 32) : (sched (F := F) m ρ).duties (recvCell c k) 0 = {0} := by
  unfold sched; dsimp only; rw [if_pos ⟨rfl, rfl⟩, kind_recv k hk]
theorem duties_later (g : GSem nD τ sig) : ∀ r, 1 ≤ r → (sched (F := F) m ρ).duties g r = ∅ :=
  fun r hr => if_neg fun h => by omega

theorem amount_bar (d : Dev nD) : (sched (F := F) m ρ).amount (barCell c) 0 d = 1 := by
  unfold sched; dsimp only; rw [kind_bar]
theorem amount_send (k : ℕ) (hk : 1 ≤ k ∧ k < 32) (d : Dev nD) : (sched (F := F) m ρ).amount (sendCell c k) 0 d = N := by
  unfold sched; dsimp only; rw [kind_send k hk]
theorem amount_recv (k : ℕ) (hk : 1 ≤ k ∧ k < 32) (d : Dev nD) : (sched (F := F) m ρ).amount (recvCell c k) 0 d = N := by
  unfold sched; dsimp only; rw [kind_recv k hk]

theorem expect_bar : (sched (F := F) m ρ).expect (barCell c) 0 = 31 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
  rfl
theorem expect_send (k : ℕ) (hk : 1 ≤ k ∧ k < 32) : (sched (F := F) m ρ).expect (sendCell c k) 0 = N := by
  unfold Schedule.expect Schedule.amountOf; rw [duties_send m ρ c k hk, Finset.sum_singleton, amount_send m ρ c k hk]
theorem expect_recv (k : ℕ) (hk : 1 ≤ k ∧ k < 32) : (sched (F := F) m ρ).expect (recvCell c k) 0 = N := by
  unfold Schedule.expect Schedule.amountOf; rw [duties_recv m ρ c k hk, Finset.sum_singleton, amount_recv m ρ c k hk]

theorem payload_bar (d : Dev nD) : (sched (F := F) m ρ).payload (barCell c) 0 d
    = iprop(∃ f, (slotM (gap c d)).view.loc (d : Thread nD τ) ↦[(slotM (gap c d)).view.set]{fullShare} f) := by
  unfold sched; dsimp only; rw [kind_bar]
theorem payload_send (k : ℕ) (hk : 1 ≤ k ∧ k < 32) (d : Dev nD) : (sched (F := F) m ρ).payload (sendCell c k) 0 d
    = ((slotM 0).view.loc (c : Thread nD τ) ↦[(slotM 0).view.set]{lentSh k} stored m ρ c) := by
  unfold sched; dsimp only; rw [kind_send k hk]
theorem payload_recv (k : ℕ) (hk : 1 ≤ k ∧ k < 32) (d : Dev nD) : (sched (F := F) m ρ).payload (recvCell c k) 0 d
    = iprop(∃ fd, (slotM k).view.loc (c : Thread nD τ) ↦[(slotM k).view.set]{fullShare}
        ((slotM k).view.write (Elt F) fd ((slotM 0).view.read (Elt F) (stored m ρ (bwd c k))) Finset.univ)) := by
  unfold sched; dsimp only; rw [kind_recv k hk]
/-- The receive cell of the device `k` places after `c`, seen from `c`: what lands there is what `c` stored. -/
theorem payload_recv_fwd (k : ℕ) (hk : 1 ≤ k ∧ k < 32) (d : Dev nD) : (sched (F := F) m ρ).payload (recvCell (fwd c k) k) 0 d
    = iprop(∃ fd, (slotM k).view.loc (fwd c k : Thread nD τ) ↦[(slotM k).view.set]{fullShare}
        ((slotM k).view.write (Elt F) fd ((slotM 0).view.read (Elt F) (stored m ρ c)) Finset.univ)) := by
  rw [payload_recv m ρ (fwd c k) k hk d, bwd_fwd]

end Tables

end Cert.Kernel.Pf

end
-- ==== Proof.Bits.Spec.lean ====
/-
  What a device's landing buffer holds once every copy has landed, as one function of all devices' blocks:
  slot k holds the column sums of the block of the device k places before it on the ring (slot 0: its own).
-/
import proofs.«900936_g7700000000000937_dist_mean_ax0_shard0_i_m1024_n512_v7x_i32_bf16_1_alg».proof.Proof.Gen.Kernel
import proofs.«900936_g7700000000000937_dist_mean_ax0_shard0_i_m1024_n512_v7x_i32_bf16_1_alg».proof.Proof.Gen.Kernel.Skeleton

noncomputable section

namespace Cert.Kernel.Pf

open Cert.Kernel Cert.Kernel.Gen
open Idealize.ShloMosaic

variable {F : FTy → Type} [FloatOps F]

/-- The device `r` places before `c` on the ring of 32. -/
def back (c : Dev nD) (r : ℕ) : Dev nD := ⟨(c.val + (32 - r % 32)) % 32, Nat.mod_lt _ (by decide)⟩

/-- Entry `(0, 0, j)` of a one-row vector. -/
def rowIx (j : Fin 512) : S1x1x512.Idx := fun a => match a with
  | ⟨0, _⟩ => ⟨0, Nat.one_pos⟩
  | ⟨1, _⟩ => ⟨0, Nat.one_pos⟩
  | ⟨2, _⟩ => ⟨j.val, j.isLt⟩

/-- The landing buffer of device `c` after the exchange, from every device's block `xs d`: entry `(k, 0, j)` is entry `j` of the
    column sums (`k0_pay2`) of the block of the device `k` places before `c`. -/
def gathered (xs : Dev nD → Vec F S1024x512 .f32) (c : Dev nD) : Vec F S32x1x512 .f32 :=
  fun i => k0_pay2 (xs (back c (i 0).val)) (rowIx ⟨(i 2).val, (i 2).isLt⟩)

end Cert.Kernel.Pf

end
-- ==== Proof.Bits.State.lean ====
/-
  What each device holds when its kernel body starts and when it ends: the protocol's ghost state (every cell's invariant and
  round-0 mark; the device's positions on its own 65 cells; the tokens of the duties IT pays: one on every other device's
  barrier cell, its 31 departures, the 31 arrivals at the devices after it), its launch credit (31 units on its barrier
  cell, one slot's credit on each of its receive cells 1 … 31), what it owes (a unit to every other device's barrier cell, a
  slot's credit to receive cell k of the device k places after it), the levels (barrier cells below receive cells), and
  the pipeline's proof data: the staged block of x unchanged, the result row the scaled sum of the gathered buffer.
-/
import proofs.«900936_g7700000000000937_dist_mean_ax0_shard0_i_m1024_n512_v7x_i32_bf16_1_alg».proof.Proof.Bits.Cells
import proofs.«900936_g7700000000000937_dist_mean_ax0_shard0_i_m1024_n512_v7x_i32_bf16_1_alg».proof.Proof.Bits.Spec

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## The cells, enumerated -/

/-- A device's 65 semaphores of the protocol: the barrier (0), send 0 … 31 (1 … 32), receive 0 … 31 (33 … 64). Send 0 and
    receive 0 are never used: cells with no duty. -/
def csem (j : Fin 65) : SemLoc sig :=
  if j.val = 0 then .reg barS else if j.val ≤ 32 then .dma (sendS (j.val - 1)) else .dma (recvS (j.val - 33))
abbrev kcell (ck : Dev nD × Fin 65) : GSem nD τ sig := ((ck.1 : Thread nD τ), csem ck.2)

/-- The kernel's OWN (scoped) semaphores, as the launch indexes them: the 64 of the two scratch arrays (pool entries 2 … 65). -/
def osem (j : Fin 64) : SemLoc sig := .dma ⟨2 + j.val, by show 2 + j.val < 66; omega⟩

/-! ## What each device owes at launch; the levels -/

/-- A unit to every other device's barrier cell, at its own duty's index there, and to receive cell `k` of the device `k` places
    after it the slot's credit. -/
def O₀ (c : Dev nD) : CellTallies nD τ sig IxT :=
  (∑ d ∈ Finset.univ.erase c, tallyAt (barCell d) ((0, c) : IxT) 1) + ∑ k ∈ Finset.Icc 1 31, tallyAt (recvCell (fwd c k) k) ι₀ N

/-- The credit a device's barrier cell is dealt at launch: a unit at the index of every other device. -/
def crBar (c : Dev nD) : IxT →₀ ℕ := ∑ d ∈ Finset.univ.erase c, Finsupp.single ((0, d) : IxT) 1

def L (g : GSem nD τ sig) : Finset IxT := if g.1.2 = .tc then Finset.univ.image (fun d : Dev nD => ((0, d) : IxT)) else ∅
/-- Barrier cells at 1, receive cells at 2, everything else (staging, send) at 0: a device waits on its barrier cell while it
    owes arrivals, and on nothing else while it owes anything. -/
def lv (g : GSem nD τ sig) (_ : IxT) : ℕ := match kindOf g.2 with | .bar => 1 | .recv _ => 2 | _ => 0

/-! ## The ghost state -/

/-- Every cell's invariant, at the names `K` the launch allocated them at, and that round 0 of every cell is reached. -/
def records (K : Dev nD × Fin 65 → ℕ) : sProp 𝕄 :=
  iprop((bigSep Finset.univ fun ck : Dev nD × Fin 65 => cellInv ER (sched m ρ) (K ck) (kcell ck))
    ∗ bigSep Finset.univ fun ck : Dev nD × Fin 65 => reached ER (kcell ck) 0)

instance records_persistent (K : Dev nD × Fin 65 → ℕ) : BI.Persistent (records m ρ K) := by unfold records; infer_instance

/-- What stays with device `c`: its positions on its own cells, and the tokens of the duties IT pays. -/
def linear (c : Dev nD) : sProp 𝕄 :=
  iprop((bigSep Finset.univ fun j : Fin 65 => atPos ER (kcell (c, j)) 0 ∅ 0)
    ∗ (bigSep (Finset.univ.erase c) fun d : Dev nD => dutyTok ER (barCell d) 0 c)
    ∗ (bigSep (Finset.Icc 1 31) fun k : ℕ => iprop(dutyTok ER (sendCell c k) 0 (0 : Dev nD) ∗ dutyTok ER (recvCell (fwd c k) k) 0 (0 : Dev nD))))

/-- What the launch's global step makes for device `c`. -/
def G' (c : Dev nD) : sProp 𝕄 := iprop(∃ K, records m ρ K ∗ linear c)

/-- What device `c`'s body starts from: that, its launch credit and the level facts. -/
def start (c : Dev nD) : sProp 𝕄 :=
  iprop(G' m ρ c ∗ cred (tallyOn (barCell c) (crBar c)) ∗ (bigSep (Finset.Icc 1 31) fun k : ℕ => cred (tallyAt (recvCell c k) ι₀ N)) ∗ levAts L lv)

/-! ## The pipeline's proof data -/

/-- The kernel's result on device `c`: the gathered buffer summed over its slots and scaled (the skeleton's `k0_pay1`). -/
def outAt (c : Dev nD) : (cc0_stg1_0 : Ref sig .tc).ty.Contents (Elt F) := k0_pay1 (gathered (fun d => xstg m ρ d) c)

def Φ₀ (c : Dev nD) : sProp 𝕄 := iprop(start m ρ c ∗ ∃ f : Buf (Elt F) ((c : Thread nD τ).loc cc0_scratch0), ((c : Thread nD τ).loc cc0_scratch0) ↦{fullShare} f)
/-- After the point: the landing buffer (at whatever it holds) and the 64 own semaphores at zero. -/
def Φ₁ (c : Dev nD) : sProp 𝕄 :=
  iprop((∃ f : Buf (Elt F) ((c : Thread nD τ).loc cc0_scratch0), ((c : Thread nD τ).loc cc0_scratch0) ↦{fullShare} f)
    ∗ Pipeline.ownSems0 (Ix := IxT) (Name := ℕ) (U := UU) (Lvl := ℕ) (Val := Elt F) (τ := τ) osem c)

def dats (_ : Fin 1) (c : Dev nD) : Dat τ (Elt F) IxT ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.Pf

end
-- ==== Proof.Bits.LaunchGhost.lean ====
/-
  The protocol's ghost state at launch: the 32 × 65 cells and the tokens of their duties, minted in one launch element and
  dealt to the devices — each device first gets the round-0 state, its position and the round-0 mark of its own 65 cells and
  the tokens of its OWN cells' duties; the global step then allocates every cell's invariant from the counters at zero and
  passes the tokens round to their payers: the token of duty e on device d's barrier cell to device e, the token of
  receive cell k of device d to the device k places before d, the send tokens staying where they are.
-/
import proofs.«900936_g7700000000000937_dist_mean_ax0_shard0_i_m1024_n512_v7x_i32_bf16_1_alg».proof.Proof.Bits.State
import Idealize.SL.ProofMode.BigOp

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## The cells are distinct -/

theorem csem_injective : Function.Injective csem := by
  intro j j' h
  have hj := j.isLt; have hj' := j'.isLt
  unfold csem at h
  apply Fin.ext
  split_ifs at h with h1 h2 h3 h4 h5 h6
  all_goals first
    | omega
    | exact absurd h (fun h => by cases h)
    | (have h' := congrArg Fin.val (SemLoc.dma.inj h); simp only at h'; omega)

/-- Cell j + 1 of the enumeration is the kernel's own semaphore j. -/
theorem csem_succ (j : Fin 64) : csem j.succ = osem j := by
  have hj := j.isLt
  unfold csem osem
  rw [if_neg (by simp)]
  split_ifs with h
  · congr 1; apply Fin.ext; show 2 + (j.succ.val - 1) % 32 = 2 + j.val; rw [Fin.val_succ]; rw [Fin.val_succ] at h; omega
  · congr 1; apply Fin.ext; show 34 + (j.succ.val - 33) % 32 = 2 + j.val; rw [Fin.val_succ]; rw [Fin.val_succ] at h; omega

theorem csem_zero : csem 0 = .reg barS := if_pos rfl

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All the cells of the protocol. -/
def cellsF : Finset (GSem nD τ sig) := Finset.univ.map ⟨kcell, kcell_injective⟩

/-! ## The tokens minted

A device's own cells' duty tokens: its barrier's, one per device (the one named by itself is not a duty, and is left out
below), its 31 send cells' and its 31 receive cells' one each. -/

def tokOf (x : Dev nD × (Dev nD ⊕ Fin 31 ⊕ Fin 31)) : GSem nD τ sig × ℕ × Dev nD := match x.2 with
  | .inl e => (barCell x.1, 0, e)
  | .inr (.inl k) => (sendCell x.1 (k.val + 1), 0, 0)
  | .inr (.inr k) => (recvCell x.1 (k.val + 1), 0, 0)

theorem tokOf_injective : Function.Injective tokOf := by
  rintro ⟨c, s⟩ ⟨c', s'⟩ h
  have h1 : c = c' := by
    have := congrArg (fun x : GSem nD τ sig × ℕ × Dev nD => x.1.1.1) h
    rcases s with e | k | k <;> rcases s' with e' | k' | k' <;> exact this
  subst h1
  have h2 := congrArg (fun x : GSem nD τ sig × ℕ × Dev nD => x.1.2) h
  have h3 := congrArg (fun x : GSem nD τ sig × ℕ × Dev nD => x.2.2) h
  rcases s with e | k | k <;> rcases s' with e' | k' | k'
  all_goals first
    | (have h3' : e = e' := h3; subst h3'; rfl)
    | exact absurd h2 (fun h => by cases h)
    | (have h' := congrArg Fin.val (SemLoc.dma.inj h2)
       have hk := k.isLt; have hk' := k'.isLt
       first
         | (have e : k = k' := Fin.ext (by
              first
                | (change 2 + (k.val + 1) % 32 = 2 + (k'.val + 1) % 32 at h'; omega)
                | (change 34 + (k.val + 1) % 32 = 34 + (k'.val + 1) % 32 at h'; omega)); subst e; rfl)
         | (exfalso; change 2 + (k.val + 1) % 32 = 34 + (k'.val + 1) % 32 at h'; omega)
         | (exfalso; change 34 + (k.val + 1) % 32 = 2 + (k'.val + 1) % 32 at h'; omega))

/-- The tokens of the duties: every device's own cells', the barrier's token named by the device itself left out. -/
def toksF : Finset (GSem nD τ sig × ℕ × Dev nD) :=
  (Finset.univ.filter fun x : Dev nD × (Dev nD ⊕ Fin 31 ⊕ Fin 31) => x.2 ≠ .inl x.1).map ⟨tokOf, tokOf_injective⟩

/-- The launch element: the pipeline library's, and the protocol's cells and tokens. -/
def u₀ : UU :=
  (initOf (Pipeline.cells cfgs cellOf_inj) (Pipeline.launchToks cfgs cellOf_inj), initOf cellsF toksF)

/-- The duty tokens of device c's own cells. -/
def toks (c : Dev nD) : sProp 𝕄 :=
  iprop((bigSep (Finset.univ.erase c) fun e : Dev nD => dutyTok ER (barCell c) 0 e)
    ∗ bigSep (Finset.Icc 1 31) fun k : ℕ => iprop(dutyTok ER (sendCell c k) 0 (0 : Dev nD) ∗ dutyTok ER (recvCell c k) 0 (0 : Dev nD)))

/-- What the launch element deals device c: the round-0 state of its 65 cells, its position on each and the
    round-0 mark, and the tokens of its own cells' duties. -/
def G (c : Dev nD) : sProp 𝕄 :=
  iprop((bigSep Finset.univ fun j : Fin 65 => roundState ER (sched m ρ) (kcell (c, j)) 0)
    ∗ (bigSep Finset.univ fun j : Fin 65 => iprop(atPos ER (kcell (c, j)) 0 ∅ 0 ∗ reached ER (kcell (c, j)) 0)) ∗ toks c)

/-! ## Sums over the index types -/

/-- A family over 1 … 31, indexed by Fin 31. -/
theorem bigSep_fin31 (Φ : ℕ → sProp 𝕄) : (bigSep Finset.univ fun k : Fin 31 => Φ (k.val + 1)) = bigSep (Finset.Icc 1 31) Φ := by
  have e : (Finset.Icc 1 31 : Finset ℕ) = (Finset.univ : Finset (Fin 31)).map ⟨fun k : Fin 31 => (k.val + 1 : ℕ), fun a b h => Fin.ext (Nat.add_right_cancel h)⟩ := by
    ext n; simp only [Finset.mem_Icc, Finset.mem_map, Finset.mem_univ, true_and, Function.Embedding.coeFn_mk]
    constructor
    · rintro ⟨h1, h2⟩; exact ⟨⟨n - 1, by omega⟩, by show n - 1 + 1 = n; omega⟩
    · rintro ⟨k, rfl⟩; have hk : k.val < 31 := k.isLt; show 1 ≤ k.val + 1 ∧ k.val + 1 ≤ 31; omega
  rw [e, bigSep_map]; rfl

/-- A family over Fin 65: the first member, and the rest over Fin 64. -/
theorem bigSep_fin65 (Φ : Fin 65 → sProp 𝕄) : bigSep Finset.univ Φ = iprop(Φ 0 ∗ bigSep Finset.univ fun j : Fin 64 => Φ j.succ) := by
  rw [Fin.univ_succ, Finset.cons_eq_insert, bigSep_insert (by simp), bigSep_map]; rfl

/-- A family over a device's token indices, the barrier's index of the device itself left out. -/
theorem bigSep_tokIx (c : Dev nD) (Ψ : Dev nD ⊕ Fin 31 ⊕ Fin 31 → sProp 𝕄) :
    (bigSep Finset.univ fun s : Dev nD ⊕ Fin 31 ⊕ Fin 31 => if s ≠ Sum.inl c then Ψ s else iprop(emp))
      = iprop((bigSep (Finset.univ.erase c) fun e => Ψ (.inl e))
          ∗ (bigSep Finset.univ fun k : Fin 31 => Ψ (.inr (.inl k))) ∗ bigSep Finset.univ fun k : Fin 31 => Ψ (.inr (.inr k))) := by
  rw [bigSep_univ_sum, bigSep_univ_sum, ← Finset.filter_ne' Finset.univ c, bigSep_filter]
  congr 1
  exact bigSep_congr fun e _ => by
    by_cases h : e = c
    · rw [if_neg (by simp [h]), if_neg (by simp [h])]; rfl
    · rw [if_pos (by simp [h]), if_pos h]

/-- The minted tokens, device by device. -/
theorem bigSep_toksF : bigSep toksF (fun x => (dutyTok ER x.1 x.2.1 x.2.2 : sProp 𝕄)) = bigSep Finset.univ fun c : Dev nD => toks c := by
  unfold toksF
  rw [bigSep_map, bigSep_filter, bigSep_univ_prod]
  refine bigSep_congr fun c _ => ?_
  refine (bigSep_tokIx c fun s => (dutyTok ER (tokOf (c, s)).1 (tokOf (c, s)).2.1 (tokOf (c, s)).2.2 : sProp 𝕄)).trans ?_
  unfold toks
  rw [bigSep_sep', ← bigSep_fin31 (fun k => (dutyTok ER (sendCell c k) 0 (0 : Dev nD) : sProp 𝕄)),
    ← bigSep_fin31 (fun k => (dutyTok ER (recvCell c k) 0 (0 : Dev nD) : sProp 𝕄))]
  rfl

/-! ## Funding -/

theorem fund_cells : BI.own (ER (initOf cellsF toksF)) ⊢ (|==> bigSep Finset.univ (G m ρ) : sProp 𝕄) := by
  have hX (Φ : GSem nD τ sig → sProp 𝕄) : bigSep cellsF Φ = bigSep Finset.univ fun c : Dev nD => bigSep Finset.univ fun j : Fin 65 => Φ (kcell (c, j)) := by
    unfold cellsF; rw [bigSep_map, bigSep_univ_prod]; rfl
  iintro HX
  imod (Rounds.fund ER (sched m ρ) cellsF toksF) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (bigSep_toksF (F := F))) $$ Htok
  unfold G; simp only [bigSep_sep']
  isplitl [Hst']; · iexact Hst'
  isplitl [Hat' Hr']
  · isplitl [Hat'] <;> iassumption
  iexact Htok'

/-- The launch element is the pipeline library's and, after an update, what each device is dealt. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_cells m ρ) $$ HX with HG
  imodintro
  isplitl [HP] <;> iassumption

/-! ## The counters at zero -/

/-- The barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := IxT) (Name := ℕ) (U := UU) (Lvl := ℕ) (Val := Elt F) (τ := τ) osem c ∗ unscopedSems0 c)
      ⊢ (bigSep Finset.univ fun j : Fin 65 => semVal (kcell (c, j)) 0 : sProp 𝕄) := by
  have e0 : kcell (c, (0 : Fin 65)) = barCell c := by show ((c : Thread nD τ), csem 0) = _; rw [csem_zero]
  have eS (j : Fin 64) : kcell (c, j.succ) = ((c : Thread nD τ), osem j) := by show ((c : Thread nD τ), csem j.succ) = _; rw [csem_succ]
  rw [unscopedSems0_eq, bigSep_fin65]
  unfold Pipeline.ownSems0
  simp only [e0, eS]
  iintro ⟨HS, HB⟩
  isplitl [HB]; · iexact HB
  iexact HS

/-! ## The invariants allocated -/

theorem core_alloc (c : Dev nD) :
    iprop(Pipeline.ownSems0 (Ix := IxT) (Name := ℕ) (U := UU) (Lvl := ℕ) (Val := Elt F) (τ := τ) osem c ∗ unscopedSems0 c ∗ G m ρ c)
      ⊢ |={Set.univ}=> iprop((bigSep Finset.univ fun j : Fin 65 => iprop(∃ κ : ℕ, cellInv ER (sched m ρ) κ (kcell (c, j))))
          ∗ (bigSep Finset.univ fun j : Fin 65 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 65 => semVal (kcell (c, j)) 0) ∗ bigSep Finset.univ fun j : Fin 65 => roundState ER (sched m ρ) (kcell (c, j)) 0)
      ⊢ (|={Set.univ}=> bigSep Finset.univ fun j : Fin 65 => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round -/

theorem fwd_bwd (d : Dev nD) (k : ℕ) : fwd (bwd d k) k = d := by
  apply Fin.ext; show ((d.val + (32 - k % 32)) % 32 + k) % 32 = d.val
  have := d.isLt; have : nD = 32 := rfl; omega

/-- Going k + 1 places round the ring, for each k: a bijection of the pairs (device, k). -/
def fwdE : Dev nD × Fin 31 ≃ Dev nD × Fin 31 where
  toFun p := (fwd p.1 (p.2.val + 1), p.2)
  invFun p := (bwd p.1 (p.2.val + 1), p.2)
  left_inv p := by show (bwd (fwd p.1 (p.2.val + 1)) (p.2.val + 1), p.2) = p; rw [bwd_fwd]
  right_inv p := by show (fwd (bwd p.1 (p.2.val + 1)) (p.2.val + 1), p.2) = p; rw [fwd_bwd]

/-- A family over (device d, k = 1 … 31), regrouped by the device k places before d. -/
theorem recv_around (R : Dev nD → ℕ → sProp 𝕄) :
    (bigSep Finset.univ fun d : Dev nD => bigSep (Finset.Icc 1 31) fun k => R d k)
      = bigSep Finset.univ fun c : Dev nD => bigSep (Finset.Icc 1 31) fun k => R (fwd c k) k := by
  rw [bigSep_congr (s := Finset.univ) fun (d : Dev nD) _ => (bigSep_fin31 (fun k => R d k)).symm,
    bigSep_congr (s := Finset.univ) fun (c : Dev nD) _ => (bigSep_fin31 (fun k => R (fwd c k) k)).symm,
    ← bigSep_univ_prod (fun p : Dev nD × Fin 31 => R p.1 (p.2.val + 1)),
    ← bigSep_univ_prod (fun p : Dev nD × Fin 31 => R (fwd p.1 (p.2.val + 1)) (p.2.val + 1)),
    bigSep_univ_equiv fwdE (fun p : Dev nD × Fin 31 => R p.1 (p.2.val + 1))]
  rfl

/-- The tokens of the duties device c pays. -/
def payToks (c : Dev nD) : sProp 𝕄 :=
  iprop((bigSep (Finset.univ.erase c) fun d : Dev nD => dutyTok ER (barCell d) 0 c)
    ∗ (bigSep (Finset.Icc 1 31) fun k : ℕ => iprop(dutyTok ER (sendCell c k) 0 (0 : Dev nD) ∗ dutyTok ER (recvCell (fwd c k) k) 0 (0 : Dev nD))))

/-- The tokens dealt round: a barrier cell's token of duty e to device e, the token of receive cell k of device d to the
    device k places before d; the send tokens stay. -/
theorem toks_around : (bigSep Finset.univ fun c : Dev nD => (toks c : sProp 𝕄)) = bigSep Finset.univ fun c : Dev nD => payToks c := by
  unfold toks payToks
  simp only [bigSep_sep']
  rw [bigSep_erase_comm (fun d e : Dev nD => (dutyTok ER (barCell d) 0 e : sProp 𝕄)),
    recv_around (fun d k => (dutyTok ER (recvCell d k) 0 (0 : Dev nD) : sProp 𝕄))]

/-! ## Regrouped -/

theorem ghost_intro (K : Dev nD × Fin 65 → ℕ) (c : Dev nD) : iprop(records m ρ K ∗ linear c) ⊢ G' m ρ c := by
  unfold G'
  iintro H
  iexists K
  iexact H

theorem regroup :
    (bigSep Finset.univ fun c : Dev nD => iprop((bigSep Finset.univ fun j : Fin 65 => iprop(∃ κ : ℕ, cellInv ER (sched m ρ) κ (kcell (c, j))))
          ∗ (bigSep Finset.univ fun j : Fin 65 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × Fin 65 => iprop(∃ κ : ℕ, cellInv ER (sched m ρ) κ (kcell ck))),
    bigSep_congr (s := Finset.univ) (fun (c : Dev nD) _ => bigSep_sep' Finset.univ (fun j : Fin 65 => (atPos ER (kcell (c, j)) 0 ∅ 0 : sProp 𝕄)) (fun j => reached ER (kcell (c, j)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (sched m ρ) κ (kcell ck) : sProp 𝕄))) $$ HI
  icases HK with ⟨%K, #HI⟩
  ihave Htk := (Entails.of_eq (toks_around (F := F))) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 65 => (atPos ER (kcell (c, j)) 0 ∅ 0 : sProp 𝕄)) payToks).symm).trans
      (bigSep_mono fun c _ => show _ ⊢ linear c from Entails.of_eq (by unfold linear payToks; rfl)))
    isplitl [Hat]; · iexact Hat
    iexact Htk

/-- The global step: from every device's own and unscoped counters at zero and what it was dealt, every cell's invariant,
    and each device holding what it pays with. -/
theorem glob : (bigSep Finset.univ fun c => iprop(Pipeline.ownSems0 (Ix := IxT) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.Kernel.Pf.glob' depends on axioms: [propext, Classical.choice, Quot.sound] -/
#guard_msgs in #print axioms glob

end Cert.Kernel.Pf

end
-- ==== Proof.Bits.Launch.lean ====
/-
  The launch of the all-to-all mean on 32 devices.

  What the launch deals each device and what it asks back: the credit on a device's own cells is what the other devices owe
  them (a unit at every other device's index on its barrier cell, one slot's credit on each of its receive cells 1 … 31);
  barrier cells sit below receive cells and the staging cells below both, so every wait of a device is on a cell below all it
  still owes; a device's body starts from its share of the protocol's ghost state, its credit and the level facts, beside its
  landing buffer, and ends holding the landing buffer and its 64 own semaphores at zero. From one body obligation per device
  the whole program runs: every fair execution ends, the block of x is unchanged and the result row is what the body left
  in its staging buffer.
-/
import proofs.«900936_g7700000000000937_dist_mean_ax0_shard0_i_m1024_n512_v7x_i32_bf16_1_alg».proof.Proof.Bits.State
import proofs.«900936_g7700000000000937_dist_mean_ax0_shard0_i_m1024_n512_v7x_i32_bf16_1_alg».proof.Proof.Bits.LaunchGhost

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## The launch credit

Summed over the devices that owe, the dues are each device's own credit: a unit at every other device's index on its barrier
cell, one slot's credit on each of its receive cells 1 … 31. -/

theorem fwd_bijective (k : ℕ) : Function.Bijective fun c : Dev nD => fwd c k :=
  Finite.injective_iff_bijective.mp (Function.LeftInverse.injective (g := fun d : Dev nD => bwd d k) fun c => bwd_fwd c k)

theorem tallyOn_sum {α : Type} (s : Finset α) (g : GSem nD τ sig) (f : α → IxT →₀ ℕ) :
    (tallyOn g (∑ x ∈ s, f x) : CellTallies nD τ sig IxT) = ∑ x ∈ s, tallyOn g (f x) := by
  classical
  induction s using Finset.induction_on with
  | empty => rw [Finset.sum_empty, Finset.sum_empty, tallyOn_zero]
  | insert a s ha ih => rw [Finset.sum_insert ha, Finset.sum_insert ha, tallyOn_add, ih]

/-- What the launch credits device c: on its barrier cell a unit at every other device's index, on receive cell k the slot's credit. -/
def T₀ (c : Dev nD) : CellTallies nD τ sig IxT :=
  tallyOn (barCell c) (crBar c) + ∑ k ∈ Finset.Icc 1 31, tallyAt (recvCell c k) ι₀ N

theorem tallyOn_crBar (c : Dev nD) :
    (tallyOn (barCell c) (crBar c) : CellTallies nD τ sig IxT) = ∑ d ∈ Finset.univ.erase c, tallyAt (barCell c) ((0, d) : IxT) 1 := by
  unfold crBar; rw [tallyOn_sum]; rfl

/-- The dues of all devices are the credits of all devices: the units owed to barrier cells regrouped by the cell, the
    arrivals regrouped by the device they land on. -/
theorem sum_O₀ : (∑ d : Dev nD, O₀ d) = ∑ d : Dev nD, T₀ d := by
  unfold O₀ T₀
  rw [Finset.sum_add_distrib, Finset.sum_add_distrib]
  refine congrArg₂ (· + ·) ?_ ?_
  · rw [Finset.sum_comm' (s' := fun e : Dev nD => Finset.univ.erase e) (t' := Finset.univ) (fun d e => by
      simp only [Finset.mem_univ, Finset.mem_erase, true_and, and_true, ne_comm])]
    exact Finset.sum_congr rfl fun e _ => (tallyOn_crBar e).symm
  · rw [Finset.sum_comm]
    conv_rhs => rw [Finset.sum_comm]
    exact Finset.sum_congr rfl fun k _ => (fwd_bijective k).sum_comp fun d : Dev nD => (tallyAt (recvCell d k) ι₀ N : CellTallies nD τ sig IxT)

/-- A device's credit sits on its own cells. -/
theorem T₀_own (d : Dev nD) (g : GSem nD τ sig) (h : T₀ d g ≠ 0) : g.1 = (d : Thread nD τ) := by
  obtain ⟨u, hu⟩ := Finsupp.ne_iff.mp h
  have hp : 0 < T₀ d g u := Nat.pos_of_ne_zero hu
  unfold T₀ at hp
  rcases Pipeline.add_pos_cases hp with hp | hp
  · rw [tallyOn_crBar] at hp
    obtain ⟨e, _, he⟩ := Pipeline.sum_pos_exists hp
    rw [(Pipeline.tallyAt_pos he).1]
  · obtain ⟨k, _, hk⟩ := Pipeline.sum_pos_exists hp
    rw [(Pipeline.tallyAt_pos hk).1]

theorem creds (c : Dev nD) :
    (Pipeline.launchCred O₀ c : sProp 𝕄)
      ⊢ iprop(cred (tallyOn (barCell c) (crBar c)) ∗ bigSep (Finset.Icc 1 31) fun k : ℕ => cred (tallyAt (recvCell c k) ι₀ N)) := by
  rw [Pipeline.launchCred_of_sum O₀ T₀ sum_O₀ T₀_own c]
  unfold T₀
  rw [← Pipeline.cred_finsetSum]
  exact (cred_add _ _).1

/-! ### The barrier credit, index by index -/

theorem crBar_apply (c : Dev nD) (i : IxT) : crBar c i = if i.1 = 0 ∧ i.2 ≠ c then 1 else 0 := by
  obtain ⟨r, e⟩ := i
  unfold crBar
  rw [Finsupp.finset_sum_apply]
  simp only [Finsupp.single_apply, Prod.mk.injEq]
  by_cases hr : 0 = r
  · subst hr
    simp only [true_and]
    rw [Finset.sum_ite_eq' (Finset.univ.erase c) e fun _ => 1]
    simp only [Finset.mem_erase, Finset.mem_univ, and_true]
  · rw [Finset.sum_eq_zero fun d _ => if_neg fun h => hr h.1, if_neg fun h => hr h.1.symm]

theorem support_crBar (c : Dev nD) : (crBar c).support = (Finset.univ.erase c).image (fun d => ((0, d) : IxT)) := by
  ext i
  rw [Finsupp.mem_support_iff, crBar_apply, Finset.mem_image]
  constructor
  · intro h
    by_cases hc : i.1 = 0 ∧ i.2 ≠ c
    · exact ⟨i.2, Finset.mem_erase.mpr ⟨hc.2, Finset.mem_univ _⟩, Prod.ext hc.1.symm rfl⟩
    · rw [if_neg hc] at h; exact absurd rfl h
  · rintro ⟨d, hd, rfl⟩
    rw [if_pos ⟨rfl, (Finset.mem_erase.mp hd).1⟩]; exact Nat.one_ne_zero

theorem total_crBar (c : Dev nD) : Util.total (crBar c) = 31 := by
  unfold crBar
  rw [Util.total_finset_sum, Finset.sum_congr rfl fun d _ => Util.total_single ((0, d) : IxT) 1, Finset.sum_const,
    Finset.card_erase_of_mem (Finset.mem_univ _), Finset.card_univ, Fintype.card_fin, smul_eq_mul]
  rfl

/-! ## The levels -/

theorem L_of_ne (g : GSem nD τ sig) (h : g.1.2 ≠ .tc) : L g = ∅ := if_neg h
theorem L_tc (c : Dev nD) (sm : SemLoc sig) : L ((c : Thread nD τ), sm) = Finset.univ.image (fun d : Dev nD => ((0, d) : IxT)) := if_pos rfl
theorem mem_L (c : Dev nD) (sm : SemLoc sig) (i : IxT) (hi : i.1 = 0) : i ∈ L ((c : Thread nD τ), sm) := by
  rw [L_tc]; exact Finset.mem_image.mpr ⟨i.2, Finset.mem_univ _, Prod.ext hi.symm rfl⟩

theorem lv_bar (d : Dev nD) (i : IxT) : lv (barCell d) i = 1 := by
  show (match kindOf (.reg barS : SemLoc sig) with | .bar => 1 | .recv _ => 2 | _ => 0) = 1
  rw [kind_bar]
theorem lv_recv (d : Dev nD) (k : ℕ) (hk : 1 ≤ k ∧ k < 32) (i : IxT) : lv (recvCell d k) i = 2 := by
  show (match kindOf (.dma (recvS k) : SemLoc sig) with | .bar => 1 | .recv _ => 2 | _ => 0) = 2
  rw [kind_recv k hk]
theorem lv_stage (c : Dev nD) (q : DmaSem sig) (hq : q.val < 2) (i : IxT) : lv ((c : Thread nD τ), .dma q) i = 0 := by
  show (match (if 3 ≤ q.val ∧ q.val < 34 then Kind.send (q.val - 2) else if 35 ≤ q.val ∧ q.val < 66 then Kind.recv (q.val - 34) else Kind.other) with
    | .bar => 1 | .recv _ => 2 | _ => 0) = 0
  rw [if_neg (by omega), if_neg (by omega)]

/-- Where a device owes at launch: at round-0 indices, on barrier cells and on receive cells 1 … 31. -/
theorem O₀_pos {c : Dev nD} {g : GSem nD τ sig} {u : IxT} (h : 0 < O₀ c g u) :
    u.1 = 0 ∧ ((∃ d, g = barCell d) ∨ ∃ d k, 1 ≤ k ∧ k < 32 ∧ g = recvCell d k) := by
  unfold O₀ at h
  rcases Pipeline.add_pos_cases h with h | h
  · obtain ⟨d, _, hd⟩ := Pipeline.sum_pos_exists h
    obtain ⟨hg, hu⟩ := Pipeline.tallyAt_pos hd
    exact ⟨by rw [hu], Or.inl ⟨d, hg⟩⟩
  · obtain ⟨k, hk, hd⟩ := Pipeline.sum_pos_exists h
    obtain ⟨hg, hu⟩ := Pipeline.tallyAt_pos hd
    have := Finset.mem_Icc.mp hk
    exact ⟨by rw [hu], Or.inr ⟨fwd c k, k, this.1, by omega, hg⟩⟩

/-- The pipeline's staging waits: a staging cell is below everything a device owes at launch, and after the point it owes nothing. -/
theorem mayWait_stage (c : Dev nD) (q : DmaSem sig) (hq : q.val < 2) (O : CellTallies nD τ sig IxT) (hO : O = O₀ c ∨ O = 0) :
    (levAts L lv : sProp 𝕄) ⊢ MayWait (c : Thread nD τ) (.dma q) ι₀ O := by
  rcases hO with rfl | rfl
  · refine MayOwe.of_cut (L := L) (lev := lv) 0 (fun p hp => by rw [Finset.mem_singleton.mp hp]; exact mem_L c _ _ rfl)
      (fun g u hg => ?_) (fun p hp => by rw [Finset.mem_singleton.mp hp]; exact (lv_stage c q hq _).le) (fun g u hg => ?_)
    · obtain ⟨hu, ⟨d, rfl⟩ | ⟨d, k, _, _, rfl⟩⟩ := O₀_pos hg <;> exact mem_L d _ _ hu
    · obtain ⟨hu, ⟨d, rfl⟩ | ⟨d, k, h1, h2, rfl⟩⟩ := O₀_pos hg
      · rw [lv_bar]; exact Nat.one_pos
      · rw [lv_recv d k ⟨h1, h2⟩]; exact Nat.succ_pos 1
  · rw [MayWait_zero]; iintro -; iempintro

/-- At its barrier wait a device owes arrivals only, and a receive cell sits above every barrier cell. -/
theorem mayOwe_bar (c : Dev nD) (O : CellTallies nD τ sig IxT)
    (hO : ∀ g u, 0 < O g u → u.1 = 0 ∧ ∃ d k, 1 ≤ k ∧ k < 32 ∧ g = recvCell d k) :
    (levAts L lv : sProp 𝕄) ⊢ MayOwe (c : Thread nD τ) ((crBar c).support.image fun i => (SemLoc.reg barS, i)) O :=
  MayOwe.of_cut (L := L) (lev := lv) 1
    (fun p hp => by
      obtain ⟨i, hi, rfl⟩ := Finset.mem_image.mp hp
      rw [support_crBar] at hi; obtain ⟨d, _, rfl⟩ := Finset.mem_image.mp hi
      exact mem_L c _ _ rfl)
    (fun g u hg => by obtain ⟨hu, d, k, _, _, rfl⟩ := hO g u hg; exact mem_L d _ _ hu)
    (fun p hp => by obtain ⟨i, _, rfl⟩ := Finset.mem_image.mp hp; exact (lv_bar c i).le)
    (fun g u hg => by obtain ⟨_, d, k, h1, h2, rfl⟩ := hO g u hg; rw [lv_recv d k ⟨h1, h2⟩]; exact Nat.lt_succ_self 1)

/-- The arrivals a device owes: they are what it owes at its barrier wait. -/
theorem arrivals_pos (c : Dev nD) (g : GSem nD τ sig) (u : IxT)
    (h : 0 < (∑ k ∈ Finset.Icc 1 31, (tallyAt (recvCell (fwd c k) k) ι₀ N : CellTallies nD τ sig IxT)) g u) :
    u.1 = 0 ∧ ∃ d k, 1 ≤ k ∧ k < 32 ∧ g = recvCell d k := by
  obtain ⟨k, hk, hd⟩ := Pipeline.sum_pos_exists h
  obtain ⟨hg, hu⟩ := Pipeline.tallyAt_pos hd
  have := Finset.mem_Icc.mp hk
  exact ⟨by rw [hu], fwd c k, k, this.1, by omega, hg⟩

theorem waits (c : Dev nD) : (levAts L lv : sProp 𝕄) ⊢ Pipeline.cellsWaits cfgs (dats m ρ) ι₀ 0 c :=
  Pipeline.cellsWaits_intro cfgs (dats m ρ) ι₀ 0 c fun w s t =>
    mayWait_stage c _ (by fin_cases w <;> fin_cases s <;> decide) _ (by
      rcases t with ⟨_ | _, ht⟩
      · exact Or.inl rfl
      · exact Or.inr rfl)

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

/-- What a device's body starts from, out of what the launch hands it: its launch credit read cell by cell. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- The one scoped buffer that is no staging buffer is the landing buffer. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  isplitr; · iempintro
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters, given each device's body
    obligation: every weakly fair execution of @main — the 32 kernels handshaking on the runtime's barrier semaphore, then
    exchanging their column sums — terminates, and every final state has each device's block of x as it was and its result
    array as the write-back of what the body left. -/
theorem run_main (hbody : ∀ c : Dev nD, BodyObligation (dats (F := F) m ρ 0 c) (defs₀ (F := F)) 𝒱₀ ι₀ Set.univ) :
    θ_run defs (onTc (τ := τ) (main (F := F))) (s₀ m ρ) (QC m ρ) :=
  Pipeline.θ_run_region_owing_glob_pf (fun p => (cfgs p).toPCfg) (fun p => (cfgs p).toPCfg_adm) (dats m ρ) ι₀ cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := _)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The block of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run: the write-back of what the body left in the staging buffer, the window's block being the
    whole array. -/
theorem finalA_out (c : Dev nD) : finalA m ρ c (1 : Fin 2) = outAt m ρ c := by
  show (dats m ρ 0 c).arrAt (1 : Fin 2) ((t₀ : Fin cfg0.N).val + 1) = _
  rw [Dat.arrAt_succ, flush0_1 t₀, if_pos rfl]
  exact Memref.write_access_unit_zero_univ (Elt F) main_v1 (off := fun a => (cfg0.win 1).index t₀ a * (cfg0.win 1).size a)
    (funext fun a => Nat.zero_mul _) _ _ _

/-- info: 'Cert.Kernel.Pf.finalA_out' depends on axioms: [propext, Classical.choice, Quot.sound] -/
#guard_msgs in #print axioms finalA_out

/-- info: 'Cert.Kernel.Pf.run_main' depends on axioms: [propext, Classical.choice, Quot.sound] -/
#guard_msgs in #print axioms run_main

end Cert.Kernel.Pf

end
-- ==== Proof.Bits.Staged.lean ====
/-
  The staged block of x is the device's whole argument buffer: the window's one block is the whole [1024, 512] array.
-/
import proofs.«900936_g7700000000000937_dist_mean_ax0_shard0_i_m1024_n512_v7x_i32_bf16_1_alg».proof.Proof.Bits.State

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-- What the pipeline stages for device c is what its argument buffer holds at launch. -/
theorem xstg_eq (c : Dev nD) : xstg m ρ c = m ((c : Thread nD τ).loc main_arg0) :=
  Memref.read_access_unit_zero (Elt F) main_arg0 (off := fun a => win0_0.index (0 : Fin 1) a * win0_0.size a)
    (funext fun a => Nat.zero_mul _) _ _

/-- info: 'Cert.Kernel.Pf.xstg_eq' depends on axioms: [propext, Classical.choice, Quot.sound] -/
#guard_msgs in #print axioms xstg_eq

end Cert.Kernel.Pf

end
-- ==== Proof.Bits.Canon.lean ====
/-
  The printed program's own spellings of the protocol's memrefs, semaphores and devices, each equal to the name the proof
  holds it under: slot k of the landing buffer, send and receive semaphore k, and the devices the signals and copies name
  (signal number d + 1 names device d; copy number r names the device r places after the issuer).
  A table of cases, one equation per literal index, stated by one command that runs over the indices.
-/
import proofs.«900936_g7700000000000937_dist_mean_ax0_shard0_i_m1024_n512_v7x_i32_bf16_1_alg».proof.Proof.Bits.Cells

noncomputable section

namespace Cert.Kernel.Pf

open Cert.Kernel Cert.Kernel.Gen
open Idealize.ShloMosaic Idealize.ShloMosaic.TcCoe Idealize.ShloMosaic.Tactic
open Lean Elab Command

/-- The literal device `k`. -/
def dv (k : ℕ) : Dev nD := ⟨k % 32, Nat.mod_lt _ (by decide)⟩

/-- One equation per index: slots, send and receive semaphores, signalled devices, copy targets. -/
elab "protocol_names" : command => do
  for k in [0:32] do
    let kk := Syntax.mkNumLit (toString k)
    let inb3 := mkIdent (Name.mkSimple s!"inb_S32x1x512_S1x1x512_{k}_0_0")
    let nSlot := mkIdent (Name.mkSimple s!"slot{k}_eq")
    elabCommand (← `(@[sl_canon] theorem $nSlot :
      ((Memref.whole cc0_scratch0 : Memref sig .tc .vmem S32x1x512 .f32).slice (Rect.unit (s := S32x1x512) ![$kk, 0, 0] S1x1x512.size $inb3) (fun _ => rfl)).squeeze S1x512 squeezes_S1x1x512_S1x512
        = slotM $kk := rfl))
    let nDev := mkIdent (Name.mkSimple s!"dev{k+1}_eq")
    let kdev := mkIdent (Name.mkSimple s!"k0_dev{k+1}")
    let kdevlt := mkIdent (Name.mkSimple s!"k0_dev{k+1}_lt")
    let kdeveq := mkIdent (Name.mkSimple s!"k0_dev{k+1}_eq")
    let kcond := mkIdent (Name.mkSimple s!"k0_cond{k+1}")
    elabCommand (← `(@[sl_canon] theorem $nDev (d0 : Dev nD) (h : $kcond d0 = 1#1) :
      (⟨$kdev, $kdevlt d0 h⟩ : Dev nD) = dv $kk := Fin.ext $kdeveq))
  for k in [1:32] do
    let kk := Syntax.mkNumLit (toString k)
    let inb1 := mkIdent (Name.mkSimple s!"inb_S32_S1_{k}")
    let nSend := mkIdent (Name.mkSimple s!"sendS{k}_eq")
    let nRecv := mkIdent (Name.mkSimple s!"recvS{k}_eq")
    elabCommand (← `(@[sl_canon] theorem $nSend :
      ((cc0_scratch1.slice (Rect.unit (s := S32) ![$kk] S1.size $inb1)).squeeze S_ squeezes_S1_S_).sem = sendS $kk := rfl))
    elabCommand (← `(@[sl_canon] theorem $nRecv :
      ((cc0_scratch2.slice (Rect.unit (s := S32) ![$kk] S1.size $inb1)).squeeze S_ squeezes_S1_S_).sem = recvS $kk := rfl))
    let nDev := mkIdent (Name.mkSimple s!"dev{k+32}_eq")
    let kdev := mkIdent (Name.mkSimple s!"k0_dev{k+32}")
    let kdevlt := mkIdent (Name.mkSimple s!"k0_dev{k+32}_lt")
    let kdeveq := mkIdent (Name.mkSimple s!"k0_dev{k+32}_eq")
    elabCommand (← `(@[sl_canon] theorem $nDev (c : Dev nD) :
      (⟨$kdev c, $kdevlt c⟩ : Dev nD) = fwd c $kk := Fin.ext ($kdeveq c)))

protocol_names

end Cert.Kernel.Pf

end
-- ==== Proof.Bits.BodyKit.lean ====
/-
  Tools for running the kernel body at a symbolic device.
  The 32 guarded signals: signal number d + 1 is sent unless the device IS d, so its guard holds exactly when the device is
  not d (decided once over the mesh); under it the device is among the payers of d's barrier cell.
  Families of resources indexed by a run of numbers, as flat chains whose members a tactic names one by one.
-/
import proofs.«900936_g7700000000000937_dist_mean_ax0_shard0_i_m1024_n512_v7x_i32_bf16_1_alg».proof.Proof.Bits.Cells
import proofs.«900936_g7700000000000937_dist_mean_ax0_shard0_i_m1024_n512_v7x_i32_bf16_1_alg».proof.Proof.Bits.Canon
import proofs.«900936_g7700000000000937_dist_mean_ax0_shard0_i_m1024_n512_v7x_i32_bf16_1_alg».proof.Proof.Bits.State

noncomputable section

namespace Cert.Kernel.Pf

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (bigSep_Ico_one bigSep_Ico_succ)
open Lean Elab Command Tactic

variable {F : FTy → Type} [FloatOps F]

local notation "𝕄" => MT nD τ sig IxT (Elt F) ℕ UU ℕ

/-! ## The guards -/

/-- `condOf d c`: the guard of the signal to device `d`, as the kernel computes it (the printed `k0_cond<d+1> c`; zero past the mesh):
    a match with one arm per device, laid out by running over the devices. -/
elab "def_condOf" : command => do
  let mut alts : Array (TSyntax ``Lean.Parser.Term.matchAlt) := #[]
  for d in [0:32] do
    let dd := Syntax.mkNumLit (toString d)
    let cond := mkIdent (Name.mkSimple s!"k0_cond{d + 1}")
    alts := alts.push (← `(Lean.Parser.Term.matchAltExpr| | $dd => $cond c))
  alts := alts.push (← `(Lean.Parser.Term.matchAltExpr| | _ => 0#1))
  elabCommand (← `(def $(mkIdent `condOf) (d : ℕ) (c : Dev nD) : BitVec 1 := match d with $alts:matchAlt*))

def_condOf

/-- The guard holds exactly on the devices other than `d`. -/
theorem condOf_iff : ∀ d : Fin 32, ∀ c : Dev nD, (condOf d.val c = 1#1) ↔ (c ≠ dv d.val) := by decide +kernel

theorem tc_fst (x : Dev nD) : ((x : Thread nD τ)).1 = x := rfl

/-- One fact per guard: under it the device pays a duty of that barrier cell; where it fails the device is that one. -/
elab "guard_facts" : command => do
  for k in [1:33] do
    let kk := Syntax.mkNumLit (toString (k - 1))
    let cond := mkIdent (Name.mkSimple s!"k0_cond{k}")
    let nNe := mkIdent (Name.mkSimple s!"cond{k}_ne")
    let nMem := mkIdent (Name.mkSimple s!"mem_bar{k}")
    let nOf := mkIdent (Name.mkSimple s!"condOf_{k - 1}")
    elabCommand (← `(theorem $nOf (c : Dev nD) : condOf $kk c = $cond c := rfl))
    elabCommand (← `(theorem $nNe : ∀ c : Dev nD, $cond c = 1#1 → c ≠ dv $kk := by decide +kernel))
    elabCommand (← `(theorem $nMem {F : FTy → Type} [FloatOps F] (m : (ℓ : Loc nD τ sig) → Buf (Elt F) ℓ) (ρ : Dev nD → PrngReg) (c : Dev nD)
        (h : $cond c = 1#1) : c ∈ (sched (F := F) m ρ).duties (barCell (dv $kk)) 0 := by
      rw [duties_bar]; exact Finset.mem_erase.mpr ⟨$nNe c h, Finset.mem_univ _⟩))

guard_facts

/-- Closes `c ∈ duties (barCell (dv d)) 0` under the guard of the signal to `d`, found among the hypotheses. -/
elab "bar_mem " m:term:max ρ:term:max : tactic => do
  for k in [1:33] do
    let lem := mkIdent (`Cert.Kernel.Pf ++ Name.mkSimple s!"mem_bar{k}")
    let ok ← observing? (evalTactic (← `(tactic| sl_exact ($lem $m $ρ _ (by with_reducible assumption)))))
    if ok.isSome then return
  throwError "bar_mem: no guard in scope"

/-! ## Chains -/

/-- `Φ lo ∗ Φ (lo + 1) ∗ … ` over `n` numbers (`emp` for none). -/
def chain (Φ : ℕ → sProp 𝕄) : ℕ → ℕ → sProp 𝕄
  | _, 0 => iprop(emp)
  | lo, 1 => Φ lo
  | lo, n + 2 => iprop(Φ lo ∗ chain Φ (lo + 1) (n + 1))

theorem bigSep_Ico_chain (Φ : ℕ → sProp 𝕄) (n lo : ℕ) : bigSep (Finset.Ico lo (lo + (n + 1))) Φ = chain Φ lo (n + 1) := by
  induction n generalizing lo with
  | zero => exact bigSep_Ico_one lo Φ
  | succ n ih =>
    rw [bigSep_Ico_succ (by omega), show lo + (n + 1 + 1) = lo + 1 + (n + 1) by omega, ih (lo + 1)]
    rfl

/-- The chain over 1 … 31, member by member. -/
theorem chain31 (Φ : ℕ → sProp 𝕄) : chain Φ 1 31 = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16
    ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := rfl

theorem Icc_eq_Ico : Finset.Icc 1 31 = Finset.Ico 1 (1 + (30 + 1)) := by decide

/-- `icases_chain H as pre from lo to hi`: the members of a chain named `pre<lo> … pre<hi>` (`pers`: into the persistent context). -/
elab "icases_chain " h:ident " as " pre:ident " from " lo:num " to " hi:num pers:(" pers")? : tactic => do
  let mut pats : Array (TSyntax ``Idealize.SL.ProofMode.icasesPatAlts) := #[]
  for k in [lo.getNat : hi.getNat + 1] do
    let nm := mkIdent (Name.mkSimple s!"{pre.getId}{k}")
    let p ← if pers.isSome then `(icasesPat| # $nm:ident) else `(icasesPat| $nm:ident)
    pats := pats.push (← `(icasesPatAlts| $p:icasesPat))
  let sepPats : Syntax.TSepArray ``Idealize.SL.ProofMode.icasesPatAlts "," := .ofElems pats
  evalTactic (← `(tactic| icases $h:ident with ⟨$sepPats,*⟩))

end Cert.Kernel.Pf

end
-- ==== Proof.Bits.Flat.lean ====
/-
  The body's starting resources laid out member by member, as the symbolic run reads them: per signalled device d = 0 … 31
  its barrier cell's invariant and round-0 mark, the token of this device's duty there and the slot of this device's landing
  buffer that d writes — the last two under the signal's guard (nothing for the device's own index) —; per copy k = 1 … 31 the
  invariants and round-0 marks of this device's send cell and of the target's receive cell, the two tokens, this device's
  positions on its send and receive cells and the receive cell's launch credit; the device's own barrier cell; slot 0; and
  what the device owes, as a flat sum: the 31 arrivals and, per signalled device, a unit that is nothing when the guard fails.
-/
import proofs.«900936_g7700000000000937_dist_mean_ax0_shard0_i_m1024_n512_v7x_i32_bf16_1_alg».proof.Proof.Bits.BodyKit

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-- A sum of tallies over a run of numbers, the first number's outermost (the first paid). -/
def osum (T : ℕ → CellTallies nD τ sig IxT) : ℕ → ℕ → CellTallies nD τ sig IxT
  | _, 0 => 0
  | lo, 1 => T lo
  | lo, n + 2 => osum T (lo + 1) (n + 1) + T lo

/-- The same over a base: `((base + T (lo + n - 1)) + …) + T lo`, the first number's outermost. -/
def osumB (base : CellTallies nD τ sig IxT) (T : ℕ → CellTallies nD τ sig IxT) : ℕ → ℕ → CellTallies nD τ sig IxT
  | _, 0 => base
  | lo, n + 1 => osumB base T (lo + 1) n + T lo

/-- The arrivals a device owes: the slot's credit to receive cell `k` of the device `k` places after it. -/
def Oarr (c : Dev nD) : CellTallies nD τ sig IxT := osum (fun k => tallyAt (recvCell (fwd c k) k) ι₀ N) 1 31
/-- All it owes at the start: those, and a unit to each signalled device's barrier cell unless that device is itself. -/
def Oflat (c : Dev nD) : CellTallies nD τ sig IxT :=
  osumB (Oarr c) (fun d => tallyAt (barCell (dv d)) ((0, c) : IxT) (if condOf d c = 1#1 then 1 else 0)) 0 32

/-- What the run only reads. -/
def flatPers (κ : GSem nD τ sig → ℕ) (c : Dev nD) : sProp 𝕄 :=
  iprop(chain (fun d => cellInv ER (sched m ρ) (κ (barCell (dv d))) (barCell (dv d))) 0 32
    ∗ chain (fun d => reached ER (barCell (dv d)) 0) 0 32
    ∗ chain (fun k => cellInv ER (sched m ρ) (κ (sendCell c k)) (sendCell c k)) 1 31
    ∗ chain (fun k => reached ER (sendCell c k) 0) 1 31
    ∗ chain (fun k => cellInv ER (sched m ρ) (κ (recvCell c k)) (recvCell c k)) 1 31
    ∗ chain (fun k => cellInv ER (sched m ρ) (κ (recvCell (fwd c k) k)) (recvCell (fwd c k) k)) 1 31
    ∗ chain (fun k => reached ER (recvCell (fwd c k) k) 0) 1 31
    ∗ cellInv ER (sched m ρ) (κ (barCell c)) (barCell c)
    ∗ levAts L lv)

/-- What it consumes. -/
def flatLin (c : Dev nD) (f : Buf (Elt F) ((c : Thread nD τ).loc cc0_scratch0)) (W : Waits sig IxT) : sProp 𝕄 :=
  iprop(chain (fun d => Guarded (condOf d c = 1#1) (fun _ => dutyTok ER (barCell (dv d)) 0 c) (fun _ => (BIBase.emp : sProp 𝕄))) 0 32
    ∗ chain (fun d => Guarded (condOf d c = 1#1)
        (fun _ => ((slotM (gap (dv d) c)).view.loc (c : Thread nD τ) ↦[(slotM (gap (dv d) c)).view.set]{fullShare} f : sProp 𝕄)) (fun _ => (BIBase.emp : sProp 𝕄))) 0 32
    ∗ chain (fun k => dutyTok ER (sendCell c k) 0 (0 : Dev nD)) 1 31
    ∗ chain (fun k => dutyTok ER (recvCell (fwd c k) k) 0 (0 : Dev nD)) 1 31
    ∗ chain (fun k => atPos ER (sendCell c k) 0 ∅ 0) 1 31
    ∗ chain (fun k => atPos ER (recvCell c k) 0 ∅ 0) 1 31
    ∗ chain (fun k => cred (tallyAt (recvCell c k) ι₀ N)) 1 31
    ∗ atPos ER (barCell c) 0 ∅ 0
    ∗ cred (tallyOn (barCell c) (crBar c))
    ∗ ((slotM 0).view.loc (c : Thread nD τ) ↦[(slotM 0).view.set]{fullShare} f)
    ∗ owes (c : Thread nD τ) (Oflat c) W)

/-- The two cells no copy uses (send 0, receive 0): kept aside, to be closed with the others at the end. -/
def flatKeep (κ : GSem nD τ sig → ℕ) (c : Dev nD) : sProp 𝕄 :=
  iprop(cellInv ER (sched m ρ) (κ (sendCell c 0)) (sendCell c 0) ∗ cellInv ER (sched m ρ) (κ (recvCell c 0)) (recvCell c 0)
    ∗ atPos ER (sendCell c 0) 0 ∅ 0 ∗ atPos ER (recvCell c 0) 0 ∅ 0)

end Cert.Kernel.Pf

end
-- ==== Proof.Bits.SignalReturn.lean ====
/-
  A signal sent under a guard and followed at once by a return, the shape of the one guarded signal whose region ends a printed
  part: whether the guard holds or not the device ends owing what is left after that signal's unit, the unit being owed only
  where the guard holds. Proved by cases on the guard once, here, so that the run after it is one run.
-/
import proofs.«900936_g7700000000000937_dist_mean_ax0_shard0_i_m1024_n512_v7x_i32_bf16_1_alg».proof.Proof.Bits.Flat

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

theorem wp_guarded_signal_ret {α : Type} {C : Prop} [Decidable C] (c dst : Dev nD) (dev : C → Dev nD) (hdev : ∀ h, dev h = dst)
    (κ : ℕ) (O : CellTallies nD τ sig IxT) (W : Waits sig IxT) (T : α) (Q : α → sProp 𝕄)
    (f : Buf (Elt F) ((c : Thread nD τ).loc cc0_scratch0))
    (hmem : C → c ∈ (sched (F := F) m ρ).duties (barCell dst) 0) :
    iprop(cellInv ER (sched m ρ) κ (barCell dst) ∗ reached ER (barCell dst) 0
        ∗ Guarded C (fun _ => dutyTok ER (barCell dst) 0 c) (fun _ => (BIBase.emp : sProp 𝕄))
        ∗ Guarded C (fun _ => ((slotM (gap dst c)).view.loc (c : Thread nD τ) ↦[(slotM (gap dst c)).view.set]{fullShare} f : sProp 𝕄)) (fun _ => (BIBase.emp : sProp 𝕄))
        ∗ owes (c : Thread nD τ) (O + tallyAt (barCell dst) ((0, c) : IxT) (if C then 1 else 0)) W)
      ⊢ iprop((owes (c : Thread nD τ) O W -∗ Q T)
          -∗ wp frame (wpE (defs₀ (F := F)) 𝒱₀ (c : Thread nD τ) none) Set.univ
              (if h : C then (Prog.op (.semSignal ((dev h : Dev nD) : Thread nD τ) barS 1) fun _ => Prog.ret T) else Prog.ret T) Q) := by
  by_cases hC : C
  · rw [dif_pos hC, hdev hC, if_pos hC]
    unfold Guarded; rw [dif_pos hC, dif_pos hC]
    iintro ⟨#HI, #HR, Htok, Hslot, HO⟩ Hk
    iapply (Rounds.wp_signal 𝒱₀ ER (sched m ρ) (c : Thread nD τ) none (dst := (dst : Thread nD τ)) (κ := κ) (d := c) (hmem hC) (amount_bar m ρ dst c)
      ((0, c) : IxT) O rfl) $$ [HO Htok Hslot]
    · isplitr; · iexact HI
      isplitl [HO]; · iexact HO
      isplitl [Htok]; · iexact Htok
      isplitl [Hslot]; · rw [payload_bar]; iexists f; iexact Hslot
      iexact HR
    iintro HO
    rw [wp_ret]; imodintro
    iapply Hk; iexact HO
  · rw [dif_neg hC]
    unfold Guarded; rw [dif_neg hC, dif_neg hC, if_neg hC, tallyAt_zero, add_zero]
    iintro ⟨-, -, -, -, HO⟩ Hk
    rw [wp_ret]; imodintro
    iapply Hk; iexact HO

end Cert.Kernel.Pf

end
-- ==== Proof.Bits.Slots.lean ====
/-
  The landing buffer's 32 slots: slot k is the row (k mod 32, 0, ·) of the 32 × 1 × 512 buffer, seen as a 1 × 512 array.
  Here: each slot's element set, the 32 slots as a partition of the buffer (a points-to of the buffer is the 32 slots'),
  the shares of slot 0 (the full share is what is kept after n copies and the n shares lent), and the values: what the
  store of the column sums leaves on slot 0, what a landing leaves on slot k, and the buffer whose slot k holds the column
  sums of the device k places before, read whole, as the gathered array of all devices' blocks.
-/
import proofs.«900936_g7700000000000937_dist_mean_ax0_shard0_i_m1024_n512_v7x_i32_bf16_1_alg».proof.Proof.Bits.Cells
import proofs.«900936_g7700000000000937_dist_mean_ax0_shard0_i_m1024_n512_v7x_i32_bf16_1_alg».proof.Proof.Bits.Spec
import Idealize.ShloMosaic.Rules.PointsTo
import Idealize.ShloMosaic.Lib.ValueIdx
import Idealize.ShloMosaic.Lib.ValueLayout
import Mathlib.Order.Interval.Finset.Nat

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig IxT (Elt F) ℕ UU ℕ

variable (m : (ℓ : Loc nD τ sig) → Buf (Elt F) ℓ) (ρ : Dev nD → PrngReg)

/-! ## The slots' element sets -/

theorem slot_loc (k : ℕ) (c : Dev nD) : (slotM k).view.loc (c : Thread nD τ) = (c : Thread nD τ).loc cc0_scratch0 := rfl

/-- A slot's elements are its rectangle's: seeing the row as a 1 × 512 array keeps them. -/
theorem slot_set (k : ℕ) : (slotM k).view.set = (slotR k).set := by
  show (((View.whole cc0_scratch0).slice (slotR k)).reshape S1x512 _).set = _
  rw [View.set_reshape, View.set_slice_whole]

/-- The middle coordinate of a buffer index is 0. -/
private theorem idx_mid (i : S32x1x512.Idx) : (i 1).val = 0 := Nat.lt_one_iff.mp (show (i 1).val < 1 from (i 1).isLt)

theorem mem_slot_set (k : ℕ) (i : S32x1x512.Idx) : i ∈ (slotM k).view.set ↔ (i 0).val = k % 32 := by
  rw [slot_set, Rect.mem_set_unit]
  constructor
  · intro h
    have h0 : k % 32 ≤ (i 0).val ∧ (i 0).val < k % 32 + 1 := h 0
    omega
  · intro h a
    match a with
    | ⟨0, _⟩ => exact (show k % 32 ≤ (i 0).val ∧ (i 0).val < k % 32 + 1 from ⟨by omega, by omega⟩)
    | ⟨1, _⟩ => exact (show 0 ≤ (i 1).val ∧ (i 1).val < 0 + 1 from ⟨Nat.zero_le _, by have := idx_mid i; omega⟩)
    | ⟨2, _⟩ => exact (show 0 ≤ (i 2).val ∧ (i 2).val < 0 + 512 from ⟨Nat.zero_le _, by have : (i 2).val < 512 := (i 2).isLt; omega⟩)

theorem slot0_access_set : ((rM.access (Rect.unit (s := S32x1x512) ![0, 0, 0] S1x1x512.size inb_S32x1x512_S1x1x512_0_0_0) : View sig .tc _ _ _).set) = (slotM 0).view.set := by
  rw [slot_set]
  exact View.set_slice_whole cc0_scratch0 _

/-! ## The 32 slots partition the buffer -/

theorem slot_disjoint (k k' : ℕ) (hk : k < 32) (hk' : k' < 32) (hne : k ≠ k') :
    Disjoint (slotM k).view.set (slotM k').view.set := by
  rw [Finset.disjoint_left]
  intro i hi hi'
  have h1 := (mem_slot_set k i).mp hi
  have h2 := (mem_slot_set k' i).mp hi'
  omega

theorem slots_cover : (Finset.univ : Finset S32x1x512.Idx) = (Finset.range 32).biUnion fun k => (slotM k).view.set := by
  ext i
  simp only [Finset.mem_univ, Finset.mem_biUnion, Finset.mem_range, true_iff]
  have hlt : (i 0).val < 32 := (i 0).isLt
  exact ⟨(i 0).val, hlt, (mem_slot_set _ i).mpr (Nat.mod_eq_of_lt hlt).symm⟩

/-- the 32 slots partition the buffer: a points-to of the whole buffer, at any share, is the 32 slots' -/
theorem scratch_split (c : Dev nD) (q : PosShare TreeShare) (f : Buf (Elt F) ((c : Thread nD τ).loc cc0_scratch0)) :
    ((((c : Thread nD τ).loc cc0_scratch0) ↦{q} f : sProp 𝕄)) = bigSep (Finset.range 32) fun k => ((slotM k).view.loc (c : Thread nD τ) ↦[(slotM k).view.set]{q} f) := by
  have h := pointsTo_biUnion (nD := nD) (τ := τ) (sig := sig) (Ix := IxT) (Val := Elt F) (Name := ℕ) (U := UU) (Lvl := ℕ)
    (ℓ := (c : Thread nD τ).loc cc0_scratch0) (q := q) (f := f) (Finset.range 32) (fun k => (slotM k).view.set)
    (fun k hk k' hk' hne => slot_disjoint k k' (Finset.mem_range.mp hk) (Finset.mem_range.mp hk') hne)
  rw [← slots_cover] at h
  exact h

/-! ## The shares of slot 0 -/

private theorem Icc_succ (n : ℕ) : Finset.Icc 1 (n + 1) = insert (n + 1) (Finset.Icc 1 n) := by
  ext x; simp only [Finset.mem_Icc, Finset.mem_insert]; omega

private theorem sep_rot (P Q R : sProp 𝕄) : (iprop((P ∗ Q) ∗ R) : sProp 𝕄) = iprop(Q ∗ P ∗ R) := by
  have hc : (iprop((P ∗ Q) ∗ R) : sProp 𝕄) ⊣⊢ iprop(Q ∗ P ∗ R) := sep_assoc.trans sep_left_comm
  exact BI.equiv_iff.mp ⟨hc.1, hc.2⟩

theorem share_split_eq (n : ℕ) (c : Dev nD) (f : Buf (Elt F) ((c : Thread nD τ).loc cc0_scratch0)) :
    ((slotM 0).view.loc (c : Thread nD τ) ↦[(slotM 0).view.set]{fullShare} f : sProp 𝕄)
      = iprop(((slotM 0).view.loc (c : Thread nD τ) ↦[(slotM 0).view.set]{restSh n} f) ∗ bigSep (Finset.Icc 1 n) fun k => ((slotM 0).view.loc (c : Thread nD τ) ↦[(slotM 0).view.set]{lentSh k} f)) := by
  induction n with
  | zero =>
    rw [show Finset.Icc 1 0 = (∅ : Finset ℕ) from rfl, bigSep_empty]
    exact (BI.equiv_iff.mp ⟨sep_emp.2, sep_emp.1⟩)
  | succ n ih =>
    have hs := pointsTo_share (nD := nD) (τ := τ) (sig := sig) (Ix := IxT) (Val := Elt F) (Name := ℕ) (U := UU) (Lvl := ℕ)
      (ℓ := (slotM 0).view.loc (c : Thread nD τ)) (I := (slotM 0).view.set) (f := f) (PosShare.mem_left_op_right (restSh n))
    have hn : n + 1 ∉ Finset.Icc 1 n := by simp only [Finset.mem_Icc]; omega
    rw [Icc_succ, bigSep_insert hn, ih, BI.equiv_iff.mp ⟨hs.1, hs.2⟩]
    exact sep_rot _ _ _

/-- slot 0 at the full share is the share kept after n copies and the n shares lent -/
theorem share_split (n : ℕ) (c : Dev nD) (f : Buf (Elt F) ((c : Thread nD τ).loc cc0_scratch0)) :
    ((slotM 0).view.loc (c : Thread nD τ) ↦[(slotM 0).view.set]{fullShare} f : sProp 𝕄)
      ⊣⊢ iprop(((slotM 0).view.loc (c : Thread nD τ) ↦[(slotM 0).view.set]{restSh n} f) ∗ bigSep (Finset.Icc 1 n) fun k => ((slotM 0).view.loc (c : Thread nD τ) ↦[(slotM 0).view.set]{lentSh k} f)) :=
  ⟨Entails.of_eq (share_split_eq n c f), Entails.of_eq (share_split_eq n c f).symm⟩

/-! ## The values on the slots -/

/-- Entry `(k mod 32, 0, j)` of the landing buffer. -/
def slotIx (k : ℕ) (j : Fin 512) : S32x1x512.Idx :=
  ix3 (⟨k % 32, Nat.mod_lt _ (by decide)⟩ : Fin 32) (⟨0, Nat.one_pos⟩ : Fin 1) j

/-- An index whose first coordinate is `k mod 32` is entry `(k mod 32, 0, j)`, `j` its last coordinate. -/
theorem eq_slotIx {k : ℕ} {i : S32x1x512.Idx} (h : (i 0).val = k % 32) : i = slotIx k ⟨(i 2).val, (i 2).isLt⟩ := by
  funext a
  match a with
  | ⟨0, _⟩ => exact Fin.ext h
  | ⟨1, _⟩ => exact Fin.ext (idx_mid i)
  | ⟨2, _⟩ => rfl

/-- Slot `k`'s entry `(0, j)` sits at entry `(k mod 32, 0, j)` of the buffer. -/
theorem slot_emb (k : ℕ) (j : Fin 512) : (slotM k).view.emb (ix2 (⟨0, Nat.one_pos⟩ : Fin 1) j) = slotIx k j := by
  show (slotR k).emb (Shape.reshapeEquiv _ (ix2 (⟨0, Nat.one_pos⟩ : Fin 1) j)) = _
  rw [reshapeEquiv_ix2_1ab]
  funext a
  apply Fin.ext
  rw [Rect.emb_apply]
  match a with
  | ⟨0, _⟩ => show k % 32 + 1 * 0 = k % 32; omega
  | ⟨1, _⟩ => show 0 + 1 * 0 = 0; rfl
  | ⟨2, _⟩ => show 0 + 1 * j.val = j.val; omega

/-- The store's rectangle (the first row) places its entry `(0, 0, j)` at entry `(0, 0, j)` of the buffer. -/
theorem access0_emb (j : Fin 512) :
    ((rM.access (Rect.unit (s := S32x1x512) ![0, 0, 0] S1x1x512.size inb_S32x1x512_S1x1x512_0_0_0) : View sig .tc _ _ _).emb (rowIx j)) = slotIx 0 j := by
  show (Rect.unit (s := S32x1x512) ![0, 0, 0] S1x1x512.size inb_S32x1x512_S1x1x512_0_0_0).emb (rowIx j) = _
  funext a
  apply Fin.ext
  rw [Rect.emb_apply]
  match a with
  | ⟨0, _⟩ => show 0 + 1 * 0 = 0 % 32; rfl
  | ⟨1, _⟩ => show 0 + 1 * 0 = 0; rfl
  | ⟨2, _⟩ => show 0 + 1 * j.val = j.val; omega

/-- what the store of the column sums leaves on slot 0, whatever the buffer held: the stored buffer's slot 0 -/
theorem stored_congr (c : Dev nD) (f : Buf (Elt F) ((c : Thread nD τ).loc cc0_scratch0)) :
    ∀ i ∈ (slotM 0).view.set, ((rM.access (Rect.unit (s := S32x1x512) ![0, 0, 0] S1x1x512.size inb_S32x1x512_S1x1x512_0_0_0) : View sig .tc _ _ _).write (Elt F) f (k0_pay2 (xstg m ρ c)) Finset.univ) i = stored m ρ c i := by
  intro i hi
  rw [← slot0_access_set] at hi
  exact View.write_congr (fun _ _ _ => rfl) fun hn => absurd hi hn

theorem stored_slotIx (c : Dev nD) (j : Fin 512) : stored m ρ c (slotIx 0 j) = k0_pay2 (xstg m ρ c) (rowIx j) := by
  unfold stored
  rw [← access0_emb j, View.write_emb_of_mem _ _ (Finset.mem_univ _)]
  rfl

theorem stored_at (c : Dev nD) (i : S32x1x512.Idx) (h : i ∈ (slotM 0).view.set) : stored m ρ c i = k0_pay2 (xstg m ρ c) (rowIx ⟨(i 2).val, (i 2).isLt⟩) :=
  (congrArg (stored m ρ c) (eq_slotIx ((mem_slot_set 0 i).mp h))).trans (stored_slotIx m ρ c _)

/-- What a landing of the stored slot 0 of device `e` leaves at entry `(k mod 32, 0, j)`: entry `j` of `e`'s column sums. -/
theorem landed_slotIx (k : ℕ) (e : Dev nD) (fd : Buf (Elt F) ((slotM k).view.loc ((e : Dev nD) : Thread nD τ))) (j : Fin 512) :
    ((slotM k).view.write (Elt F) fd ((slotM 0).view.read (Elt F) (stored m ρ e)) Finset.univ) (slotIx k j)
      = k0_pay2 (xstg m ρ e) (rowIx j) := by
  rw [← slot_emb k j, View.write_emb_of_mem _ _ (Finset.mem_univ _), View.read_apply, slot_emb 0 j, stored_slotIx]
  rfl

theorem landed_at (k : ℕ) (e : Dev nD) (fd : Buf (Elt F) ((slotM k).view.loc ((e : Dev nD) : Thread nD τ))) (i : S32x1x512.Idx) (h : i ∈ (slotM k).view.set) :
    ((slotM k).view.write (Elt F) fd ((slotM 0).view.read (Elt F) (stored m ρ e)) Finset.univ) i = k0_pay2 (xstg m ρ e) (rowIx ⟨(i 2).val, (i 2).isLt⟩) :=
  (congrArg ((slotM k).view.write (Elt F) fd ((slotM 0).view.read (Elt F) (stored m ρ e)) Finset.univ) (eq_slotIx ((mem_slot_set k i).mp h))).trans
    (landed_slotIx m ρ k e fd _)

/-! ## The gathered buffer -/

/-- The device 0 places before `c` is `c`. -/
private theorem back_zero (c : Dev nD) : back c 0 = c := by
  apply Fin.ext; show (c.val + (32 - 0 % 32)) % 32 = c.val
  have := c.isLt; have : nD = 32 := rfl; omega

/-- the gathered buffer: a buffer that on slot 0 is the stored one of c and on slot k (1 ≤ k ≤ 31) is what landed from the device k places before c is, read whole, Spec.lean's `gathered` of all devices' staged blocks -/
theorem gathered_of_slots (c : Dev nD) (g : Buf (Elt F) ((c : Thread nD τ).loc cc0_scratch0)) (fd : (k : ℕ) → Buf (Elt F) ((c : Thread nD τ).loc cc0_scratch0))
    (h0 : ∀ i ∈ (slotM 0).view.set, g i = stored m ρ c i)
    (hk : ∀ k, 1 ≤ k → k < 32 → ∀ i ∈ (slotM k).view.set, g i = ((slotM k).view.write (Elt F) (fd k) ((slotM 0).view.read (Elt F) (stored m ρ (bwd c k))) Finset.univ) i) :
    (rM.view.readAt (Elt F) (Rect.unit (s := S32x1x512) ![0, 0, 0] S32x1x512.size inb_S32x1x512_S32x1x512_0_0_0).toLoadRect g) = gathered (fun d => xstg m ρ d) c := by
  refine (Memref.readAt_unit_zero (Elt F) cc0_scratch0 (by funext a; match a with | ⟨0, _⟩ => rfl | ⟨1, _⟩ => rfl | ⟨2, _⟩ => rfl) inb_S32x1x512_S32x1x512_0_0_0 g).trans ?_
  funext i
  show g i = k0_pay2 (xstg m ρ (back c (i 0).val)) (rowIx ⟨(i 2).val, (i 2).isLt⟩)
  have hlt : (i 0).val < 32 := (i 0).isLt
  by_cases hz : (i 0).val = 0
  · have hm : i ∈ (slotM 0).view.set := (mem_slot_set 0 i).mpr hz
    rw [h0 i hm, stored_at m ρ c i hm, hz, back_zero]
  · have hm : i ∈ (slotM (i 0).val).view.set := (mem_slot_set _ i).mpr (Nat.mod_eq_of_lt hlt).symm
    rw [hk _ (Nat.one_le_iff_ne_zero.mpr hz) hlt i hm, landed_at m ρ _ (bwd c (i 0).val) (fd _) i hm]
    rfl

/-! ## Slot 0 as the first row's load and store address it -/

/-- The elements a load of the first row reads are slot 0's. -/
theorem slot0_load_eq : (rM : Memref sig .tc .vmem S32x1x512 .f32).view.setOn ((Rect.unit (s := S32x1x512) ![0, 0, 0] S1x1x512.size inb_S32x1x512_S1x1x512_0_0_0).toLoadRect).set = (slotM 0).view.set := by
  rw [slot_set]
  exact Finset.map_refl

theorem slot0_load_sub : (rM : Memref sig .tc .vmem S32x1x512 .f32).view.setOn ((Rect.unit (s := S32x1x512) ![0, 0, 0] S1x1x512.size inb_S32x1x512_S1x1x512_0_0_0).toLoadRect).set ⊆ (slotM 0).view.set :=
  Finset.subset_of_eq slot0_load_eq

/-- The elements an unmasked store to the first row writes are slot 0's. -/
theorem slot0_store_eq : ((rM.access (Rect.unit (s := S32x1x512) ![0, 0, 0] S1x1x512.size inb_S32x1x512_S1x1x512_0_0_0) : View sig .tc _ _ _)).setOn Finset.univ = (slotM 0).view.set :=
  slot0_access_set

theorem slot0_store_sub : ((rM.access (Rect.unit (s := S32x1x512) ![0, 0, 0] S1x1x512.size inb_S32x1x512_S1x1x512_0_0_0) : View sig .tc _ _ _)).setOn Finset.univ ⊆ (slotM 0).view.set :=
  Finset.subset_of_eq slot0_store_eq

/-- info: 'Cert.Kernel.Pf.gathered_of_slots' depends on axioms: [propext, Classical.choice, Quot.sound] -/
#guard_msgs in #print axioms gathered_of_slots

end Cert.Kernel.Pf

end
-- ==== Proof.Bits.Joins.lean ====
/-
  The landing buffer's slots as chains: the whole buffer as slot 0 and the chain of slots 1 … 31, the shares of slot 0
  as the kept share and the chain of the 31 lent ones, and the 32 slots, each at its own contents, joined into the whole
  buffer at contents that agree with each on its slot.
-/
import proofs.«900936_g7700000000000937_dist_mean_ax0_shard0_i_m1024_n512_v7x_i32_bf16_1_alg».proof.Proof.Bits.Slots
import proofs.«900936_g7700000000000937_dist_mean_ax0_shard0_i_m1024_n512_v7x_i32_bf16_1_alg».proof.Proof.Bits.BodyKit
import Idealize.ShloMosaic.Rules.PointsTo
import Idealize.ShloMosaic.Lib.Ring

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## Runs of 32 as a first member and a chain of 31 -/

/-- A family over 0 … 31 is its member 0 and the chain of its members 1 … 31. -/
theorem bigSep_range32_chain (Φ : ℕ → sProp 𝕄) : bigSep (Finset.range 32) Φ = iprop(Φ 0 ∗ chain Φ 1 31) := by
  rw [Finset.range_eq_Ico, Idealize.ShloMosaic.Ring.bigSep_Ico_succ (by decide : 0 < 32)]
  exact congrArg (fun X : sProp 𝕄 => iprop(Φ 0 ∗ X)) (bigSep_Ico_chain Φ 30 1)

/-- Chains of families that agree on the chain's numbers are equal. -/
private theorem chain_congr (Φ Ψ : ℕ → sProp 𝕄) (n lo : ℕ) (h : ∀ k ∈ Finset.Ico lo (lo + (n + 1)), Φ k = Ψ k) :
    chain Φ lo (n + 1) = chain Ψ lo (n + 1) := by
  rw [← bigSep_Ico_chain, ← bigSep_Ico_chain]; exact bigSep_congr h

/-! ## The shares of slot 0 -/

theorem shares_eq (c : Dev nD) (f : Buf (Elt F) ((c : Thread nD τ).loc cc0_scratch0)) :
    ((slotM 0).view.loc (c : Thread nD τ) ↦[(slotM 0).view.set]{fullShare} f : sProp 𝕄)
      = iprop(((slotM 0).view.loc (c : Thread nD τ) ↦[(slotM 0).view.set]{restSh 31} f) ∗ chain (fun k => ((slotM 0).view.loc (c : Thread nD τ) ↦[(slotM 0).view.set]{lentSh k} f)) 1 31) := by
  rw [share_split_eq 31 c f, Icc_eq_Ico, bigSep_Ico_chain]

/-- slot 0 after the store: at the full share it is the kept share and the 31 lent ones, one chain member per copy -/
theorem shares_out (c : Dev nD) (f : Buf (Elt F) ((c : Thread nD τ).loc cc0_scratch0)) :
    ((slotM 0).view.loc (c : Thread nD τ) ↦[(slotM 0).view.set]{fullShare} f : sProp 𝕄)
      ⊢ iprop(((slotM 0).view.loc (c : Thread nD τ) ↦[(slotM 0).view.set]{restSh 31} f) ∗ chain (fun k => ((slotM 0).view.loc (c : Thread nD τ) ↦[(slotM 0).view.set]{lentSh k} f)) 1 31) :=
  Entails.of_eq (shares_eq c f)

theorem shares_in (c : Dev nD) (f : Buf (Elt F) ((c : Thread nD τ).loc cc0_scratch0)) :
    iprop(((slotM 0).view.loc (c : Thread nD τ) ↦[(slotM 0).view.set]{restSh 31} f) ∗ chain (fun k => ((slotM 0).view.loc (c : Thread nD τ) ↦[(slotM 0).view.set]{lentSh k} f)) 1 31)
      ⊢ ((slotM 0).view.loc (c : Thread nD τ) ↦[(slotM 0).view.set]{fullShare} f : sProp 𝕄) :=
  Entails.of_eq (shares_eq c f).symm

/-! ## The whole buffer and its 32 slots -/

/-- and the converse of the split into 32 slots in chain form: the whole buffer as slot 0 and the chain of slots 1 … 31 -/
theorem scratch_chain (c : Dev nD) (q : PosShare TreeShare) (f : Buf (Elt F) ((c : Thread nD τ).loc cc0_scratch0)) :
    ((((c : Thread nD τ).loc cc0_scratch0) ↦{q} f : sProp 𝕄)) = iprop(((slotM 0).view.loc (c : Thread nD τ) ↦[(slotM 0).view.set]{q} f) ∗ chain (fun k => ((slotM k).view.loc (c : Thread nD τ) ↦[(slotM k).view.set]{q} f)) 1 31) := by
  rw [scratch_split c q f]
  exact bigSep_range32_chain (fun k => ((slotM k).view.loc (c : Thread nD τ) ↦[(slotM k).view.set]{q} f))

/-- The contents of slot `k` in a join: `f0` on slot 0, `fs k` on the others. -/
def joinFam {ℓ : Loc nD τ sig} (f0 : Buf (Elt F) ℓ) (fs : ℕ → Buf (Elt F) ℓ) (k : ℕ) : Buf (Elt F) ℓ := if k = 0 then f0 else fs k

theorem joinFam_zero {ℓ : Loc nD τ sig} (f0 : Buf (Elt F) ℓ) (fs : ℕ → Buf (Elt F) ℓ) : joinFam f0 fs 0 = f0 := if_pos rfl
theorem joinFam_pos {ℓ : Loc nD τ sig} (f0 : Buf (Elt F) ℓ) (fs : ℕ → Buf (Elt F) ℓ) {k : ℕ} (h : k ≠ 0) : joinFam f0 fs k = fs k := if_neg h

/-- Slot 0 and the chain of slots 1 … 31, each at its own contents, as one family over 0 … 31. -/
theorem join_family (c : Dev nD) (f0 : Buf (Elt F) ((c : Thread nD τ).loc cc0_scratch0)) (fs : ℕ → Buf (Elt F) ((c : Thread nD τ).loc cc0_scratch0)) :
    (iprop(((slotM 0).view.loc (c : Thread nD τ) ↦[(slotM 0).view.set]{fullShare} f0) ∗ chain (fun k => ((slotM k).view.loc (c : Thread nD τ) ↦[(slotM k).view.set]{fullShare} fs k)) 1 31) : sProp 𝕄)
      = bigSep (Finset.range 32) fun k => ((c : Thread nD τ).loc cc0_scratch0 ↦[(slotM k).view.set]{fullShare} joinFam f0 fs k) := by
  rw [bigSep_range32_chain, joinFam_zero]
  have ec : chain (fun k => (((c : Thread nD τ).loc cc0_scratch0 ↦[(slotM k).view.set]{fullShare} joinFam f0 fs k : sProp 𝕄))) 1 (30 + 1)
      = chain (fun k => ((slotM k).view.loc (c : Thread nD τ) ↦[(slotM k).view.set]{fullShare} fs k)) 1 (30 + 1) :=
    chain_congr _ _ 30 1 fun k hk => by
      have hk0 : k ≠ 0 := by have := (Finset.mem_Ico.mp hk).1; omega
      show (_ ↦[_]{_} joinFam f0 fs k) = _
      rw [joinFam_pos f0 fs hk0]
  exact congrArg (fun X : sProp 𝕄 => iprop(((slotM 0).view.loc (c : Thread nD τ) ↦[(slotM 0).view.set]{fullShare} f0) ∗ X)) ec.symm

/-- the 32 slots, each at its own contents, joined into the whole buffer at contents that agree with each on its slot -/
theorem scratch_join (c : Dev nD) (f0 : Buf (Elt F) ((c : Thread nD τ).loc cc0_scratch0)) (fs : ℕ → Buf (Elt F) ((c : Thread nD τ).loc cc0_scratch0)) :
    iprop(((slotM 0).view.loc (c : Thread nD τ) ↦[(slotM 0).view.set]{fullShare} f0) ∗ chain (fun k => ((slotM k).view.loc (c : Thread nD τ) ↦[(slotM k).view.set]{fullShare} fs k)) 1 31)
      ⊢ (iprop(∃ g : Buf (Elt F) ((c : Thread nD τ).loc cc0_scratch0), ⌜(∀ i ∈ (slotM 0).view.set, g i = f0 i) ∧ ∀ k, 1 ≤ k → k < 32 → ∀ i ∈ (slotM k).view.set, g i = fs k i⌝ ∗ (((c : Thread nD τ).loc cc0_scratch0) ↦{fullShare} g)) : sProp 𝕄) := by
  rw [join_family c f0 fs]
  have hj := pointsTo_biUnion_join (nD := nD) (τ := τ) (sig := sig) (Ix := IxT) (Val := Elt F) (Name := ℕ) (U := UU) (Lvl := ℕ)
    (ℓ := (c : Thread nD τ).loc cc0_scratch0) (q := fullShare) (Finset.range 32) (fun k => (slotM k).view.set) (joinFam f0 fs) f0
    (fun k hk k' hk' hne => slot_disjoint k k' (Finset.mem_range.mp hk) (Finset.mem_range.mp hk') hne)
  rw [← slots_cover] at hj
  refine hj.trans ?_
  iintro H
  icases H with ⟨%g, %hg, HS⟩
  iexists g
  isplitr
  · ipureintro
    refine ⟨fun i hi => ?_, fun k h1 h32 i hi => ?_⟩
    · rw [hg 0 (Finset.mem_range.mpr (by decide)) i hi, joinFam_zero]
    · rw [hg k (Finset.mem_range.mpr h32) i hi, joinFam_pos f0 fs (by omega)]
  · iexact HS

/-- info: 'Cert.Kernel.Pf.scratch_join' depends on axioms: [propext, Classical.choice, Quot.sound] -/
#guard_msgs in #print axioms scratch_join

end Cert.Kernel.Pf

end
-- ==== Proof.Bits.Regroup.lean ====
/-
  What the words of the 31 other devices hand a device at its barrier wait, regrouped by the copy that uses it: the
  devices other than c are the devices 1 … 31 places after c, and the one k places after lends its slot k.
-/
import proofs.«900936_g7700000000000937_dist_mean_ax0_shard0_i_m1024_n512_v7x_i32_bf16_1_alg».proof.Proof.Bits.Joins
import Idealize.SL.ProofMode.BigOp

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-! ## The other devices, counted by their place after `c` -/

/-- The devices other than `c` are the devices 1 … 31 places after it. -/
theorem others_eq_image (c : Dev nD) :
    (Finset.univ.erase c : Finset (Dev nD)) = (Finset.Icc 1 31).image (fun k => fwd c k) := by
  ext d
  simp only [Finset.mem_erase, Finset.mem_univ, and_true, Finset.mem_image, Finset.mem_Icc]
  constructor
  · intro hne
    refine ⟨gap c d, ⟨?_, ?_⟩, fwd_gap c d⟩
    · rcases Nat.eq_zero_or_pos (gap c d) with h | h
      · exact absurd (gap_eq_zero h) hne
      · exact h
    · have := gap_lt c d; omega
  · rintro ⟨k, ⟨h1, h31⟩, rfl⟩ h
    have hg := gap_fwd c k (by omega)
    rw [h, gap_self] at hg
    omega

/-- Different places 1 … 31 after `c` are different devices. -/
theorem fwd_injOn (c : Dev nD) : Set.InjOn (fun k => fwd c k) (Finset.Icc 1 31 : Finset ℕ) := by
  intro k hk k' hk' e
  have hk1 := Finset.mem_Icc.mp (Finset.mem_coe.mp hk)
  have hk2 := Finset.mem_Icc.mp (Finset.mem_coe.mp hk')
  have hg := congrArg (gap c) e
  simp only at hg
  rw [gap_fwd c k (by omega), gap_fwd c k' (by omega)] at hg
  exact hg

/-! ## The barrier's payloads as a chain over the copies -/

/-- Slot `n` of device `d`, at the full share, at some contents. -/
def lentSlot (d : Dev nD) (n : ℕ) : sProp 𝕄 :=
  iprop(∃ f : Buf (Elt F) ((slotM n).view.loc (d : Thread nD τ)), ((slotM n).view.loc (d : Thread nD τ) ↦[(slotM n).view.set]{fullShare} f))

theorem bar_payloads_eq (c : Dev nD) :
    bigSep (Finset.univ.erase c) (fun d : Dev nD => lentSlot (F := F) d (gap c d)) = chain (fun k => lentSlot (F := F) (fwd c k) k) 1 31 := by
  have e1 : bigSep (Finset.univ.erase c) (fun d : Dev nD => lentSlot (F := F) d (gap c d))
      = bigSep (Finset.Icc 1 31) (fun k => lentSlot (F := F) (fwd c k) (gap c (fwd c k))) := by
    rw [others_eq_image c]
    exact bigSep_image_of_injOn (fwd_injOn c) (fun d : Dev nD => lentSlot (F := F) d (gap c d))
  have e2 : bigSep (Finset.Icc 1 31) (fun k => lentSlot (F := F) (fwd c k) (gap c (fwd c k)))
      = bigSep (Finset.Icc 1 31) (fun k => lentSlot (F := F) (fwd c k) k) :=
    bigSep_congr fun k hk => by
      have hk' := Finset.mem_Icc.mp hk
      show lentSlot (fwd c k) (gap c (fwd c k)) = lentSlot (fwd c k) k
      rw [gap_fwd c k (by omega)]
  have e3 : bigSep (Finset.Icc 1 31) (fun k => lentSlot (F := F) (fwd c k) k) = chain (fun k => lentSlot (F := F) (fwd c k) k) 1 31 := by
    rw [Icc_eq_Ico]; exact bigSep_Ico_chain _ 30 1
  exact e1.trans (e2.trans e3)

theorem bar_payloads (c : Dev nD) :
    bigSep (Finset.univ.erase c) (fun d : Dev nD => (iprop(∃ f : Buf (Elt F) ((slotM (gap c d)).view.loc (d : Thread nD τ)), ((slotM (gap c d)).view.loc (d : Thread nD τ) ↦[(slotM (gap c d)).view.set]{fullShare} f)) : sProp 𝕄))
      ⊢ chain (fun k => (iprop(∃ f : Buf (Elt F) ((slotM k).view.loc ((fwd c k : Dev nD) : Thread nD τ)), ((slotM k).view.loc ((fwd c k : Dev nD) : Thread nD τ) ↦[(slotM k).view.set]{fullShare} f)) : sProp 𝕄)) 1 31 :=
  Entails.of_eq (bar_payloads_eq (F := F) c)

theorem bar_payloads' (c : Dev nD) :
    bigSep (Finset.univ.erase c \ ∅) (fun d : Dev nD => (iprop(∃ f : Buf (Elt F) ((slotM (gap c d)).view.loc (d : Thread nD τ)), ((slotM (gap c d)).view.loc (d : Thread nD τ) ↦[(slotM (gap c d)).view.set]{fullShare} f)) : sProp 𝕄))
      ⊢ chain (fun k => (iprop(∃ f : Buf (Elt F) ((slotM k).view.loc ((fwd c k : Dev nD) : Thread nD τ)), ((slotM k).view.loc ((fwd c k : Dev nD) : Thread nD τ) ↦[(slotM k).view.set]{fullShare} f)) : sProp 𝕄)) 1 31 := by
  rw [Finset.sdiff_empty]
  exact bar_payloads (F := F) c

/-! ## The gathered buffer as one contents function -/

/-- the landing buffer of c after the exchange, as a buffer: Spec.lean's gathered of all devices' staged blocks -/
def gbuf (c : Dev nD) : Buf (Elt F) ((c : Thread nD τ).loc cc0_scratch0) := gathered (fun d => xstg m ρ d) c

/-- The device 0 places before `c` is `c`. -/
private theorem back_zero' (c : Dev nD) : back c 0 = c := by
  apply Fin.ext; show (c.val + (32 - 0 % 32)) % 32 = c.val
  have := c.isLt; have : nD = 32 := rfl; omega

theorem gbuf_apply (c : Dev nD) (i : S32x1x512.Idx) :
    gbuf m ρ c i = k0_pay2 (xstg m ρ (back c (i 0).val)) (rowIx ⟨(i 2).val, (i 2).isLt⟩) := rfl

theorem stored_gbuf (c : Dev nD) : ∀ i ∈ (slotM 0).view.set, stored m ρ c i = gbuf m ρ c i := by
  intro i hi
  have h0 : (i 0).val = 0 := (mem_slot_set 0 i).mp hi
  rw [stored_at m ρ c i hi, gbuf_apply, h0, back_zero']

theorem landed_gbuf (c : Dev nD) (k : ℕ) (hk : 1 ≤ k ∧ k < 32) (fd : Buf (Elt F) ((slotM k).view.loc (c : Thread nD τ))) :
    ∀ i ∈ (slotM k).view.set, ((slotM k).view.write (Elt F) fd ((slotM 0).view.read (Elt F) (stored m ρ (bwd c k))) Finset.univ) i = gbuf m ρ c i := by
  intro i hi
  have hkk : (i 0).val = k := ((mem_slot_set k i).mp hi).trans (Nat.mod_eq_of_lt hk.2)
  rw [landed_at m ρ k (bwd c k) fd i hi, gbuf_apply, hkk]
  rfl

theorem gbuf_read (c : Dev nD) : (rM.view.readAt (Elt F) (Rect.unit (s := S32x1x512) ![0, 0, 0] S32x1x512.size inb_S32x1x512_S32x1x512_0_0_0).toLoadRect (gbuf m ρ c)) = gathered (fun d => xstg m ρ d) c :=
  (Memref.readAt_unit_zero (Elt F) cc0_scratch0 (by funext a; match a with | ⟨0, _⟩ => rfl | ⟨1, _⟩ => rfl | ⟨2, _⟩ => rfl) inb_S32x1x512_S32x1x512_0_0_0 (gbuf m ρ c)).trans rfl

/-- info: 'Cert.Kernel.Pf.bar_payloads' depends on axioms: [propext, Classical.choice, Quot.sound] -/
#guard_msgs in #print axioms bar_payloads

/-- info: 'Cert.Kernel.Pf.landed_gbuf' depends on axioms: [propext, Classical.choice, Quot.sound] -/
#guard_msgs in #print axioms landed_gbuf

end Cert.Kernel.Pf

end
-- ==== Proof.Bits.BodyPre.lean ====
/-
  From the launch's ghost state to the body's starting resources laid out member by member, and back: the cells' invariants
  and round-0 marks read off the launch's records at the names it chose; the tokens of the duties a device pays, the slots
  of its landing buffer and its positions, each family regrouped as a chain over the signalled devices 0 … 31 (the member
  of the device itself under a guard that fails) or over the copies 1 … 31; what the device owes as a flat sum; and, after
  the run, every own cell closed with its counter back at zero.
-/
import proofs.«900936_g7700000000000937_dist_mean_ax0_shard0_i_m1024_n512_v7x_i32_bf16_1_alg».proof.Proof.Bits.Flat
import proofs.«900936_g7700000000000937_dist_mean_ax0_shard0_i_m1024_n512_v7x_i32_bf16_1_alg».proof.Proof.Bits.LaunchGhost
import proofs.«900936_g7700000000000937_dist_mean_ax0_shard0_i_m1024_n512_v7x_i32_bf16_1_alg».proof.Proof.Bits.Slots
import Idealize.ShloMosaic.Lib.Ring
import Idealize.ShloMosaic.Lib.Guarded
import Mathlib.Logic.Function.Basic
import Mathlib.Logic.Equiv.Fin.Basic

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (bigSep_fin_eq_range bigSep_Ico_succ)

variable {F : FTy → Type} [FloatOps F]

local notation "𝕄" => MT nD τ sig IxT (Elt F) ℕ UU ℕ

variable (m : (ℓ : Loc nD τ sig) → Buf (Elt F) ℓ) (ρ : Dev nD → PrngReg)

/-! ## The names of the cells -/

/-- The name of a cell: the launch's choice at the (device, index) the cell is, 0 for what is no cell of the protocol. -/
def κOf (K : Dev nD × Fin 65 → ℕ) (g : GSem nD τ sig) : ℕ := Function.extend kcell K (fun _ => 0) g

theorem κOf_kcell (K : Dev nD × Fin 65 → ℕ) (ck : Dev nD × Fin 65) : κOf K (kcell ck) = K ck :=
  kcell_injective.extend_apply K _ ck

theorem bar_kcell (d : Dev nD) : barCell d = kcell (d, 0) := by
  show _ = ((d : Thread nD τ), csem 0); rw [csem_zero]
theorem send_kcell (c : Dev nD) (k : ℕ) (hk : k < 32) : sendCell c k = kcell (c, ⟨k + 1, by omega⟩) := by
  show _ = ((c : Thread nD τ), csem ⟨k + 1, by omega⟩)
  unfold csem; rw [if_neg (by simp), if_pos (by show k + 1 ≤ 32; omega)]; rfl
theorem recv_kcell (d : Dev nD) (k : ℕ) (hk : k < 32) : recvCell d k = kcell (d, ⟨k + 33, by omega⟩) := by
  show _ = ((d : Thread nD τ), csem ⟨k + 33, by omega⟩)
  unfold csem; rw [if_neg (by simp), if_neg (by show ¬ k + 33 ≤ 32; omega)]; rfl

/-! ## What a device owes, as a flat sum -/

theorem osum_eq_sum (T : ℕ → CellTallies nD τ sig IxT) : ∀ n lo, osum T lo n = ∑ k ∈ Finset.Ico lo (lo + n), T k
  | 0, lo => by simp [osum]
  | 1, lo => by simp [osum]
  | n + 2, lo => by
    rw [osum, osum_eq_sum T (n + 1) (lo + 1), Ring.sum_Ico_succ (by omega : lo < lo + (n + 2)), show lo + 1 + (n + 1) = lo + (n + 2) by omega]
    exact add_comm _ _

theorem dv_val (d : Dev nD) : dv d.val = d := Fin.ext (Nat.mod_eq_of_lt d.isLt)

theorem osumB_eq_sum (base : CellTallies nD τ sig IxT) (T : ℕ → CellTallies nD τ sig IxT) :
    ∀ n lo, osumB base T lo n = base + ∑ k ∈ Finset.Ico lo (lo + n), T k
  | 0, lo => by simp [osumB]
  | n + 1, lo => by
    rw [osumB, osumB_eq_sum base T n (lo + 1), Ring.sum_Ico_succ (by omega : lo < lo + (n + 1)), show lo + 1 + n = lo + (n + 1) by omega, add_assoc]
    exact congrArg _ (add_comm _ _)

/-- The arrivals a device owes, as the sum over the copies. -/
theorem Oarr_eq (c : Dev nD) : Oarr c = ∑ k ∈ Finset.Icc 1 31, tallyAt (recvCell (fwd c k) k) ι₀ N :=
  (osum_eq_sum _ 31 1).trans (by rw [Icc_eq_Ico])

theorem O₀_flat (c : Dev nD) : O₀ c = Oflat c := by
  unfold O₀ Oflat
  rw [osumB_eq_sum, Oarr_eq]
  refine (add_comm _ _).trans (congrArg _ ?_)
  rw [← Finset.filter_ne' Finset.univ c, Finset.sum_filter, Nat.zero_add, ← Finset.range_eq_Ico,
    ← Fin.sum_univ_eq_sum_range (fun d => tallyAt (barCell (dv d)) ((0, c) : IxT) (if condOf d c = 1#1 then 1 else 0)) 32]
  refine Finset.sum_congr rfl fun d _ => ?_
  rw [dv_val]
  by_cases h : d = c
  · rw [if_neg (by simp [h]), if_neg (fun hc => (condOf_iff d c).mp hc (by rw [dv_val]; exact h.symm)), tallyAt_zero]
  · rw [if_pos h, if_pos ((condOf_iff d c).mpr (by rw [dv_val]; exact fun e => h e.symm))]

/-! ## Families over a device's cells, as chains -/

theorem range32_chain (Ψ : ℕ → sProp 𝕄) : bigSep (Finset.range 32) Ψ = iprop(Ψ 0 ∗ chain Ψ 1 31) := by
  rw [Finset.range_eq_Ico, bigSep_Ico_succ (by omega : 0 < 32)]
  exact congrArg (fun X => iprop(Ψ 0 ∗ X)) (bigSep_Ico_chain Ψ 30 1)

theorem range32_chain0 (Ψ : ℕ → sProp 𝕄) : bigSep (Finset.range 32) Ψ = chain Ψ 0 32 := by
  rw [Finset.range_eq_Ico]; exact bigSep_Ico_chain Ψ 31 0

theorem Icc_chain (Ψ : ℕ → sProp 𝕄) : bigSep (Finset.Icc 1 31) Ψ = chain Ψ 1 31 := by
  rw [Icc_eq_Ico]; exact bigSep_Ico_chain Ψ 30 1

/-- A family over a device's 64 own semaphores: send 0, send 1 … 31, receive 0, receive 1 … 31. -/
theorem own_cells (c : Dev nD) (Φ : GSem nD τ sig → sProp 𝕄) :
    (bigSep Finset.univ fun j : Fin 64 => Φ ((c : Thread nD τ), osem j))
      = iprop((Φ (sendCell c 0) ∗ chain (fun k => Φ (sendCell c k)) 1 31) ∗ (Φ (recvCell c 0) ∗ chain (fun k => Φ (recvCell c k)) 1 31)) := by
  have hS : (bigSep Finset.univ fun a : Fin 32 => Φ ((c : Thread nD τ), osem (finSumFinEquiv (m := 32) (n := 32) (Sum.inl a))))
      = bigSep (Finset.range 32) fun k => Φ (sendCell c k) :=
    bigSep_fin_eq_range 32 _ _ fun t h => by
      congr 1
      refine congrArg (Prod.mk _) (congrArg SemLoc.dma (Fin.ext ?_))
      show 2 + t % 32 = 2 + t; omega
  have hR : (bigSep Finset.univ fun b : Fin 32 => Φ ((c : Thread nD τ), osem (finSumFinEquiv (m := 32) (n := 32) (Sum.inr b))))
      = bigSep (Finset.range 32) fun k => Φ (recvCell c k) :=
    bigSep_fin_eq_range 32 _ _ fun t h => by
      congr 1
      refine congrArg (Prod.mk _) (congrArg SemLoc.dma (Fin.ext ?_))
      show 34 + t % 32 = 2 + (32 + t); omega
  refine (bigSep_univ_equiv (finSumFinEquiv (m := 32) (n := 32)) (fun j : Fin 64 => Φ ((c : Thread nD τ), osem j))).trans ?_
  rw [bigSep_univ_sum, hS, hR, range32_chain, range32_chain]
  rfl

/-- A family over a device's 65 cells: the barrier cell and those. -/
theorem all_cells (c : Dev nD) (Φ : GSem nD τ sig → sProp 𝕄) :
    (bigSep Finset.univ fun j : Fin 65 => Φ (kcell (c, j)))
      = iprop(Φ (barCell c) ∗ (Φ (sendCell c 0) ∗ chain (fun k => Φ (sendCell c k)) 1 31) ∗ (Φ (recvCell c 0) ∗ chain (fun k => Φ (recvCell c k)) 1 31)) := by
  have e0 : kcell (c, (0 : Fin 65)) = barCell c := (bar_kcell c).symm
  have eS (j : Fin 64) : kcell (c, j.succ) = ((c : Thread nD τ), osem j) := by show ((c : Thread nD τ), csem j.succ) = _; rw [csem_succ]
  rw [bigSep_fin65]
  simp only [e0, eS]
  rw [own_cells]

/-! ## Families over the other devices, under the signals' guards -/

/-- A family over the devices other than c, as the chain over the signalled devices 0 … 31, each member under its signal's
    guard. -/
theorem guard_chain (c : Dev nD) (Ψ : Dev nD → sProp 𝕄) :
    bigSep (Finset.univ.erase c) Ψ
      = chain (fun d => Guarded (condOf d c = 1#1) (fun _ => Ψ (dv d)) (fun _ => (BIBase.emp : sProp 𝕄))) 0 32 := by
  rw [← range32_chain0, ← Finset.filter_ne' Finset.univ c, bigSep_filter]
  exact bigSep_fin_eq_range 32 _ _ fun t h => by
    have e : dv t = (⟨t, h⟩ : Dev nD) := Fin.ext (Nat.mod_eq_of_lt h)
    have hc := condOf_iff ⟨t, h⟩ c
    by_cases hd : (⟨t, h⟩ : Dev nD) = c
    · rw [Guarded.neg (fun hg => hc.mp hg (by rw [e]; exact hd.symm)), if_neg (by simp [hd])]; rfl
    · rw [Guarded.pos (hc.mpr (by rw [e]; exact fun x => hd x.symm)), if_pos hd, e]

/-- How many places c is after a device: a bijection of the devices onto 0 … 31. -/
def gapE (c : Dev nD) : Dev nD ≃ Dev nD where
  toFun d := ⟨gap d c, gap_lt d c⟩
  invFun t := bwd c t.val
  left_inv d := by
    apply Fin.ext; show (c.val + (32 - ((c.val + (32 - d.val)) % 32) % 32)) % 32 = d.val
    have := c.isLt; have := d.isLt; have : nD = 32 := rfl; omega
  right_inv t := by
    apply Fin.ext; show (c.val + (32 - (c.val + (32 - t.val % 32)) % 32)) % 32 = t.val
    have := c.isLt; have := t.isLt; have : nD = 32 := rfl; omega

/-- A family over the slots 0 … 31 of c's landing buffer, by the device that writes the slot: slot 0 its own, the others
    under the guards of the signals to their writers. -/
theorem slots_split (c : Dev nD) (S : ℕ → sProp 𝕄) :
    bigSep (Finset.range 32) S
      = iprop(S 0 ∗ chain (fun d => Guarded (condOf d c = 1#1) (fun _ => S (gap (dv d) c)) (fun _ => (BIBase.emp : sProp 𝕄))) 0 32) := by
  rw [← guard_chain c (fun d => S (gap d c)), ← bigSep_fin_eq_range 32 (fun t : Fin 32 => S t.val) S (fun _ _ => rfl)]
  refine (bigSep_univ_equiv (gapE c) (fun t : Dev nD => S t.val)).trans ?_
  rw [bigSep_univ_split c]
  show BI.sep (S (gap c c)) _ = _
  rw [gap_self]; rfl

theorem Icc_chain2 (A B : ℕ → sProp 𝕄) : (bigSep (Finset.Icc 1 31) fun k => iprop(A k ∗ B k)) = iprop(chain A 1 31 ∗ chain B 1 31) := by
  rw [bigSep_sep', Icc_chain, Icc_chain]

/-! ## The launch's records, read at a cell -/

theorem rec_inv (K : Dev nD × Fin 65 → ℕ) {g : GSem nD τ sig} {ck : Dev nD × Fin 65} (h : g = kcell ck) :
    records m ρ K ⊢ cellInv ER (sched m ρ) (κOf K g) g := by
  subst h; rw [κOf_kcell]; unfold records
  iintro ⟨HI, -⟩
  iapply (show (bigSep Finset.univ fun ck : Dev nD × Fin 65 => (cellInv ER (sched m ρ) (K ck) (kcell ck) : sProp 𝕄)) ⊢ cellInv ER (sched m ρ) (K ck) (kcell ck)
    from bigSep_elim (Finset.mem_univ ck))
  iexact HI

theorem rec_reached (K : Dev nD × Fin 65 → ℕ) {g : GSem nD τ sig} {ck : Dev nD × Fin 65} (h : g = kcell ck) :
    records m ρ K ⊢ reached ER g 0 := by
  subst h; unfold records
  iintro ⟨-, HR⟩
  iapply (show (bigSep Finset.univ fun ck : Dev nD × Fin 65 => (reached ER (kcell ck) 0 : sProp 𝕄)) ⊢ reached ER (kcell ck) 0
    from bigSep_elim (Finset.mem_univ ck))
  iexact HR

theorem Icc_lt {k : ℕ} (hk : k ∈ Finset.Icc 1 31) : k < 32 := by have := Finset.mem_Icc.mp hk; omega

/-- What the run only reads, from the records and the level facts. -/
theorem pers_intro (K : Dev nD × Fin 65 → ℕ) (c : Dev nD) : iprop(records m ρ K ∗ levAts L lv) ⊢ flatPers m ρ (κOf K) c := by
  unfold flatPers
  simp only [← range32_chain0, ← Icc_chain]
  iintro ⟨#HR, Hlev⟩
  isplitr; · iapply (bigSep_intro_persistent (R := records m ρ K) fun d _ => rec_inv m ρ K (bar_kcell (dv d))); iexact HR
  isplitr; · iapply (bigSep_intro_persistent (R := records m ρ K) fun d _ => rec_reached m ρ K (bar_kcell (dv d))); iexact HR
  isplitr; · iapply (bigSep_intro_persistent (R := records m ρ K) fun k hk => rec_inv m ρ K (send_kcell c k (Icc_lt hk))); iexact HR
  isplitr; · iapply (bigSep_intro_persistent (R := records m ρ K) fun k hk => rec_reached m ρ K (send_kcell c k (Icc_lt hk))); iexact HR
  isplitr; · iapply (bigSep_intro_persistent (R := records m ρ K) fun k hk => rec_inv m ρ K (recv_kcell c k (Icc_lt hk))); iexact HR
  isplitr; · iapply (bigSep_intro_persistent (R := records m ρ K) fun k hk => rec_inv m ρ K (recv_kcell (fwd c k) k (Icc_lt hk))); iexact HR
  isplitr; · iapply (bigSep_intro_persistent (R := records m ρ K) fun k hk => rec_reached m ρ K (recv_kcell (fwd c k) k (Icc_lt hk))); iexact HR
  isplitr; · iapply (rec_inv m ρ K (bar_kcell c)); iexact HR
  iexact Hlev

/-! ## The starting resources -/

/-- The starting resources, as the run reads them. -/
theorem flat_intro (K : Dev nD × Fin 65 → ℕ) (c : Dev nD) (W : Waits sig IxT) :
    iprop(records m ρ K ∗ linear c ∗ cred (tallyOn (barCell c) (crBar c)) ∗ (bigSep (Finset.Icc 1 31) fun k : ℕ => cred (tallyAt (recvCell c k) ι₀ N)) ∗ levAts L lv
        ∗ (∃ f : Buf (Elt F) ((c : Thread nD τ).loc cc0_scratch0), ((c : Thread nD τ).loc cc0_scratch0) ↦{fullShare} f) ∗ owes (c : Thread nD τ) (O₀ c) W)
      ⊢ (iprop(∃ f : Buf (Elt F) ((c : Thread nD τ).loc cc0_scratch0), flatPers m ρ (κOf K) c ∗ flatLin c f W ∗ flatKeep m ρ (κOf K) c) : sProp 𝕄) := by
  rw [O₀_flat]
  iintro ⟨#HR, Hlin, Hcb, Hcr, Hlev, ⟨%f, Hf⟩, Ho⟩
  iexists f
  isplitl [Hlev]
  · iapply (pers_intro m ρ K c); isplitr; · iexact HR
    iexact Hlev
  unfold linear
  icases Hlin with ⟨Hat, Htb, Htk⟩
  ihave Hat' := (Entails.of_eq (all_cells c (fun g => (atPos ER g 0 ∅ 0 : sProp 𝕄)))) $$ Hat
  icases Hat' with ⟨HaB, ⟨HaS0, HaS⟩, HaR0, HaR⟩
  ihave Htb' := (Entails.of_eq (guard_chain c (fun d => (dutyTok ER (barCell d) 0 c : sProp 𝕄)))) $$ Htb
  ihave Htk' := (Entails.of_eq (Icc_chain2 (fun k => (dutyTok ER (sendCell c k) 0 (0 : Dev nD) : sProp 𝕄)) (fun k => dutyTok ER (recvCell (fwd c k) k) 0 (0 : Dev nD)))) $$ Htk
  icases Htk' with ⟨HtS, HtR⟩
  ihave Hcr' := (Entails.of_eq (Icc_chain (fun k => (cred (tallyAt (recvCell c k) ι₀ N) : sProp 𝕄)))) $$ Hcr
  ihave Hf' := (Entails.of_eq ((scratch_split c fullShare f).trans
    (slots_split c (fun k => ((slotM k).view.loc (c : Thread nD τ) ↦[(slotM k).view.set]{fullShare} f : sProp 𝕄))))) $$ Hf
  icases Hf' with ⟨Hs0, Hs⟩
  unfold flatLin flatKeep
  isplitl [Htb' Hs HtS HtR HaS HaR Hcr' HaB Hcb Hs0 Ho]
  · isplitl [Htb']; · iexact Htb'
    isplitl [Hs]; · iexact Hs
    isplitl [HtS]; · iexact HtS
    isplitl [HtR]; · iexact HtR
    isplitl [HaS]; · iexact HaS
    isplitl [HaR]; · iexact HaR
    isplitl [Hcr']; · iexact Hcr'
    isplitl [HaB]; · iexact HaB
    isplitl [Hcb]; · iexact Hcb
    isplitl [Hs0]; · iexact Hs0
    iexact Ho
  · isplitr; · iapply (rec_inv m ρ K (send_kcell c 0 (by omega))); iexact HR
    isplitr; · iapply (rec_inv m ρ K (recv_kcell c 0 (by omega))); iexact HR
    isplitl [HaS0]; · iexact HaS0
    iexact HaR0

/-! ## The own cells closed -/

/-- A cell at round 1, nothing taken: no round from there has a duty, so its owner closes it and has its counter, at zero. -/
theorem close_late (κ : ℕ) (g : GSem nD τ sig) :
    iprop(cellInv ER (sched m ρ) κ g ∗ atPos ER g 1 ∅ 0) ⊢ (|={Set.univ}=> semVal g 0 : sProp 𝕄) :=
  Rounds.cell_close ER (sched m ρ) (Set.mem_univ κ) (fun h => h) (R := 1) (duties_later m ρ g)

theorem duties_send0 (c : Dev nD) (r : ℕ) : (sched (F := F) m ρ).duties (sendCell c 0) r = ∅ := by
  rcases Nat.eq_zero_or_pos r with rfl | hr
  · unfold sched; dsimp only; rw [if_pos ⟨rfl, rfl⟩]; rfl
  · exact duties_later m ρ _ r hr
theorem duties_recv0 (c : Dev nD) (r : ℕ) : (sched (F := F) m ρ).duties (recvCell c 0) r = ∅ := by
  rcases Nat.eq_zero_or_pos r with rfl | hr
  · unfold sched; dsimp only; rw [if_pos ⟨rfl, rfl⟩]; rfl
  · exact duties_later m ρ _ r hr

/-- The chain of the cells of one kind, each at round 1: closed under one update. -/
theorem close_chain (κ : GSem nD τ sig → ℕ) (g : ℕ → GSem nD τ sig) :
    iprop(chain (fun k => cellInv ER (sched m ρ) (κ (g k)) (g k)) 1 31 ∗ chain (fun k => atPos ER (g k) 1 ∅ 0) 1 31)
      ⊢ (|={Set.univ}=> chain (fun k => semVal (g k) 0) 1 31 : sProp 𝕄) := by
  rw [← Icc_chain2, ← Icc_chain]
  exact (bigSep_mono fun k _ => close_late m ρ (κ (g k)) (g k)).trans (bigSep_fupd _ _)

/-- After the run every own cell is at a round with no duty left (send and receive k ≥ 1 at round 1, send 0 and receive 0 at
    round 0): closed, its counter back at zero — the 64 own semaphores as the launch wants them back. -/
theorem close_cells (κ : GSem nD τ sig → ℕ) (c : Dev nD) :
    iprop(flatPers m ρ κ c ∗ flatKeep m ρ κ c ∗ chain (fun k => atPos ER (sendCell c k) 1 ∅ 0) 1 31 ∗ chain (fun k => atPos ER (recvCell c k) 1 ∅ 0) 1 31)
      ⊢ (|={Set.univ}=> Pipeline.ownSems0 (Ix := IxT) (Name := ℕ) (U := UU) (Lvl := ℕ) (Val := Elt F) (τ := τ) osem c : sProp 𝕄) := by
  unfold flatPers flatKeep Pipeline.ownSems0
  rw [own_cells c (fun g => (semVal g 0 : sProp 𝕄))]
  iintro ⟨⟨-, -, HIS, -, HIR, -, -, -, -⟩, ⟨HIS0, HIR0, HaS0, HaR0⟩, HaS, HaR⟩
  imod (Rounds.cell_close ER (sched m ρ) (Set.mem_univ (κ (sendCell c 0))) (fun h => h) (R := 0) (fun r _ => duties_send0 m ρ c r)) $$ [HIS0 HaS0] with HzS0
  · isplitl [HIS0] <;> iassumption
  imod (Rounds.cell_close ER (sched m ρ) (Set.mem_univ (κ (recvCell c 0))) (fun h => h) (R := 0) (fun r _ => duties_recv0 m ρ c r)) $$ [HIR0 HaR0] with HzR0
  · isplitl [HIR0] <;> iassumption
  imod (close_chain m ρ κ (fun k => sendCell c k)) $$ [HIS HaS] with HzS
  · isplitl [HIS] <;> iassumption
  imod (close_chain m ρ κ (fun k => recvCell c k)) $$ [HIR HaR] with HzR
  · isplitl [HIR] <;> iassumption
  imodintro
  isplitl [HzS0 HzS]
  · isplitl [HzS0] <;> iassumption
  · isplitl [HzR0] <;> iassumption

/-- info: 'Cert.Kernel.Pf.flat_intro' depends on axioms: [propext, Classical.choice, Quot.sound] -/
#guard_msgs in #print axioms flat_intro

/-- info: 'Cert.Kernel.Pf.close_cells' depends on axioms: [propext, Classical.choice, Quot.sound] -/
#guard_msgs in #print axioms close_cells

end Cert.Kernel.Pf

end
-- ==== Proof.Bits.BodyTac.lean ====
/-
  Three small tactics over families of hypotheses named by a run of numbers: opening each member's contents, closing a
  goal that is their chain, and handing them all (with a few others) to one lemma.
-/
import proofs.«900936_g7700000000000937_dist_mean_ax0_shard0_i_m1024_n512_v7x_i32_bf16_1_alg».proof.Proof.Bits.BodyKit

noncomputable section

namespace Cert.Kernel.Pf

open Idealize.SL Idealize.SL.BI Idealize.SL.ProofMode
open scoped Idealize.SL.BI
open Lean Elab Tactic

/-- `iopen_chain pre from lo to hi`: each `pre<k> : ∃ f, …` opened, its contents the variable `pre<k>v`. -/
elab "iopen_chain " pre:ident " from " lo:num " to " hi:num : tactic => do
  for k in [lo.getNat : hi.getNat + 1] do
    let h := mkIdent (Name.mkSimple s!"{pre.getId}{k}")
    let v := mkIdent (Name.mkSimple s!"{pre.getId}{k}v")
    let vb ← `(binderIdent| $v:ident)
    let p1 ← `(icasesPat| % $vb:binderIdent)
    let p2 ← `(icasesPat| $h:ident)
    let a1 ← `(Idealize.SL.ProofMode.icasesPatAlts| $p1:icasesPat)
    let a2 ← `(Idealize.SL.ProofMode.icasesPatAlts| $p2:icasesPat)
    let sep : Syntax.TSepArray ``Idealize.SL.ProofMode.icasesPatAlts "," := .ofElems #[a1, a2]
    evalTactic (← `(tactic| icases $h:ident with ⟨$sep,*⟩))

/-- `iexact_chain pre suffix "s" from lo to hi`: closes a goal `Φ lo ∗ … ∗ Φ hi` by the hypotheses `pre<k>s`, one each. -/
elab "iexact_chain " pre:ident " suffix " suf:str " from " lo:num " to " hi:num : tactic => do
  for k in [lo.getNat : hi.getNat + 1] do
    let h := mkIdent (Name.mkSimple s!"{pre.getId}{k}{suf.getString}")
    if k < hi.getNat then
      evalTactic (← `(tactic| isplitl [$h:ident]))
      evalTactic (← `(tactic| iexact $h:ident))
    else
      evalTactic (← `(tactic| iexact $h:ident))

/-- `ihave_chain H := lemma using pre suffix "s" from lo to hi and A B …`: the lemma's premise is proved from `A B …` and the
    members `pre<k>s` (a goal left to the caller), its conclusion named `H`. -/
elab "ihave_chain " nm:ident " := " t:term " using " pre:ident " suffix " suf:str " from " lo:num " to " hi:num " and " extra:ident* : tactic => do
  let mut ids : Array (TSyntax `frameIdent) := #[]
  for e in extra do ids := ids.push (← `(frameIdent| $e:ident))
  for k in [lo.getNat : hi.getNat + 1] do
    let h := mkIdent (Name.mkSimple s!"{pre.getId}{k}{suf.getString}")
    ids := ids.push (← `(frameIdent| $h:ident))
  evalTactic (← `(tactic| ihave $nm:ident := $t:term $$ [$ids*]))

/-- `iupd_chain pre suffix "s" from lo to hi by t`: each member `pre<k>s` replaced by what the entailment `t k` makes of it. -/
elab "iupd_chain " pre:ident " suffix " suf:str " from " lo:num " to " hi:num " by " t:term : tactic => do
  for k in [lo.getNat : hi.getNat + 1] do
    let h := mkIdent (Name.mkSimple s!"{pre.getId}{k}{suf.getString}")
    let kk := Syntax.mkNumLit (toString k)
    evalTactic (← `(tactic| ihave $h:ident := ($t $kk) $$ $h:ident))

end Cert.Kernel.Pf

end
-- ==== Proof.Bits.Body.lean ====
/-
  The kernel body on one device, from what the launch hands it to what it must hand back.
  The run: the 32 guarded signals (each lends the signalled device the slot of this device's landing buffer that it writes);
  the column sums of the device's block stored in slot 0, whose points-to is then cut into one share per copy; the barrier
  wait (the 31 other devices' words, each lending the slot of that device this one writes); the 31 copies of slot 0, each
  paying a departure duty here with its share and an arrival duty there with the slot it fills; the 31 departures' waits (the
  shares come back) and the 31 arrivals' waits (slot k comes back holding what the device k places before stored); the 32
  slots rejoined, every one at the gathered buffer's contents; the slots summed and scaled into the result row; the 64 own
  cells closed. Statements of the library's rules are met from a context laid out member by member (Flat.lean).
-/
import proofs.«900936_g7700000000000937_dist_mean_ax0_shard0_i_m1024_n512_v7x_i32_bf16_1_alg».proof.Proof.Bits.Flat
import proofs.«900936_g7700000000000937_dist_mean_ax0_shard0_i_m1024_n512_v7x_i32_bf16_1_alg».proof.Proof.Bits.SignalReturn
import proofs.«900936_g7700000000000937_dist_mean_ax0_shard0_i_m1024_n512_v7x_i32_bf16_1_alg».proof.Proof.Bits.Slots
import proofs.«900936_g7700000000000937_dist_mean_ax0_shard0_i_m1024_n512_v7x_i32_bf16_1_alg».proof.Proof.Bits.Joins
import proofs.«900936_g7700000000000937_dist_mean_ax0_shard0_i_m1024_n512_v7x_i32_bf16_1_alg».proof.Proof.Bits.Regroup
import proofs.«900936_g7700000000000937_dist_mean_ax0_shard0_i_m1024_n512_v7x_i32_bf16_1_alg».proof.Proof.Bits.Launch
import proofs.«900936_g7700000000000937_dist_mean_ax0_shard0_i_m1024_n512_v7x_i32_bf16_1_alg».proof.Proof.Bits.BodyPre
import proofs.«900936_g7700000000000937_dist_mean_ax0_shard0_i_m1024_n512_v7x_i32_bf16_1_alg».proof.Proof.Bits.BodyTac

noncomputable section

namespace Cert.Kernel.Pf

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

attribute [local sl_rounds] bwd_fwd total_crBar duties_bar amount_bar payload_bar expect_bar duties_send duties_recv amount_send amount_recv
  payload_send payload_recv payload_recv_fwd expect_send expect_recv

/-- A resource set aside: held, but not read as what it is until taken out again (slot 0 while the signals hand out the other
    slots of the same buffer). -/
@[irreducible] def parked (P : sProp 𝕄) : sProp 𝕄 := P
theorem park (P : sProp 𝕄) : P ⊢ parked P := by unfold parked; exact .rfl
theorem unpark (P : sProp 𝕄) : parked P ⊢ P := by unfold parked; exact .rfl

theorem ret_bind_rfl {E : Type → Type} {α β : Type} (a : α) (k : α → Prog E β) : (Prog.ret a).bind k = k a := rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What lands in slot `k` of `c`, whatever the slot held: the gathered buffer's slot `k` (for every `k`: slots and ring places are
    taken modulo 32). -/
theorem landed_gbuf_any (c : Dev nD) (k : ℕ) (fd : Buf (Elt F) ((slotM k).view.loc (c : Thread nD τ))) :
    ∀ i ∈ (slotM k).view.set, ((slotM k).view.write (Elt F) fd ((slotM 0).view.read (Elt F) (stored m ρ (bwd c k))) Finset.univ) i = gbuf m ρ c i := by
  intro i hi
  have h0 : (i 0).val = k % 32 := (mem_slot_set k i).mp hi
  rw [landed_at m ρ k (bwd c k) fd i hi, gbuf_apply]
  have e : back c (i 0).val = bwd c k := by
    apply Fin.ext; show (c.val + (32 - (i 0).val % 32)) % 32 = (c.val + (32 - k % 32)) % 32
    rw [h0, Nat.mod_mod]
  rw [e]

def bodyPost (c : Dev nD) : sProp 𝕄 :=
  iprop(Φ₁ (F := F) c ∗ (dats m ρ 0 c).owesAt ι₀ t₀.succ ∗ stg c cc0_stg0_0 (xstg m ρ c) ∗ stg c cc0_stg1_0 (outAt m ρ c))

set_option maxRecDepth 8000 in
set_option maxHeartbeats 40000000 in
set_option sl_exec.dischHeartbeats 30000 in
/-- The body, run from the launch's resources to what the launch wants back. -/
theorem sound_body (K : Dev nD × Fin 65 → ℕ) (c : Dev nD) (W : Waits sig IxT) (fo : Buf (Elt F) ((c : Thread nD τ).loc cc0_stg1_0)) (Kt : PUnit → sProp 𝕄) :
    iprop(records m ρ K ∗ levAts L lv ∗ linear c ∗ cred (tallyOn (barCell c) (crBar c)) ∗ (bigSep (Finset.Icc 1 31) fun k : ℕ => cred (tallyAt (recvCell c k) ι₀ N))
        ∗ (∃ f : Buf (Elt F) ((c : Thread nD τ).loc cc0_scratch0), ((c : Thread nD τ).loc cc0_scratch0) ↦{fullShare} f) ∗ owes (c : Thread nD τ) (O₀ c) W
        ∗ (((c : Thread nD τ).loc cc0_stg0_0) ↦{fullShare} xstg m ρ c) ∗ (((c : Thread nD τ).loc cc0_stg1_0) ↦{fullShare} fo)
        ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  iintro ⟨#Hrec, #Hlev, Hlin, Hcb, Hcr, Hscr, HO, Hx, Hout, Hk⟩
  ihave Hfl := (flat_intro m ρ K c W) $$ [Hlin Hcb Hcr Hscr HO]
  · isplitr; · iexact Hrec
    isplitl [Hlin]; · iexact Hlin
    isplitl [Hcb]; · iexact Hcb
    isplitl [Hcr]; · iexact Hcr
    isplitr; · iexact Hlev
    isplitl [Hscr]; · iexact Hscr
    iexact HO
  icases Hfl with ⟨%f, Hfp, HL, HK⟩
  unfold flatPers flatLin Oflat Oarr
  simp (config := { proj := false }) only [chain, osum, osumB, Nat.reduceAdd]
  simp (config := { proj := false }) only [condOf_0, condOf_1, condOf_2, condOf_3, condOf_4, condOf_5, condOf_6, condOf_7, condOf_8, condOf_9, condOf_10, condOf_11, condOf_12, condOf_13, condOf_14, condOf_15, condOf_16, condOf_17, condOf_18, condOf_19, condOf_20, condOf_21, condOf_22, condOf_23, condOf_24, condOf_25, condOf_26, condOf_27, condOf_28, condOf_29, condOf_30, condOf_31]
  icases Hfp with ⟨HIb, HRb, HIs, HRs, HIr, HIp, HRp, #HIbc, -⟩
  icases HL with ⟨Htb, Hsl, Hts, Htp, Has, Har, Hcr, Hab, Hcb, Hs0, HO⟩
  icases_chain HIb as HIb from 0 to 31 pers
  icases_chain HRb as HRb from 0 to 31 pers
  icases_chain HIs as HIs from 1 to 31 pers
  icases_chain HRs as HRs from 1 to 31 pers
  icases_chain HIr as HIr from 1 to 31 pers
  icases_chain HIp as HIp from 1 to 31 pers
  icases_chain HRp as HRp from 1 to 31 pers
  icases_chain Htb as Htb from 0 to 31
  icases_chain Hsl as Hsl from 0 to 31
  icases_chain Hts as Hts from 1 to 31
  icases_chain Htp as Htp from 1 to 31
  icases_chain Has as Has from 1 to 31
  icases_chain Har as Har from 1 to 31
  icases_chain Hcr as Hcr from 1 to 31
  ihave Hp0 := (park _) $$ Hs0
  ihave Hx := (Entails.of_eq (show ((((c : Thread nD τ).loc cc0_stg0_0) ↦{fullShare} xstg m ρ c : sProp 𝕄)) = ((xM : Memref sig .tc .vmem S1024x512 .f32).view.loc (c : Thread nD τ) ↦[(xM : Memref sig .tc .vmem S1024x512 .f32).view.set]{fullShare} xstg m ρ c) from by rw [View.set_whole])) $$ Hx
  ihave Hout := (Entails.of_eq (show ((((c : Thread nD τ).loc cc0_stg1_0) ↦{fullShare} fo : sProp 𝕄)) = ((oM : Memref sig .tc .vmem S1x512 .f32).view.loc (c : Thread nD τ) ↦[(oM : Memref sig .tc .vmem S1x512 .f32).view.set]{fullShare} fo) from by rw [View.set_whole])) $$ Hout
  -- the device's id, then the signals to devices 0 … 6
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- the signal to device 7, whose region ends the first printed part
  iapply (wp_guarded_signal_ret m ρ c (dv 7) (fun h => ⟨k0_dev8, k0_dev8_lt _ h⟩) (fun h => dev8_eq _ h) (κOf K (barCell (dv 7))) _ W _ _ f (fun h => mem_bar8 m ρ c h)) $$ [HO Htb7 Hsl7]
  · isplitr; · iexact HIb7
    isplitr; · iexact HRb7
    isplitl [Htb7]; · iexact Htb7
    isplitl [Hsl7]; · iexact Hsl7
    iexact HO
  iintro HO
  -- the signals to devices 8 … 31; the staged block read
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- slot 0: read (a dead load), then overwritten with the column sums of the device's block
  ihave Hs0 := (unpark _) $$ Hp0
  iapply (wp_load 𝒱₀ (c : Thread nD τ) none Set.univ (m := rM) slot0_load_sub) $$ Hs0
  iintro Hs0
  iapply (wp_store 𝒱₀ (c : Thread nD τ) none Set.univ (m := rM) (r := Rect.unit (s := S32x1x512) ![0, 0, 0] S1x1x512.size inb_S32x1x512_S1x1x512_0_0_0)
    (Mk := Finset.univ) slot0_store_sub) $$ Hs0
  iintro Hs0
  have hx : View.readAt (Elt F) (xM : Memref sig .tc .vmem S1024x512 .f32).view (Rect.unit (s := S1024x512) ![0, 0] S1024x512.size inb_S1024x512_S1024x512_0_0).toLoadRect (xstg m ρ c)
      = xstg m ρ c := Memref.readAt_unit_zero (Elt F) cc0_stg0_0 (funext fun a => by fin_cases a <;> rfl) _ _
  rw [hx]
  simp (config := { proj := false }) only [ret_bind_rfl]
  ihave Hs0 := (Entails.of_eq (pointsTo_congr (ℓ := (c : Thread nD τ).loc cc0_scratch0) (stored_congr m ρ c f))) $$ Hs0
  ihave Hsh := (shares_out c (stored m ρ c)) $$ Hs0
  icases Hsh with ⟨Hkeep, Hsrc⟩
  ihave Hsrc := (Entails.of_eq (chain31 _)) $$ Hsrc
  icases_chain Hsrc as Hsrc from 1 to 31
  -- the barrier wait: the 31 other devices' words, while owing only arrivals
  have hmo : (levAts L lv : sProp 𝕄) ⊢ MayOwe (c : Thread nD τ) ((crBar c).support.image fun i => (SemLoc.reg barS, i)) (Oarr c) :=
    mayOwe_bar c (Oarr c) (by rw [Oarr_eq]; exact fun g u => arrivals_pos c g u)
  unfold Oarr at hmo
  simp (config := { proj := false }) only [osum, Nat.reduceAdd] at hmo
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- the words' payloads: the slot of every other device that this device writes, by the copy that writes it
  ihave Hd := (bar_payloads c) $$ Hab_pay1
  ihave Hd := (Entails.of_eq (chain31 _)) $$ Hd
  icases_chain Hd as Hd from 1 to 31
  iopen_chain Hd from 1 to 31
  -- the 31 copies, then the 31 departures' and the 31 arrivals' waits
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- slot 0 whole again; every slot at the gathered buffer's contents; the buffer whole
  ihave_chain Hs0 := (shares_in c (stored m ρ c)) using Has suffix "_pay1" from 1 to 31 and Hkeep
  · rw [chain31]; isplitl [Hkeep]; · iexact Hkeep
    iexact_chain Has suffix "_pay1" from 1 to 31
  ihave Hs0 := (Entails.of_eq (pointsTo_congr (ℓ := (c : Thread nD τ).loc cc0_scratch0) (stored_gbuf m ρ c))) $$ Hs0
  iupd_chain Har suffix "_pay1" from 1 to 31 by (fun k => Entails.of_eq (pointsTo_congr (ℓ := (c : Thread nD τ).loc cc0_scratch0) (landed_gbuf_any m ρ c k _)))
  ihave_chain Hscr := (Entails.of_eq (scratch_chain c fullShare (gbuf m ρ c)).symm) using Har suffix "_pay1" from 1 to 31 and Hs0
  · rw [chain31]; isplitl [Hs0]; · iexact Hs0
    iexact_chain Har suffix "_pay1" from 1 to 31
  ihave Hscr := (Entails.of_eq (show ((((c : Thread nD τ).loc cc0_scratch0) ↦{fullShare} gbuf m ρ c : sProp 𝕄)) = ((rM : Memref sig .tc .vmem S32x1x512 .f32).view.loc (c : Thread nD τ) ↦[(rM : Memref sig .tc .vmem S32x1x512 .f32).view.set]{fullShare} gbuf m ρ c) from by rw [View.set_whole])) $$ Hscr
  -- the slots summed and scaled into the result row
  sl_exec (disch := first
    | (refine (?_ : (_ : CellTallies nD τ sig IxT) = _); simp only [tc_fst] at *; simp only [*, ↓reduceIte, tallyAt_zero, add_zero]; done)
    | (refine (?_ : (_ : CellTallies nD τ sig IxT) = _); simp only [tc_fst] at *; simp only [*, ↓reduceIte]; rfl)
    | (simp only [tc_fst] at *; bar_mem m ρ)
    | simp only [dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq])
  -- the result row: the one write of the whole [1, 512] staging buffer, over the gathered buffer read whole
  have hw : ∀ w, (oM : Memref sig .tc .vmem S1x512 .f32).view.writes (Elt F) fo [⟨Rect.unit (s := S1x512) ![0, 0] S1x512.size inb_S1x512_S1x512_0_0, w⟩] = w :=
    fun w => by
      rw [View.writes_singleton]
      exact Memref.write_access_unit_zero_univ (Elt F) cc0_stg1_0 (off := ![0, 0]) (funext fun a => by fin_cases a <;> rfl) inb_S1x512_S1x512_0_0 fo w
  rw [hw, gbuf_read]
  -- the 64 own cells closed: their counters, at zero, are the device's again
  ihave Hfp2 := (pers_intro m ρ K c) $$ []
  · isplitr; · iexact Hrec
    iexact Hlev
  ihave_chain HAs := (Entails.of_eq (chain31 (fun k => atPos ER (sendCell c k) 1 ∅ 0)).symm) using Has suffix "" from 1 to 31 and
  · iexact_chain Has suffix "" from 1 to 31
  ihave_chain HAr := (Entails.of_eq (chain31 (fun k => atPos ER (recvCell c k) 1 ∅ 0)).symm) using Har suffix "" from 1 to 31 and
  · iexact_chain Har suffix "" from 1 to 31
  imod (close_cells m ρ (κOf K) c) $$ [Hfp2 HK HAs HAr] with Hsems
  · isplitl [Hfp2]; · iexact Hfp2
    isplitl [HK]; · iexact HK
    isplitl [HAs]; · iexact HAs
    iexact HAr
  ihave Hx := (Entails.of_eq (show ((((c : Thread nD τ).loc cc0_stg0_0) ↦{fullShare} xstg m ρ c : sProp 𝕄)) = ((xM : Memref sig .tc .vmem S1024x512 .f32).view.loc (c : Thread nD τ) ↦[(xM : Memref sig .tc .vmem S1024x512 .f32).view.set]{fullShare} xstg m ρ c) from by rw [View.set_whole]).symm) $$ Hx
  ihave Hout := (Entails.of_eq (show ((((c : Thread nD τ).loc cc0_stg1_0) ↦{fullShare} k0_pay1 (gathered (fun d => xstg m ρ d) c) : sProp 𝕄)) = ((oM : Memref sig .tc .vmem S1x512 .f32).view.loc (c : Thread nD τ) ↦[(oM : Memref sig .tc .vmem S1x512 .f32).view.set]{fullShare} k0_pay1 (gathered (fun d => xstg m ρ d) c)) from by rw [View.set_whole]).symm) $$ Hout
  ihave Hscr := (Entails.of_eq (show ((((c : Thread nD τ).loc cc0_scratch0) ↦{fullShare} gbuf m ρ c : sProp 𝕄)) = ((rM : Memref sig .tc .vmem S32x1x512 .f32).view.loc (c : Thread nD τ) ↦[(rM : Memref sig .tc .vmem S32x1x512 .f32).view.set]{fullShare} gbuf m ρ c) from by rw [View.set_whole]).symm) $$ Hscr
  rw [wp_ret]; imodintro
  iapply Hk
  unfold bodyPost Φ₁ Dat.owesAt Pipeline.owesWithin
  rw [show (dats m ρ 0 c).owed t₀.succ = 0 from rfl]
  isplitl [Hscr Hsems]
  · isplitl [Hscr]; · iexists _; iexact Hscr
    iexact Hsems
  isplitl [HO]
  · iexists _
    isplitr
    rotate_left
    · iexact HO
    ipureintro; exact fun _ _ => Or.inl trivial
  isplitl [Hx]
  · iexists _; isplitr; · (ipureintro; rfl)
    iexact Hx
  iexists _; isplitr; · (ipureintro; rfl)
  iexact Hout

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := IxT) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the library's body obligation gives the body at its one point. -/
def bodyPre' (c : Dev nD) : sProp 𝕄 :=
  iprop(Φ₀ m ρ c ∗ (dats m ρ 0 c).owesAt ι₀ t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ ι₀ Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start G'
  iintro ⟨⟨⟨⟨%K, Hrec, Hlin⟩, Hcb, Hcr, Hlev⟩, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (sound_body m ρ K c W g1 fun _ => bodyPost m ρ c)
  isplitl [Hrec]; · iexact Hrec
  isplitl [Hlev]; · iexact Hlev
  isplitl [Hlin]; · iexact Hlin
  isplitl [Hcb]; · iexact Hcb
  isplitl [Hcr]; · iexact Hcr
  isplitl [Hscr]; · iexact Hscr
  isplitl [HO]; · iexact HO
  isplitl [Hx]; · iexact Hx
  isplitl [Hout]; · iexact Hout
  iintro H; iexact H

/-- info: 'Cert.Kernel.Pf.body_obligation' depends on axioms: [propext, Classical.choice, Quot.sound] -/
#guard_msgs in #print axioms body_obligation

end Cert.Kernel.Pf

end
-- ==== Proof.Bits.Runs.lean ====
/-
  The whole program's run, read at the arrays the claims speak of: from the launch theorem's run and each device's body
  obligation, every fair execution of the 32 kernels ends with each device's block of x unchanged and its result row the
  scaled sum, over the 32 slots of its landing buffer, of the column sums of the blocks of all devices.
-/
import proofs.«900936_g7700000000000937_dist_mean_ax0_shard0_i_m1024_n512_v7x_i32_bf16_1_alg».proof.Proof.Bits.Launch
import proofs.«900936_g7700000000000937_dist_mean_ax0_shard0_i_m1024_n512_v7x_i32_bf16_1_alg».proof.Proof.Bits.Staged
import proofs.«900936_g7700000000000937_dist_mean_ax0_shard0_i_m1024_n512_v7x_i32_bf16_1_alg».proof.Proof.Bits.Body

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig IxT (Elt F) ℕ UU ℕ

variable (m : (ℓ : Loc nD τ sig) → Buf (Elt F) ℓ) (ρ : Dev nD → PrngReg)

/-- The whole program's run with everything the claims read: every fair execution ends, and on every device the block of x is
    unchanged and the result row is the scaled sum of the gathered column sums of all devices' blocks. -/
theorem run_value : θ_run defs (onTc (τ := τ) (main (F := F))) ⟨m, fun _ => 0, ρ⟩ (fun r => ∀ c : Dev nD,
    r.2.mem ((c.tc : Thread nD τ).loc main_v1) = k0_pay1 (gathered (fun d => m ((d.tc : Thread nD τ).loc main_arg0)) c)
    ∧ r.2.mem ((c.tc : Thread nD τ).loc main_arg0) = m ((c.tc : Thread nD τ).loc main_arg0)) :=
  (θ_run defs _ _).mono (fun _ h c =>
      ⟨((h c (1 : Fin 2)).trans (finalA_out m ρ c)).trans (congrArg (fun xs => k0_pay1 (gathered xs c)) (funext fun d => xstg_eq m ρ d)),
       (h c (0 : Fin 2)).trans (finalA_x m ρ c)⟩)
    (run_main m ρ (body_obligation m ρ))

/-- The frame: that run with the result's value dropped. -/
theorem run_frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (run_value m ρ)

/-- info: 'Cert.Kernel.Pf.run_value' depends on axioms: [propext, Classical.choice, Quot.sound] -/
#guard_msgs in #print axioms run_value

end Cert.Kernel.Pf

end
-- ==== Proof.lean ====
/-
  The mean over all 32768 rows of a [32768, 512] array, computed on 32 devices that each hold 1024 of the rows, against the
  one-device reference.

  Each device sums its block's columns, the 32 devices exchange their column sums all-to-all, and each sums the 32 rows it then
  holds and multiplies by 2^-15; the reference sums all 32768 rows and divides by 32768. The five conjuncts: the word-level
  kernel, the kernel read over the extended reals, and the reference each terminate on every fair execution and leave their
  argument arrays unchanged (the two kernels' from one run, proved once for any float values: each device's body obligation,
  the launch, and the arrays read back); the idealized kernel is the word-level kernel's own text, so nothing is to be
  preserved; and over the extended reals, when every device's buffer is its block of the reference's array, every device's
  result row is the reference's result. The law that joins the two sides: the sum over the 32768 rows regrouped by
  (slot, row of the block) — the slot k of device c holding the column sums of the device k places before c —, and that the
  product with 2^-15 is the quotient by 32768 on every extended real, so that no finiteness of the inputs is used.
-/
import proofs.«900936_g7700000000000937_dist_mean_ax0_shard0_i_m1024_n512_v7x_i32_bf16_1_alg».proof.Defs
import proofs.«900936_g7700000000000937_dist_mean_ax0_shard0_i_m1024_n512_v7x_i32_bf16_1_alg».proof.Proof.Gen.Kernel
import proofs.«900936_g7700000000000937_dist_mean_ax0_shard0_i_m1024_n512_v7x_i32_bf16_1_alg».proof.Proof.Gen.Kernel.Skeleton
import proofs.«900936_g7700000000000937_dist_mean_ax0_shard0_i_m1024_n512_v7x_i32_bf16_1_alg».proof.Proof.Gen.Kernel.Launch
import proofs.«900936_g7700000000000937_dist_mean_ax0_shard0_i_m1024_n512_v7x_i32_bf16_1_alg».proof.Proof.Gen.Kernel.Points
import proofs.«900936_g7700000000000937_dist_mean_ax0_shard0_i_m1024_n512_v7x_i32_bf16_1_alg».proof.Proof.Gen.Kernel.Frame
import proofs.«900936_g7700000000000937_dist_mean_ax0_shard0_i_m1024_n512_v7x_i32_bf16_1_alg».proof.Proof.Gen.KernelIdeal
import proofs.«900936_g7700000000000937_dist_mean_ax0_shard0_i_m1024_n512_v7x_i32_bf16_1_alg».proof.Proof.Gen.KernelIdeal.Skeleton
import proofs.«900936_g7700000000000937_dist_mean_ax0_shard0_i_m1024_n512_v7x_i32_bf16_1_alg».proof.Proof.Gen.KernelIdeal.Launch
import proofs.«900936_g7700000000000937_dist_mean_ax0_shard0_i_m1024_n512_v7x_i32_bf16_1_alg».proof.Proof.Gen.KernelIdeal.Points
import proofs.«900936_g7700000000000937_dist_mean_ax0_shard0_i_m1024_n512_v7x_i32_bf16_1_alg».proof.Proof.Gen.KernelIdeal.Frame
import proofs.«900936_g7700000000000937_dist_mean_ax0_shard0_i_m1024_n512_v7x_i32_bf16_1_alg».proof.Proof.Gen.ReferenceIdeal
import proofs.«900936_g7700000000000937_dist_mean_ax0_shard0_i_m1024_n512_v7x_i32_bf16_1_alg».proof.Proof.Gen.Pre_finite_inputs_Kernel
import proofs.«900936_g7700000000000937_dist_mean_ax0_shard0_i_m1024_n512_v7x_i32_bf16_1_alg».proof.Proof.Gen.Pre_finite_inputs_ReferenceIdeal
import Idealize.ShloMosaic.Adequacy
import Idealize.ShloMosaic.Init
import proofs.«900936_g7700000000000937_dist_mean_ax0_shard0_i_m1024_n512_v7x_i32_bf16_1_alg».proof.Proof.Runs
import proofs.«900936_g7700000000000937_dist_mean_ax0_shard0_i_m1024_n512_v7x_i32_bf16_1_alg».proof.Proof.Value
import proofs.«900936_g7700000000000937_dist_mean_ax0_shard0_i_m1024_n512_v7x_i32_bf16_1_alg».proof.Proof.RefSide
import proofs.«900936_g7700000000000937_dist_mean_ax0_shard0_i_m1024_n512_v7x_i32_bf16_1_alg».proof.Proof.Bits.Runs

noncomputable section

namespace Cert.Proof

open Idealize.ShloMosaic Idealize.SL.Sem Cert.Kernel

/-- The word-level kernel terminates on every fair execution and leaves every device's block of x as it was. -/
theorem frame_k : Cert.frame_Kernel := fun m ρ _ => Cert.Kernel.Pf.run_frame (F := Bits) m ρ

/-- The same of the kernel read over the extended reals. -/
theorem frame_ki : Cert.frame_KernelIdeal := fun m ρ _ => Cert.KernelIdeal.Pf.run_frame (F := Ideal) m ρ

/-- Over the extended reals, when each device holds its block of the 32768 rows: every device's result row is the reference's
    mean, both programs terminate, and the arguments of both are unchanged. -/
theorem algebraic : Cert.algebraic_KernelIdeal_ReferenceIdeal := by
  intro m ρ m' ρ' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c =>
        ⟨((h c).1.trans (congrArg (fun xs => Cert.KernelIdeal.Gen.k0_pay1 (F := Ideal) (Cert.KernelIdeal.Pf.gathered (F := Ideal) xs c)) (funext hagree))).trans
            (Cert.KernelIdeal.Val.mean_eq _ c),
          (h c).2⟩)
      (Cert.KernelIdeal.Pf.run_value (F := Ideal) m ρ)
  · exact (θ_run Cert.ReferenceIdeal.defs _ _).mono (fun _ h =>
        ⟨(h 0).1.trans (Cert.ReferenceIdeal.Read.val_main_v3_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdeal.Ref.frame_ri, trivial, algebraic⟩

/-- info: 'Cert.Proof.claim' depends on axioms: [propext, Classical.choice, Quot.sound] -/
#guard_msgs in #print axioms claim

end Cert.Proof

end
